-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 512]⟩ ⟨3, ![2, 256, 512]⟩ (Layout.meshBlock [2, 2, 4] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 256]⟩ ⟨2, ![256, 512]⟩ (Layout.meshBlock [2, 2, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x256x512 : Shape := ⟨3, ![1, 256, 512]⟩
abbrev S_ : Shape := ⟨0, ![]⟩

class Facts : Prop where
  bcast_S_S1x256x512 : S_.BroadcastsInDim S1x256x512 (![] : Fin 0 → Fin S1x256x512.rank)
  reducesTo_S1x256x512_S_d0_1_2 : S1x256x512.ReducesTo [0, 1, 2] S_
  h_S_ : 0 < S_.numel

variable [Facts]

def fn {F : FTy → Type} [FloatOps F] (main_arg0 : FVec F S1x256x512 .f32) : IVec S_ 1 :=
  let main_v0 : FVec F S1x256x512 .f32 := Host.absf main_arg0
  let main_cst : FVec F S_ .f32 := constant S_ .f32 0x7F800000#32
  let main_v1 : FVec F S1x256x512 .f32 := broadcastInDim S1x256x512 ![] bcast_S_S1x256x512 main_cst
  let main_v2 : IVec S1x256x512 1 := cmpf .olt main_v0 main_v1
  let main_c : IVec S_ 1 := constantI S_ 1 1#1
  let main_v3 : IVec S_ 1 := (fun x v => Host.reduce IntOp.andi x v reducesTo_S1x256x512_S_d0_1_2 h_S_) main_v2 main_c
  main_v3
-- ==== Pre_finite_inputs_ReferenceIdeal.lean ====
abbrev S2x256x512 : Shape := ⟨3, ![2, 256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel

variable [Facts]

def fn {F : FTy → Type} [FloatOps F] (main_arg0 : FVec F S2x256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  main_v3
-- ==== Kernel.lean ====
abbrev S1x256x512 : Shape := ⟨3, ![1, 256, 512]⟩
abbrev S256x256 : Shape := ⟨2, ![256, 256]⟩
abbrev S4 : Shape := ⟨1, ![4]⟩
abbrev S_ : Shape := ⟨0, ![]⟩
abbrev S1x64x256 : Shape := ⟨3, ![1, 64, 256]⟩
abbrev S64x256 : Shape := ⟨2, ![64, 256]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S1x256x512, .f32⟩
  | .hbm, ⟨1, _⟩ => ⟨S256x256, .bf16⟩
  | .local _ .vmem, ⟨0, _⟩ => ⟨S1x256x512, .f32⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | _, _ => ⟨S1x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4 : BitVec 32 := 8#32
  let v11 : BitVec 32 := Scalar.muli v9 c8_i32_4
  let v12 : BitVec 32 := Scalar.addi c0_i32 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 3 → Nat :=
  let c0 : Index := 0#32
  let c0_7 : Index := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c256_i32 : BitVec 32 := 256#32
  let v17 : BitVec 32 := Scalar.muli v9 c256_i32
  let v18 : Index := Scalar.indexCast v17
  ![0, 0, v18.toNat]
def k0_dev2 (d0 : Dev nD) : Nat :=
  let c0_i32_14 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_13 : BitVec 32 := 8#32
  let v25 : BitVec 32 := Scalar.muli v9 c8_i32_13
  let v26 : BitVec 32 := Scalar.addi c0_i32_14 v25
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_15 : BitVec 32 := 4#32
  let v27 : BitVec 32 := Scalar.muli v5 c4_i32_15
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v29 : BitVec 32 := Scalar.muli v8 c1_i32_16
  let v30 : BitVec 32 := Scalar.addi v28 v29
  v30.toNat
def k0_off2 (d0 : Dev nD) : Fin 3 → Nat :=
  let c0_22 : Index := 0#32
  let c64 : Index := 64#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c256_i32_21 : BitVec 32 := 256#32
  let v37 : BitVec 32 := Scalar.muli v9 c256_i32_21
  let v38 : Index := Scalar.indexCast v37
  ![0, 64, v38.toNat]
def k0_dev3 (d0 : Dev nD) : Nat :=
  let c0_i32_28 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_27 : BitVec 32 := 8#32
  let v45 : BitVec 32 := Scalar.muli v9 c8_i32_27
  let v46 : BitVec 32 := Scalar.addi c0_i32_28 v45
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_29 : BitVec 32 := 4#32
  let v47 : BitVec 32 := Scalar.muli v5 c4_i32_29
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v49 : BitVec 32 := Scalar.muli v8 c1_i32_30
  let v50 : BitVec 32 := Scalar.addi v48 v49
  v50.toNat
def k0_off3 (d0 : Dev nD) : Fin 3 → Nat :=
  let c0_35 : Index := 0#32
  let c128 : Index := 128#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c256_i32_34 : BitVec 32 := 256#32
  let v57 : BitVec 32 := Scalar.muli v9 c256_i32_34
  let v58 : Index := Scalar.indexCast v57
  ![0, 128, v58.toNat]
def k0_dev4 (d0 : Dev nD) : Nat :=
  let c0_i32_41 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_40 : BitVec 32 := 8#32
  let v65 : BitVec 32 := Scalar.muli v9 c8_i32_40
  let v66 : BitVec 32 := Scalar.addi c0_i32_41 v65
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_42 : BitVec 32 := 4#32
  let v67 : BitVec 32 := Scalar.muli v5 c4_i32_42
  let v68 : BitVec 32 := Scalar.addi v66 v67
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v69 : BitVec 32 := Scalar.muli v8 c1_i32_43
  let v70 : BitVec 32 := Scalar.addi v68 v69
  v70.toNat
def k0_off4 (d0 : Dev nD) : Fin 3 → Nat :=
  let c0_48 : Index := 0#32
  let c192 : Index := 192#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c256_i32_47 : BitVec 32 := 256#32
  let v77 : BitVec 32 := Scalar.muli v9 c256_i32_47
  let v78 : Index := Scalar.indexCast v77
  ![0, 192, v78.toNat]
def k0_dev5 (d0 : Dev nD) : Nat :=
  let c0_i32_53 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_52 : BitVec 32 := 8#32
  let v85 : BitVec 32 := Scalar.muli v9 c8_i32_52
  let v86 : BitVec 32 := Scalar.addi c0_i32_53 v85
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_54 : BitVec 32 := 4#32
  let v87 : BitVec 32 := Scalar.muli v5 c4_i32_54
  let v88 : BitVec 32 := Scalar.addi v86 v87
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v89 : BitVec 32 := Scalar.muli v8 c1_i32_55
  let v90 : BitVec 32 := Scalar.addi v88 v89
  v90.toNat
def k0_off5 (d0 : Dev nD) : Fin 3 → Nat :=
  let c0_70 : Index := 0#32
  let c0_71 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_69 : BitVec 32 := 256#32
  let v107 : BitVec 32 := Scalar.muli v2 c256_i32_69
  let v108 : Index := Scalar.indexCast v107
  ![0, 0, v108.toNat]
def k0_off6 (d0 : Dev nD) : Fin 3 → Nat :=
  let c0_87 : Index := 0#32
  let c64_88 : Index := 64#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_86 : BitVec 32 := 256#32
  let v126 : BitVec 32 := Scalar.muli v2 c256_i32_86
  let v127 : Index := Scalar.indexCast v126
  ![0, 64, v127.toNat]
def k0_off7 (d0 : Dev nD) : Fin 3 → Nat :=
  let c0_104 : Index := 0#32
  let c128_105 : Index := 128#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_103 : BitVec 32 := 256#32
  let v145 : BitVec 32 := Scalar.muli v2 c256_i32_103
  let v146 : Index := Scalar.indexCast v145
  ![0, 128, v146.toNat]
def k0_off8 (d0 : Dev nD) : Fin 3 → Nat :=
  let c0_121 : Index := 0#32
  let c192_122 : Index := 192#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_120 : BitVec 32 := 256#32
  let v164 : BitVec 32 := Scalar.muli v2 c256_i32_120
  let v165 : Index := Scalar.indexCast v164
  ![0, 192, v165.toNat]
abbrev stage0_0 : Fin 1 → Memref sig .tc .vmem S1x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  h_S1x64x256 : 0 < S1x64x256.numel
  shapeCasts_S1x64x256_S64x256 : S1x64x256.ShapeCasts S64x256
  bitsLt_bf16_f32 : FTy.bits .bf16 < FTy.bits .f32
  inb_S256x256_S64x256_0_0 : ∀ a, (![0, 0] : Fin 2 → Nat) a + S64x256.size a ≤ S256x256.size a
  h_S64x256 : 0 < S64x256.numel
  shapeCasts_S64x256_S64x256 : S64x256.ShapeCasts S64x256
  packedbf16_S256x256_S64x256_0_0 : (Rect.unit (s := S256x256) ![0, 0] S64x256.size inb_S256x256_S64x256_0_0).PackedRows (EltTy.packing .bf16)
  inb_S4_S1_0 : ∀ a, (![0] : Fin 1 → Nat) a + S1.size a ≤ S4.size a
  squeezes_S1_S_ : S1.Squeezes S_
  wordsbf16_S256x256_S64x256_0_0 : (Rect.unit (s := S256x256) ![0, 0] S64x256.size inb_S256x256_S64x256_0_0).WholeWords (EltTy.packing .bf16)
  inb_S256x256_S64x256_64_0 : ∀ a, (![64, 0] : Fin 2 → Nat) a + S64x256.size a ≤ S256x256.size a
  packedbf16_S256x256_S64x256_64_0 : (Rect.unit (s := S256x256) ![64, 0] S64x256.size inb_S256x256_S64x256_64_0).PackedRows (EltTy.packing .bf16)
  inb_S4_S1_1 : ∀ a, (![1] : Fin 1 → Nat) a + S1.size a ≤ S4.size a
  wordsbf16_S256x256_S64x256_64_0 : (Rect.unit (s := S256x256) ![64, 0] S64x256.size inb_S256x256_S64x256_64_0).WholeWords (EltTy.packing .bf16)
  inb_S256x256_S64x256_128_0 : ∀ a, (![128, 0] : Fin 2 → Nat) a + S64x256.size a ≤ S256x256.size a
  packedbf16_S256x256_S64x256_128_0 : (Rect.unit (s := S256x256) ![128, 0] S64x256.size inb_S256x256_S64x256_128_0).PackedRows (EltTy.packing .bf16)
  inb_S4_S1_2 : ∀ a, (![2] : Fin 1 → Nat) a + S1.size a ≤ S4.size a
  wordsbf16_S256x256_S64x256_128_0 : (Rect.unit (s := S256x256) ![128, 0] S64x256.size inb_S256x256_S64x256_128_0).WholeWords (EltTy.packing .bf16)
  inb_S256x256_S64x256_192_0 : ∀ a, (![192, 0] : Fin 2 → Nat) a + S64x256.size a ≤ S256x256.size a
  packedbf16_S256x256_S64x256_192_0 : (Rect.unit (s := S256x256) ![192, 0] S64x256.size inb_S256x256_S64x256_192_0).PackedRows (EltTy.packing .bf16)
  inb_S4_S1_3 : ∀ a, (![3] : Fin 1 → Nat) a + S1.size a ≤ S4.size a
  wordsbf16_S256x256_S64x256_192_0 : (Rect.unit (s := S256x256) ![192, 0] S64x256.size inb_S256x256_S64x256_192_0).WholeWords (EltTy.packing .bf16)
  hcc0_scratch2 : 2 + S4.numel ≤ 10
  hcc0_scratch3 : 6 + S4.numel ≤ 10
  k0_dev1_lt : ∀ d0 : Dev nD, (k0_dev1 d0) < nD
  k0_off1_inb : ∀ d0 : Dev nD, ∀ a, (k0_off1 d0) a + S1x64x256.size a ≤ S1x256x512.size a
  k0_dev2_lt : ∀ d0 : Dev nD, (k0_dev2 d0) < nD
  k0_off2_inb : ∀ d0 : Dev nD, ∀ a, (k0_off2 d0) a + S1x64x256.size a ≤ S1x256x512.size a
  k0_dev3_lt : ∀ d0 : Dev nD, (k0_dev3 d0) < nD
  k0_off3_inb : ∀ d0 : Dev nD, ∀ a, (k0_off3 d0) a + S1x64x256.size a ≤ S1x256x512.size a
  k0_dev4_lt : ∀ d0 : Dev nD, (k0_dev4 d0) < nD
  k0_off4_inb : ∀ d0 : Dev nD, ∀ a, (k0_off4 d0) a + S1x64x256.size a ≤ S1x256x512.size a
  k0_dev5_lt : ∀ d0 : Dev nD, (k0_dev5 d0) < nD
  k0_off5_inb : ∀ d0 : Dev nD, ∀ a, (k0_off5 d0) a + S1x64x256.size a ≤ S1x256x512.size a
  k0_off6_inb : ∀ d0 : Dev nD, ∀ a, (k0_off6 d0) a + S1x64x256.size a ≤ S1x256x512.size a
  k0_off7_inb : ∀ d0 : Dev nD, ∀ a, (k0_off7 d0) a + S1x64x256.size a ≤ S1x256x512.size a
  k0_off8_inb : ∀ d0 : Dev nD, ∀ a, (k0_off8 d0) a + S1x64x256.size a ≤ S1x256x512.size a
  hstage0_0 : ∀ j, (stage0_0 j).IsWhole
  hstage0_1 : ∀ j, (stage0_1 j).IsWhole

variable [Facts₀]

abbrev cc0_scratch2 : DmaSems sig S4 := SemArray.consecutive 2 S4 hcc0_scratch2
abbrev cc0_scratch3 : DmaSems sig S4 := SemArray.consecutive 6 S4 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x256x512 : Shape := ⟨3, ![2, 256, 512]⟩
abbrev S_ : Shape := ⟨0, ![]⟩
abbrev S256x512 : Shape := ⟨2, ![256, 512]⟩

abbrev nBuf : Space → Nat
  | .hbm => 4
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S_, .f32⟩
  | .hbm, ⟨2, _⟩ => ⟨S256x512, .f32⟩
  | .hbm, ⟨3, _⟩ => ⟨S256x512, .bf16⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S2x256x512_S256x512_d0 : S2x256x512.ReducesTo [0] S256x512
  h_S_ : 0 < S_.numel
  bitsLt_bf16_f32 : FTy.bits .bf16 < FTy.bits .f32

variable [Facts₀]

class Facts : Prop extends Facts₀ where

variable [Facts]
-- ==== Proof.KernelRS.Contents.lean ====
/-
  The contents every buffer of the exchange holds, as pure terms of the argument arrays, for any float instance.

  The sixteen devices pair up along the first mesh axis: device `c` and `peer c` differ in that coordinate only.
  Device `c` holds block `c / 8` of `x` (one slab `[1, 256, 512]`). It rounds the HALF of its slab that its peer
  will own (columns `256·(1 - c/8) …`) to the narrow format, four chunks of 64 rows, and sends chunk `k` into rows
  `64k …` of the peer's landing buffer; it adds what lands from the peer, chunk by chunk, to its own half (columns
  `256·(c/8) …`) and stores the rounded sums into rows `64k …` of its result block.
-/
import proofs.«901034_g7700000000001035_dist_rs_v7x_xyz2x2x4_x_m256_n256_bf16_1_alg».proof.Proof.Gen.Kernel.Skeleton
import proofs.«901034_g7700000000001035_dist_rs_v7x_xyz2x2x4_x_m256_n256_bf16_1_alg».proof.Proof.Gen.Kernel.Launch
import Idealize.ShloMosaic.Lib.Pipeline.FrameBody
import Idealize.ShloMosaic.Lib.Ring
import Idealize.ShloMosaic.Lib.Tactic

noncomputable section

namespace Cert.Kernel.RS

open Cert.Kernel Cert.Kernel.Gen
open Idealize.ShloMosaic Idealize.ShloMosaic.TcCoe Idealize.ShloMosaic.Tactic Idealize.SL.Sem

variable {F : FTy → Type} [FloatOps F]
variable (m : (ℓ : Loc nD τ sig) → Buf (Elt F) ℓ)

/-! ## The pairing -/

/-- The device that differs from `c` in the first mesh coordinate only. -/
def peer (c : Dev nD) : Dev nD := ⟨(c.val + 8) % 16, Nat.mod_lt _ (by decide)⟩

theorem peer_peer (c : Dev nD) : peer (peer c) = c := by revert c; decide
theorem peer_ne (c : Dev nD) : peer c ≠ c := by revert c; decide

/-- Every `device_id` chain of the body names the peer. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))
theorem dev3_eq (c : Dev nD) : (⟨k0_dev3 c, k0_dev3_lt c⟩ : Dev nD) = peer c :=
  Fin.ext ((k0_dev3_eq c).trans (by revert c; decide))
theorem dev4_eq (c : Dev nD) : (⟨k0_dev4 c, k0_dev4_lt c⟩ : Dev nD) = peer c :=
  Fin.ext ((k0_dev4_eq c).trans (by revert c; decide))
theorem dev5_eq (c : Dev nD) : (⟨k0_dev5 c, k0_dev5_lt c⟩ : Dev nD) = peer c :=
  Fin.ext ((k0_dev5_eq c).trans (by revert c; decide))

def pairing : Dev nD ≃ Dev nD := ⟨peer, peer, peer_peer, peer_peer⟩

/-! ## The memrefs -/

abbrev xM : Memref sig .tc .vmem S1x256x512 .f32 := Memref.whole cc0_stg0_0
abbrev oM : Memref sig .tc .vmem S256x256 .bf16 := Memref.whole cc0_stg1_0
/-- The staging buffer of what is sent, and the landing buffer. -/
abbrev sM : Memref sig .tc .vmem S256x256 .bf16 := Memref.whole cc0_scratch0
abbrev rM : Memref sig .tc .vmem S256x256 .bf16 := Memref.whole cc0_scratch1

/-- Rows `64k … 64k + 63` of a `[256, 256]` buffer. -/
abbrev R0 : Rect S256x256 := Rect.unit (s := S256x256) ![0, 0] S64x256.size inb_S256x256_S64x256_0_0
abbrev R1 : Rect S256x256 := Rect.unit (s := S256x256) ![64, 0] S64x256.size inb_S256x256_S64x256_64_0
abbrev R2 : Rect S256x256 := Rect.unit (s := S256x256) ![128, 0] S64x256.size inb_S256x256_S64x256_128_0
abbrev R3 : Rect S256x256 := Rect.unit (s := S256x256) ![192, 0] S64x256.size inb_S256x256_S64x256_192_0

/-! ## The slab and what is read of it -/

/-- Device `c`'s slab of `x`, as its staging buffer holds it. -/
def xstg (c : Dev nD) : (cc0_stg0_0 : Ref sig .tc).ty.Contents (Elt F) :=
  (win0_0.blk (0 : Fin 1)).view.read (Elt F) (m ((c : Thread nD τ).loc main_arg0))

/-- Chunk `k` of the half the PEER will own (the body's loads at `k0_off1 … k0_off4`). -/
def xs0 (c : Dev nD) : Vec F S1x64x256 .f32 :=
  (xM : Memref sig .tc .vmem S1x256x512 .f32).view.readAt (Elt F) (Rect.unit (s := S1x256x512) (k0_off1 c) S1x64x256.size (k0_off1_inb c)).toLoadRect (xstg m c)
def xs1 (c : Dev nD) : Vec F S1x64x256 .f32 :=
  (xM : Memref sig .tc .vmem S1x256x512 .f32).view.readAt (Elt F) (Rect.unit (s := S1x256x512) (k0_off2 c) S1x64x256.size (k0_off2_inb c)).toLoadRect (xstg m c)
def xs2 (c : Dev nD) : Vec F S1x64x256 .f32 :=
  (xM : Memref sig .tc .vmem S1x256x512 .f32).view.readAt (Elt F) (Rect.unit (s := S1x256x512) (k0_off3 c) S1x64x256.size (k0_off3_inb c)).toLoadRect (xstg m c)
def xs3 (c : Dev nD) : Vec F S1x64x256 .f32 :=
  (xM : Memref sig .tc .vmem S1x256x512 .f32).view.readAt (Elt F) (Rect.unit (s := S1x256x512) (k0_off4 c) S1x64x256.size (k0_off4_inb c)).toLoadRect (xstg m c)

/-- Chunk `k` of the half device `c` itself owns (the loads at `k0_off5 … k0_off8`). -/
def xm0 (c : Dev nD) : Vec F S1x64x256 .f32 :=
  (xM : Memref sig .tc .vmem S1x256x512 .f32).view.readAt (Elt F) (Rect.unit (s := S1x256x512) (k0_off5 c) S1x64x256.size (k0_off5_inb c)).toLoadRect (xstg m c)
def xm1 (c : Dev nD) : Vec F S1x64x256 .f32 :=
  (xM : Memref sig .tc .vmem S1x256x512 .f32).view.readAt (Elt F) (Rect.unit (s := S1x256x512) (k0_off6 c) S1x64x256.size (k0_off6_inb c)).toLoadRect (xstg m c)
def xm2 (c : Dev nD) : Vec F S1x64x256 .f32 :=
  (xM : Memref sig .tc .vmem S1x256x512 .f32).view.readAt (Elt F) (Rect.unit (s := S1x256x512) (k0_off7 c) S1x64x256.size (k0_off7_inb c)).toLoadRect (xstg m c)
def xm3 (c : Dev nD) : Vec F S1x64x256 .f32 :=
  (xM : Memref sig .tc .vmem S1x256x512 .f32).view.readAt (Elt F) (Rect.unit (s := S1x256x512) (k0_off8 c) S1x64x256.size (k0_off8_inb c)).toLoadRect (xstg m c)

/-! ## What is sent, and what is stored -/

/-- Chunk `k` as device `c` sends it: its rows of the peer's half, rounded. -/
def snd0 (c : Dev nD) : FVec F S64x256 .bf16 := k0_pay1 (xs0 m c)
def snd1 (c : Dev nD) : FVec F S64x256 .bf16 := k0_pay2 (xs1 m c)
def snd2 (c : Dev nD) : FVec F S64x256 .bf16 := k0_pay4 (k0_pay3 (xs2 m c))
def snd3 (c : Dev nD) : FVec F S64x256 .bf16 := k0_pay5 (xs3 m c)

/-- Chunk `k` of device `c`'s result: its own half plus what its peer sent, rounded. -/
def out0 (c : Dev nD) : FVec F S64x256 .bf16 := k0_pay6 (xm0 m c) (snd0 m (peer c))
def out1 (c : Dev nD) : FVec F S64x256 .bf16 := k0_pay7 (xm1 m c) (snd1 m (peer c))
def out2 (c : Dev nD) : FVec F S64x256 .bf16 := k0_pay8 (xm2 m c) (snd2 m (peer c))
def out3 (c : Dev nD) : FVec F S64x256 .bf16 := k0_pay9 (xm3 m c) (snd3 m (peer c))

/-- The four stores of the result, last first, as pieces. -/
def outPieces (c : Dev nD) : List (View.Piece (Elt F) S256x256 .bf16) :=
  [⟨R3, out3 m c⟩, ⟨R2, out2 m c⟩, ⟨R1, out1 m c⟩, ⟨R0, out0 m c⟩]

/-- Device `c`'s result block: the four chunks, one under the other. -/
def outAt (c : Dev nD) : (cc0_stg1_0 : Ref sig .tc).ty.Contents (Elt F) := View.canon (outPieces m c)

/-- The four row bands cover the block. -/
theorem out_cover (c : Dev nD) : ∀ y : S256x256.Idx, ∃ p ∈ outPieces m c, y ∈ p.1.set :=
  View.cover_of_tiledL (outPieces m c) S64x256.size (by unfold outPieces; sl_kernel_rfl)

end Cert.Kernel.RS

end
-- ==== Proof.KernelRS.Proto.lean ====
/-
  The protocol of the pairwise exchange, as a schedule of rounds, for any float instance.

  Each device has nine semaphores in play. Its BARRIER semaphore is signalled once, by its peer, at the peer's entry:
  with that unit the peer hands over its landing buffer, cut into the four row bands. Transfer `k` (rows `64k …` of the staging buffer into
  rows `64k …` of the peer's landing buffer) credits the sender's SEND semaphore `k`, which returns the band of
  the staging buffer that was read, and the peer's RECEIVE semaphore `k`, which hands the peer its band of the
  landing buffer holding what was sent. A device waits for its barrier unit while it still owes the four transfers;
  every receive semaphore therefore ranks above every barrier semaphore, and nothing else is waited for while
  anything is owed.
-/
import proofs.«901034_g7700000000001035_dist_rs_v7x_xyz2x2x4_x_m256_n256_bf16_1_alg».proof.Proof.KernelRS.Contents
import Idealize.ShloMosaic.Lib.Pipeline.Launch
import Idealize.ShloMosaic.Lib.Pipeline.Kit
import Idealize.ShloMosaic.Lib.Tactic

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's, side by side -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The semaphores, the cells, the bands -/

/-- The runtime's barrier semaphore of collective id 0 (not scoped to the launch). -/
abbrev barS : Sem sig := (SemArray.scalar (sig.barrier 0 rfl) : Sems sig S_).sem

/-- Send semaphore `k` and receive semaphore `k`, as the body slices them out of the two arrays. -/
abbrev sS0 : DmaSems sig S_ := (cc0_scratch2.slice (Rect.unit (s := S4) ![0] S1.size inb_S4_S1_0)).squeeze S_ squeezes_S1_S_
abbrev sS1 : DmaSems sig S_ := (cc0_scratch2.slice (Rect.unit (s := S4) ![1] S1.size inb_S4_S1_1)).squeeze S_ squeezes_S1_S_
abbrev sS2 : DmaSems sig S_ := (cc0_scratch2.slice (Rect.unit (s := S4) ![2] S1.size inb_S4_S1_2)).squeeze S_ squeezes_S1_S_
abbrev sS3 : DmaSems sig S_ := (cc0_scratch2.slice (Rect.unit (s := S4) ![3] S1.size inb_S4_S1_3)).squeeze S_ squeezes_S1_S_
abbrev rS0 : DmaSems sig S_ := (cc0_scratch3.slice (Rect.unit (s := S4) ![0] S1.size inb_S4_S1_0)).squeeze S_ squeezes_S1_S_
abbrev rS1 : DmaSems sig S_ := (cc0_scratch3.slice (Rect.unit (s := S4) ![1] S1.size inb_S4_S1_1)).squeeze S_ squeezes_S1_S_
abbrev rS2 : DmaSems sig S_ := (cc0_scratch3.slice (Rect.unit (s := S4) ![2] S1.size inb_S4_S1_2)).squeeze S_ squeezes_S1_S_
abbrev rS3 : DmaSems sig S_ := (cc0_scratch3.slice (Rect.unit (s := S4) ![3] S1.size inb_S4_S1_3)).squeeze S_ squeezes_S1_S_

/-- The nine semaphores of the exchange: the barrier, the four send, the four receive. -/
abbrev csem : Fin 9 → SemLoc sig := fun
  | 0 => .reg barS
  | 1 => .dma sS0.sem | 2 => .dma sS1.sem | 3 => .dma sS2.sem | 4 => .dma sS3.sem
  | 5 => .dma rS0.sem | 6 => .dma rS1.sem | 7 => .dma rS2.sem | 8 => .dma rS3.sem
/-- The eight scoped ones, as the launch indexes a kernel's own semaphores. -/
abbrev osem : Fin 8 → SemLoc sig := fun
  | 0 => .dma sS0.sem | 1 => .dma sS1.sem | 2 => .dma sS2.sem | 3 => .dma sS3.sem
  | 4 => .dma rS0.sem | 5 => .dma rS1.sem | 6 => .dma rS2.sem | 7 => .dma rS3.sem

abbrev kcell (ck : Dev nD × Fin 9) : GSem nD τ sig := ((ck.1 : Thread nD τ), csem ck.2)
abbrev barCell (c : Dev nD) : GSem nD τ sig := kcell (c, 0)
/-- Send cell `k` of device `c` is `kcell (c, sIx k)`, receive cell `k` is `kcell (c, rIx k)`. -/
abbrev sIx (k : Fin 4) : Fin 9 := ⟨k.val + 1, by omega⟩
abbrev rIx (k : Fin 4) : Fin 9 := ⟨k.val + 5, by omega⟩
abbrev sendCell (c : Dev nD) (k : Fin 4) : GSem nD τ sig := kcell (c, sIx k)
abbrev recvCell (c : Dev nD) (k : Fin 4) : GSem nD τ sig := kcell (c, rIx k)

/-- Band `k` of the staging buffer and of the landing buffer, as the body slices them. -/
abbrev sB0 : Memref sig .tc .vmem S64x256 .bf16 := sM.slice R0 (fun _ => rfl)
abbrev sB1 : Memref sig .tc .vmem S64x256 .bf16 := sM.slice R1 (fun _ => rfl)
abbrev sB2 : Memref sig .tc .vmem S64x256 .bf16 := sM.slice R2 (fun _ => rfl)
abbrev sB3 : Memref sig .tc .vmem S64x256 .bf16 := sM.slice R3 (fun _ => rfl)
abbrev rB0 : Memref sig .tc .vmem S64x256 .bf16 := rM.slice R0 (fun _ => rfl)
abbrev rB1 : Memref sig .tc .vmem S64x256 .bf16 := rM.slice R1 (fun _ => rfl)
abbrev rB2 : Memref sig .tc .vmem S64x256 .bf16 := rM.slice R2 (fun _ => rfl)
abbrev rB3 : Memref sig .tc .vmem S64x256 .bf16 := rM.slice R3 (fun _ => rfl)

abbrev sB : Fin 4 → Memref sig .tc .vmem S64x256 .bf16 := fun | 0 => sB0 | 1 => sB1 | 2 => sB2 | 3 => sB3
abbrev rB : Fin 4 → Memref sig .tc .vmem S64x256 .bf16 := fun | 0 => rB0 | 1 => rB1 | 2 => rB2 | 3 => rB3

/-- A band's transfer credit. -/
abbrev N : ℕ := (rB0 : Memref sig .tc .vmem S64x256 .bf16).view.dmaCredit
theorem N_pos : 0 < N := View.dmaCredit_pos _ (by decide)
theorem N_r (k : Fin 4) : (rB k).view.dmaCredit = N := by fin_cases k <;> rfl

/-! ## Contents of the bands -/

/-- What device `c` sends as chunk `k`. -/
def snd (c : Dev nD) : Fin 4 → FVec F S64x256 .bf16 := fun | 0 => snd0 m c | 1 => snd1 m c | 2 => snd2 m c | 3 => snd3 m c

/-- Band `k` of the staging buffer once chunk `k` is stored: the chunk over nothing in particular. -/
def sent (c : Dev nD) (k : Fin 4) : Buf (Elt F) ((sB k).view.loc (c : Thread nD τ)) :=
  (sB k).view.write (Elt F) (sB k).view.junk (snd m c k) Finset.univ
/-- Band `k` of the landing buffer once the peer's chunk `k` has landed. -/
def land (c : Dev nD) (k : Fin 4) : Buf (Elt F) ((rB k).view.loc (c : Thread nD τ)) :=
  (rB k).view.write (Elt F) (rB k).view.junk (snd m (peer c) k) Finset.univ

/-- Band `k` of device `d`'s staging buffer at contents `f`; of its landing buffer. -/
abbrev sPt (d : Dev nD) (k : Fin 4) (f : Buf (Elt F) ((sB k).view.loc (d : Thread nD τ))) : sProp 𝕄 :=
  (sB k).view.loc (d : Thread nD τ) ↦[(sB k).view.set]{fullShare} f
abbrev rPt (d : Dev nD) (k : Fin 4) (f : Buf (Elt F) ((rB k).view.loc (d : Thread nD τ))) : sProp 𝕄 :=
  (rB k).view.loc (d : Thread nD τ) ↦[(rB k).view.set]{fullShare} f

/-! ## The schedule -/

/-- What the peer's entry signal hands device `c`: the peer's landing buffer, band by band. -/
def barPay (c : Dev nD) : sProp 𝕄 :=
  iprop((∃ f, rPt (peer c) 0 f) ∗ (∃ f, rPt (peer c) 1 f) ∗ (∃ f, rPt (peer c) 2 f) ∗ (∃ f, rPt (peer c) 3 f))

abbrev IsBar (g : GSem nD τ sig) : Prop := g.1.2 = .tc ∧ g.2 = .reg barS
abbrev IsSend (g : GSem nD τ sig) (k : Fin 4) : Prop := g.1.2 = .tc ∧ g.2 = csem (sIx k)
abbrev IsRecv (g : GSem nD τ sig) (k : Fin 4) : Prop := g.1.2 = .tc ∧ g.2 = csem (rIx k)
abbrev IsCell (g : GSem nD τ sig) : Prop := g.1.2 = .tc ∧ ∃ j : Fin 9, g.2 = csem j

/-- One round, round 0, one duty a cell: a barrier cell one unit (from the peer), a send or a receive cell one band's
    credit. -/
def sched : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay g.1.1
    else if g.2 = csem 1 then sPt g.1.1 0 (sent m g.1.1 0)
    else if g.2 = csem 2 then sPt g.1.1 1 (sent m g.1.1 1)
    else if g.2 = csem 3 then sPt g.1.1 2 (sent m g.1.1 2)
    else if g.2 = csem 4 then sPt g.1.1 3 (sent m g.1.1 3)
    else if g.2 = csem 5 then rPt g.1.1 0 (land m g.1.1 0)
    else if g.2 = csem 6 then rPt g.1.1 1 (land m g.1.1 1)
    else if g.2 = csem 7 then rPt g.1.1 2 (land m g.1.1 2)
    else if g.2 = csem 8 then rPt g.1.1 3 (land m g.1.1 3)
    else iprop(emp)
  amount_pos g _ _ _ := by
    by_cases h : g.2 = .reg barS
    · rw [if_pos h]; exact Nat.one_pos
    · rw [if_neg h]; exact N_pos

set_option synthInstance.maxHeartbeats 400000 in
set_option maxHeartbeats 800000 in
instance sched_payload_storable (g : GSem nD τ sig) (r : ℕ) (d : Unit) :
    BI.Storable (upEmb : UEmb _ 𝕄) ((sched (F := F) m).payload g r d) := by
  show BI.Storable upEmb (if g.2 = .reg barS then barPay g.1.1
    else if g.2 = csem 1 then sPt g.1.1 0 (sent m g.1.1 0)
    else if g.2 = csem 2 then sPt g.1.1 1 (sent m g.1.1 1)
    else if g.2 = csem 3 then sPt g.1.1 2 (sent m g.1.1 2)
    else if g.2 = csem 4 then sPt g.1.1 3 (sent m g.1.1 3)
    else if g.2 = csem 5 then rPt g.1.1 0 (land m g.1.1 0)
    else if g.2 = csem 6 then rPt g.1.1 1 (land m g.1.1 1)
    else if g.2 = csem 7 then rPt g.1.1 2 (land m g.1.1 2)
    else if g.2 = csem 8 then rPt g.1.1 3 (land m g.1.1 3)
    else iprop(emp))
  unfold barPay
  (repeat' split) <;> infer_instance

/-- The nine semaphores are pairwise distinct. -/
theorem csem_injective : Function.Injective (csem : Fin 9 → SemLoc sig) := by decide

section Sched
variable (c : Dev nD)

theorem duties_cell (j : Fin 9) : (sched (F := F) m).duties (kcell (c, j)) 0 = {()} := by
  dsimp only [sched]; exact if_pos ⟨rfl, rfl, j, rfl⟩
theorem duties_later (g : GSem nD τ sig) : ∀ r, 1 ≤ r → (sched (F := F) m).duties g r = ∅ :=
  fun r hr => by dsimp only [sched]; rw [if_neg fun h => by omega]

theorem amount_bar (u : Unit) : (sched (F := F) m).amount (barCell c) 0 u = 1 := by dsimp only [sched]; exact if_pos rfl
theorem amount_xfer (j : Fin 9) (hj : j ≠ 0) (u : Unit) : (sched (F := F) m).amount (kcell (c, j)) 0 u = N := by
  dsimp only [sched]; exact if_neg fun h => hj (csem_injective h)

theorem expect_bar : (sched (F := F) m).expect (barCell c) 0 = 1 := by
  unfold Schedule.expect Schedule.amountOf; rw [duties_cell, Finset.sum_singleton, amount_bar]
theorem expect_xfer (j : Fin 9) (hj : j ≠ 0) : (sched (F := F) m).expect (kcell (c, j)) 0 = N := by
  unfold Schedule.expect Schedule.amountOf; rw [duties_cell, Finset.sum_singleton, amount_xfer m c j hj]

theorem payload_bar (u : Unit) : (sched (F := F) m).payload (barCell c) 0 u = barPay c := by dsimp only [sched]; exact if_pos rfl
theorem payload_send (k : Fin 4) (u : Unit) : (sched (F := F) m).payload (sendCell c k) 0 u = sPt c k (sent m c k) := by
  fin_cases k <;> (dsimp only [sched]; simp only [csem_injective.eq_iff, ↓reduceIte]; rfl)
theorem payload_recv (k : Fin 4) (u : Unit) : (sched (F := F) m).payload (recvCell c k) 0 u = rPt c k (land m c k) := by
  fin_cases k <;> (dsimp only [sched]; simp only [csem_injective.eq_iff, ↓reduceIte]; rfl)

end Sched

/-! ## What each device owes at launch; the levels -/

/-- Device `c` owes its peer's four receive cells a band's credit each and its peer's barrier cell one unit — summed
    so that the entry signal peels the last summand and transfer `k` then the last that is left. -/
def O₁ (c : Dev nD) : CellTallies nD τ sig Unit :=
  tallyAt (recvCell (peer c) 3) () N + tallyAt (recvCell (peer c) 2) () N + tallyAt (recvCell (peer c) 1) () N + tallyAt (recvCell (peer c) 0) () N
def O₀ (c : Dev nD) : CellTallies nD τ sig Unit := O₁ c + tallyAt (barCell (peer c)) () 1

def L (g : GSem nD τ sig) : Finset Unit := if g.1.2 = .tc then {()} else ∅
/-- Barrier cells at 1, receive cells at 2, everything else (the pipeline's staging cells, the send cells) at 0. -/
def lv (g : GSem nD τ sig) (_ : Unit) : ℕ :=
  if g.2 = .reg barS then 1 else if g.2 = csem 5 ∨ g.2 = csem 6 ∨ g.2 = csem 7 ∨ g.2 = csem 8 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_recv (c : Dev nD) (k : Fin 4) (u : Unit) : lv (recvCell c k) u = 2 := by
  fin_cases k <;> (dsimp only [lv]; rw [if_neg (fun h => by cases h)]; simp)

theorem O₁_pos {c : Dev nD} {g : GSem nD τ sig} {u : Unit} (h : 0 < O₁ c g u) : ∃ k, g = recvCell (peer c) k := by
  unfold O₁ at h
  simp only [Pi.add_apply, Finsupp.add_apply, tallyAt_apply] at h
  by_contra hn
  rw [not_exists] at hn
  rw [if_neg (fun h' => hn 3 h'.1), if_neg (fun h' => hn 2 h'.1), if_neg (fun h' => hn 1 h'.1), if_neg (fun h' => hn 0 h'.1)] at h
  exact Nat.lt_irrefl 0 h

theorem O₀_pos {c : Dev nD} {g : GSem nD τ sig} {u : Unit} (h : 0 < O₀ c g u) : (∃ k, g = recvCell (peer c) k) ∨ g = barCell (peer c) := by
  unfold O₀ at h
  rw [Pi.add_apply, Finsupp.add_apply, tallyAt_apply] at h
  by_cases hb : g = barCell (peer c)
  · exact .inr hb
  · rw [if_neg (fun h' => hb h'.1), Nat.add_zero] at h
    exact .inl (O₁_pos h)

/-- A wait on a semaphore that is neither a barrier nor a receive semaphore, whatever of its launch debt the device
    still owes. -/
theorem mayWait_low (c : Dev nD) (sm : SemLoc sig) (hq : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl <;> exact Finset.mem_singleton_self _)
      (fun p hp => by rw [Finset.mem_singleton.mp hp]; exact le_of_eq hq)
      (fun g u hg => by
        rcases O₀_pos hg with ⟨k, rfl⟩ | rfl
        · rw [lv_recv]; decide
        · rw [lv_bar]; decide)
  · rw [MayWait_zero]; iintro -; iempintro

/-- At its barrier wait a device owes the four transfers only: receive cells, above its barrier cell. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨k, rfl⟩ := O₁_pos hg; exact Finset.mem_singleton_self _)
    (fun p hp => by rw [Finset.mem_singleton.mp hp]; exact le_of_eq (lv_bar c ()))
    (fun g u hg => by obtain ⟨k, rfl⟩ := O₁_pos hg; rw [lv_recv]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Every cell's invariant, at the names the launch allocated them, and every cell's first round reached: what all
    devices know alike. -/
def records (K : Dev nD × Fin 9 → ℕ) : sProp 𝕄 :=
  iprop((bigSep Finset.univ fun ck : Dev nD × Fin 9 => cellInv ER (sched m) (K ck) (kcell ck))
    ∗ bigSep Finset.univ fun ck : Dev nD × Fin 9 => reached ER (kcell ck) 0)

instance records_persistent (K : Dev nD × Fin 9 → ℕ) : BI.Persistent (records m K) := by unfold records; infer_instance

theorem inv_at (K : Dev nD × Fin 9 → ℕ) (ck : Dev nD × Fin 9) :
    (bigSep Finset.univ fun ck : Dev nD × Fin 9 => (cellInv ER (sched m) (K ck) (kcell ck) : sProp 𝕄)) ⊢ cellInv ER (sched m) (K ck) (kcell ck) :=
  bigSep_elim (Finset.mem_univ ck)
theorem reached_at (ck : Dev nD × Fin 9) :
    (bigSep Finset.univ fun ck : Dev nD × Fin 9 => (reached ER (kcell ck) 0 : sProp 𝕄)) ⊢ reached ER (kcell ck) 0 :=
  bigSep_elim (Finset.mem_univ ck)

/-- The tokens of the duties device `c` pays: its peer's barrier unit, its peer's four landings, its own four
    departures. -/
def payToks (c : Dev nD) : sProp 𝕄 :=
  iprop(dutyTok ER (barCell (peer c)) 0 ()
    ∗ dutyTok ER (recvCell (peer c) 0) 0 () ∗ dutyTok ER (recvCell (peer c) 1) 0 () ∗ dutyTok ER (recvCell (peer c) 2) 0 () ∗ dutyTok ER (recvCell (peer c) 3) 0 ()
    ∗ dutyTok ER (sendCell c 0) 0 () ∗ dutyTok ER (sendCell c 1) 0 () ∗ dutyTok ER (sendCell c 2) 0 () ∗ dutyTok ER (sendCell c 3) 0 ())
/-- Its positions: at round 0 of each of its nine cells. -/
def positions (c : Dev nD) : sProp 𝕄 := bigSep Finset.univ fun j : Fin 9 => atPos ER (kcell (c, j)) 0 ∅ 0

/-- The exchange's ghost state device `c` starts from. -/
def ghost (K : Dev nD × Fin 9 → ℕ) (c : Dev nD) : sProp 𝕄 := iprop(records m K ∗ positions c ∗ payToks c)

/-- The credit dealt at launch: its barrier unit and its four landings. -/
def creds (c : Dev nD) : sProp 𝕄 :=
  iprop(cred (tallyAt (barCell c) () 1)
    ∗ cred (tallyAt (recvCell c 0) () N) ∗ cred (tallyAt (recvCell c 1) () N) ∗ cred (tallyAt (recvCell c 2) () N) ∗ cred (tallyAt (recvCell c 3) () N))

/-- What device `c`'s body starts from, besides its buffers. -/
def start (c : Dev nD) : sProp 𝕄 := iprop((∃ K, ghost m K c) ∗ creds c ∗ levAts L lv)

/-- The staging buffer of what is sent and the landing buffer, each whole, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratch c)
/-- After the point: the two buffers back whole, the eight own cells closed at zero. -/
def Φ₁ (c : Dev nD) : sProp 𝕄 := iprop(scratch c ∗ bigSep Finset.univ fun j : Fin 8 => semVal ((c : Thread nD τ), osem j) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at stated contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body of device `c` is run from, and to. -/
def bodyPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outAt m c))

/-- The body as the pipeline calls it at its one point. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) (Memref.whole cc0_scratch1) (Memref.isWhole_whole _) cc0_scratch2 cc0_scratch3

end Cert.Kernel.RS

end
-- ==== Proof.KernelRS.Launch.lean ====
/-
  The launch of the pairwise exchange, for any float instance.

  From any memory whose semaphore counters are zero, the sixteen devices' bodies — each proved from its own
  start (the cells' invariants, its positions, the tokens of the nine duties it pays, its launch credit, the levels)
  — compose into a run of @main: every weakly fair execution terminates, nothing faults, each device's result array
  ends as its result block and its argument array as it was.

  The ghost state of the exchange is funded for all devices at once: every device's nine cells (its barrier cell, on
  the runtime's unscoped semaphore, and its eight scoped transfer cells) are allocated under one update, and the
  duty tokens minted per own cell are dealt to the devices that pay them — the barrier's and the four receive cells'
  to the peer, the four send cells' to the device itself. The launch credit of a barrier cell is the one unit its
  peer owes it, of a receive cell the band's credit its peer owes it.
-/
import proofs.«901034_g7700000000001035_dist_rs_v7x_xyz2x2x4_x_m256_n256_bf16_1_alg».proof.Proof.KernelRS.Proto
import proofs.«901034_g7700000000001035_dist_rs_v7x_xyz2x2x4_x_m256_n256_bf16_1_alg».proof.Proof.Gen.Kernel.Launch
import proofs.«901034_g7700000000001035_dist_rs_v7x_xyz2x2x4_x_m256_n256_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and tokens the launch funds -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 9 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl

/-- Every device's nine cells. -/
def exCells : Finset (GSem nD τ sig) := Finset.univ.map ⟨kcell, kcell_injective⟩

/-- The one duty of round 0 of a cell, as minted. -/
abbrev tokOf (cj : Dev nD × Fin 9) : GSem nD τ sig × ℕ × Unit := (kcell cj, 0, ())
theorem tokOf_injective : Function.Injective (tokOf : Dev nD × Fin 9 → GSem nD τ sig × ℕ × Unit) :=
  fun a b h => kcell_injective (congrArg Prod.fst h)
def exToks : Finset (GSem nD τ sig × ℕ × Unit) := Finset.univ.map ⟨tokOf, tokOf_injective⟩

/-- The launch element: the pipeline library's and the exchange's. -/
def u₀ : UU :=
  (initOf (Pipeline.cells cfgs cellOf_inj) (Pipeline.launchToks cfgs cellOf_inj), initOf exCells exToks)

/-- The duty tokens of device `c`'s own cells. -/
def toks (c : Dev nD) : sProp 𝕄 :=
  iprop(dutyTok ER (barCell c) 0 ()
    ∗ dutyTok ER (sendCell c 0) 0 () ∗ dutyTok ER (sendCell c 1) 0 () ∗ dutyTok ER (sendCell c 2) 0 () ∗ dutyTok ER (sendCell c 3) 0 ()
    ∗ dutyTok ER (recvCell c 0) 0 () ∗ dutyTok ER (recvCell c 1) 0 () ∗ dutyTok ER (recvCell c 2) 0 () ∗ dutyTok ER (recvCell c 3) 0 ())

/-- What the launch element deals device `c`. -/
def G (c : Dev nD) : sProp 𝕄 :=
  iprop((bigSep Finset.univ fun k : Fin 9 => roundState ER (sched m) (kcell (c, k)) 0)
    ∗ (bigSep Finset.univ fun k : Fin 9 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 9 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_fin9]; rfl
  iintro HX
  imod (Rounds.fund ER (sched m) exCells exToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  unfold Pipeline.ownSems0
  rw [bigSep_fin8, unscopedSems0_eq, bigSep_fin9]
  iintro ⟨⟨H1, H2, H3, H4, H5, H6, H7, H8⟩, HB⟩
  isplitl [HB]; · iexact HB
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 9 => iprop(∃ κ : ℕ, cellInv ER (sched m) κ (kcell (c, k))))
          ∗ (bigSep Finset.univ fun k : Fin 9 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 9 => semVal (kcell (c, k)) 0) ∗ bigSep Finset.univ fun k : Fin 9 => roundState ER (sched m) (kcell (c, k)) 0)
      ⊢ (|={Set.univ}=> bigSep Finset.univ fun k : Fin 9 => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The global step: the cells allocated, the tokens dealt to their payers -/

/-- What stays with device `c`: its positions and the tokens of the duties it pays. -/
def linear (c : Dev nD) : sProp 𝕄 := iprop(positions c ∗ payToks c)

theorem ghost_intro (K : Dev nD × Fin 9 → ℕ) (c : Dev nD) : iprop(records m K ∗ linear c) ⊢ G' m c := by
  unfold linear G' ghost
  iintro ⟨HR, HP, HT⟩
  iexists K
  isplitl [HR]; · iexact HR
  isplitl [HP]; · iexact HP
  iexact HT

/-- The tokens dealt across the pairing: a device's barrier token and its four receive tokens go to its peer, its four
    send tokens stay. -/
theorem toks_around : (bigSep Finset.univ fun c : Dev nD => (toks c : sProp 𝕄)) ⊢ bigSep Finset.univ fun c : Dev nD => payToks c := by
  unfold toks payToks
  simp only [bigSep_sep']
  rw [bigSep_univ_equiv pairing (fun c : Dev nD => (dutyTok ER (barCell c) 0 () : sProp 𝕄)),
    bigSep_univ_equiv pairing (fun c : Dev nD => (dutyTok ER (recvCell c 0) 0 () : sProp 𝕄)),
    bigSep_univ_equiv pairing (fun c : Dev nD => (dutyTok ER (recvCell c 1) 0 () : sProp 𝕄)),
    bigSep_univ_equiv pairing (fun c : Dev nD => (dutyTok ER (recvCell c 2) 0 () : sProp 𝕄)),
    bigSep_univ_equiv pairing (fun c : Dev nD => (dutyTok ER (recvCell c 3) 0 () : sProp 𝕄))]
  iintro ⟨HB, S0, S1, S2, S3, R0, R1, R2, R3⟩
  isplitl [HB]; · iexact HB
  isplitl [R0]; · iexact R0
  isplitl [R1]; · iexact R1
  isplitl [R2]; · iexact R2
  isplitl [R3]; · iexact R3
  isplitl [S0]; · iexact S0
  isplitl [S1]; · iexact S1
  isplitl [S2]; · iexact S2
  iexact S3

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 9 => iprop(∃ κ : ℕ, cellInv ER (sched m) κ (kcell (c, k))))
          ∗ (bigSep Finset.univ fun k : Fin 9 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 9 => iprop(∃ κ : ℕ, cellInv ER (sched m) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 9 => (atPos ER (kcell (c, k)) 0 ∅ 0 : sProp 𝕄)) payToks).symm).trans
      (bigSep_mono fun c _ => show _ ⊢ linear c from Entails.of_eq (by unfold linear positions; rfl)))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What the devices owe cell `j` of their peers comes back to each device as the credit of its own cell `j`. -/
theorem cred_at (j : Fin 9) (n : ℕ) (c : Dev nD) :
    (Pipeline.launchCred (fun d : Dev nD => (tallyAt (kcell (peer d, j)) () n : CellTallies nD τ sig Unit)) c : sProp 𝕄)
      ⊢ cred (tallyAt (kcell (c, j)) () n) :=
  Pipeline.launchCred_tallyAt (csem j) peer peer peer_peer peer_peer () n c

theorem creds_intro (c : Dev nD) : (Pipeline.launchCred O₀ c : sProp 𝕄) ⊢ creds c := by
  have h0 : (Pipeline.launchCred O₀ c : sProp 𝕄)
      ⊢ iprop(Pipeline.launchCred O₁ c ∗ Pipeline.launchCred (fun d : Dev nD => (tallyAt (barCell (peer d)) () 1 : CellTallies nD τ sig Unit)) c) :=
    Entails.of_eq (Pipeline.launchCred_add O₁ (fun d : Dev nD => tallyAt (barCell (peer d)) () 1) c)
  have h1 : (Pipeline.launchCred O₁ c : sProp 𝕄)
      ⊢ iprop(Pipeline.launchCred (fun d : Dev nD => (tallyAt (recvCell (peer d) 3) () N + tallyAt (recvCell (peer d) 2) () N + tallyAt (recvCell (peer d) 1) () N : CellTallies nD τ sig Unit)) c
          ∗ Pipeline.launchCred (fun d : Dev nD => (tallyAt (recvCell (peer d) 0) () N : CellTallies nD τ sig Unit)) c) :=
    Entails.of_eq (Pipeline.launchCred_add _ (fun d : Dev nD => tallyAt (recvCell (peer d) 0) () N) c)
  have h2 : (Pipeline.launchCred (fun d : Dev nD => (tallyAt (recvCell (peer d) 3) () N + tallyAt (recvCell (peer d) 2) () N + tallyAt (recvCell (peer d) 1) () N : CellTallies nD τ sig Unit)) c : sProp 𝕄)
      ⊢ iprop(Pipeline.launchCred (fun d : Dev nD => (tallyAt (recvCell (peer d) 3) () N + tallyAt (recvCell (peer d) 2) () N : CellTallies nD τ sig Unit)) c
          ∗ Pipeline.launchCred (fun d : Dev nD => (tallyAt (recvCell (peer d) 1) () N : CellTallies nD τ sig Unit)) c) :=
    Entails.of_eq (Pipeline.launchCred_add _ (fun d : Dev nD => tallyAt (recvCell (peer d) 1) () N) c)
  have h3 : (Pipeline.launchCred (fun d : Dev nD => (tallyAt (recvCell (peer d) 3) () N + tallyAt (recvCell (peer d) 2) () N : CellTallies nD τ sig Unit)) c : sProp 𝕄)
      ⊢ iprop(Pipeline.launchCred (fun d : Dev nD => (tallyAt (recvCell (peer d) 3) () N : CellTallies nD τ sig Unit)) c
          ∗ Pipeline.launchCred (fun d : Dev nD => (tallyAt (recvCell (peer d) 2) () N : CellTallies nD τ sig Unit)) c) :=
    Entails.of_eq (Pipeline.launchCred_add _ (fun d : Dev nD => tallyAt (recvCell (peer d) 2) () N) c)
  unfold creds
  iintro H
  ihave H := h0 $$ H
  icases H with ⟨H, HB⟩
  ihave H := h1 $$ H
  icases H with ⟨H, H0⟩
  ihave H := h2 $$ H
  icases H with ⟨H, H1⟩
  ihave H := h3 $$ H
  icases H with ⟨H3, H2⟩
  isplitl [HB]; · iapply (cred_at (F := F) 0 1 c); iexact HB
  isplitl [H0]; · iapply (cred_at (F := F) (rIx 0) N c); iexact H0
  isplitl [H1]; · iapply (cred_at (F := F) (rIx 1) N c); iexact H1
  isplitl [H2]; · iapply (cred_at (F := F) (rIx 2) N c); iexact H2
  iapply (cred_at (F := F) (rIx 3) N c); iexact H3

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq]
  unfold Φ₁ scratch Pipeline.ownSems0
  iintro ⟨Hr, Hz⟩
  isplitr; · iempintro
  isplitl [Hz]; · iexact Hz
  iexact Hr

/-- The pipeline's staging cells sit at level 0. -/
theorem lv_stage (c : Dev nD) (w : Fin cfg0.W) (s : Fin (cfg0.win w).nbuf) :
    lv ((c : Thread nD τ), .dma ((cfg0.win w).sem s)) () = 0 := by
  have h1 : (SemLoc.dma ((cfg0.win w).sem s) : SemLoc sig) ≠ .reg barS := fun h => by cases h
  have h2 : ¬ ((SemLoc.dma ((cfg0.win w).sem s) : SemLoc sig) = csem 5 ∨ (SemLoc.dma ((cfg0.win w).sem s) : SemLoc sig) = csem 6
      ∨ (SemLoc.dma ((cfg0.win w).sem s) : SemLoc sig) = csem 7 ∨ (SemLoc.dma ((cfg0.win w).sem s) : SemLoc sig) = csem 8) := by
    fin_cases w <;> fin_cases s <;> decide
  dsimp only [lv]; rw [if_neg h1, if_neg h2]

theorem waits (c : Dev nD) : (levAts L lv : sProp 𝕄) ⊢ Pipeline.cellsWaits cfgs (dats m) () 0 c :=
  Pipeline.cellsWaits_intro cfgs (dats m) () 0 c fun w s t =>
    mayWait_low c _ (lv_stage c w s) _ (by
      rcases t with ⟨_ | _, ht⟩
      · exact Or.inl rfl
      · exact Or.inr rfl)

/-! ## The final arrays -/

/-- The argument array is never written back. -/
theorem final_x (c : Dev nD) : (dats (F := F) m 0 c).arrAt (0 : Fin 2) cfg0.N = m ((c : Thread nD τ).loc main_arg0) :=
  (dats (F := F) m 0 c).arrAt_in (0 : Fin 2) rfl _

/-- The result array after its one write-back holds what the body left in the result's staging buffer. -/
theorem final_out (c : Dev nD) : (dats (F := F) m 0 c).arrAt (1 : Fin 2) cfg0.N = outAt m c := by
  have ho : ((cfg0.win (1 : Fin 2)).blk t₀).view.read (Elt F) ((dats (F := F) m 0 c).arrAt (1 : Fin 2) cfg0.N)
      = (dats (F := F) m 0 c).flushed (1 : Fin 2) t₀ := by
    rw [show cfg0.N = (t₀ : Fin cfg0.N).val + 1 from rfl, (dats (F := F) m 0 c).arrAt_succ (1 : Fin 2) t₀, flush0_1 t₀, if_pos rfl]
    exact View.read_write_univ _ _
  have hz : (fun a => (win0_1.index t₀) a * main_v1.ty.shape.size a) = fun _ => 0 := funext fun a => by fin_cases a <;> decide
  have hr := fun f => Memref.read_access_unit_zero (Elt F) main_v1 hz (fun a => by fin_cases a <;> decide) f
  rw [hr] at ho
  rw [ho]
  rfl

/-! ## The run -/

set_option maxRecDepth 8000 in
/-- At the compiled mesh of sixteen devices, for any float values, from any memory with zero counters, given each
    device's body from its start: every weakly fair execution of @main terminates, nothing faulting, and every final
    state has each device's result array at its result block and its argument array as launched. -/
theorem run_main_of (m : (ℓ : Loc nD τ sig) → Buf (Elt F) ℓ) (ρ : Dev nD → PrngReg)
    (hbody : ∀ c, BodyObligation (dats (F := F) m 0 c) (defs₀ (F := F)) 𝒱₀ () Set.univ) :
    θ_run (defs (F := F)) (onTc (τ := τ) (main (F := F))) ⟨m, fun _ => 0, ρ⟩
      (fun r => ∀ c : Dev nD, r.2.mem ((c : Thread nD τ).loc main_v1) = outAt m c
        ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c => ⟨((h c).1 1).trans (final_out m c), ((h c).1 0).trans (final_x m c)⟩)

/-- info: 'Cert.Kernel.RS.run_main_of' depends on axioms: [propext, Classical.choice, Quot.sound] -/
#guard_msgs in #print axioms run_main_of

end Cert.Kernel.RS

end
-- ==== Proof.KernelRS.Bands.lean ====
/-
  Rules for the row bands of the staging buffer and of the landing buffer: a `[256, 256]` buffer held whole is held
  as its four bands of 64 rows and back; a store of a chunk through band `k`'s rectangle, a load through it, and the
  transfer of band `k` of the staging buffer into band `k` of the peer's landing buffer, each stated over the band
  alone, with the band's contents named independently of what the buffer held before.
-/
import proofs.«901034_g7700000000001035_dist_rs_v7x_xyz2x2x4_x_m256_n256_bf16_1_alg».proof.Proof.KernelRS.Proto

noncomputable section

namespace Cert.Kernel.RS

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-! ## The geometry of the four row bands -/

theorem R01 : Disjoint R0.set R1.set := Rect.unit_disjoint 0 (by decide)
theorem R02 : Disjoint R0.set R2.set := Rect.unit_disjoint 0 (by decide)
theorem R03 : Disjoint R0.set R3.set := Rect.unit_disjoint 0 (by decide)
theorem R12 : Disjoint R1.set R2.set := Rect.unit_disjoint 0 (by decide)
theorem R13 : Disjoint R1.set R3.set := Rect.unit_disjoint 0 (by decide)
theorem R23 : Disjoint R2.set R3.set := Rect.unit_disjoint 0 (by decide)

/-- Every index of the buffer lies in one of the four bands. -/
theorem R_cover : R0.set ∪ (R1.set ∪ (R2.set ∪ R3.set)) = (Finset.univ : Finset S256x256.Idx) := by
  ext i
  simp only [Finset.mem_union, Finset.mem_univ, iff_true, Rect.mem_set_unit, Fin.forall_fin_two]
  have h0 : (i 0 : ℕ) < 256 := (i 0).isLt
  have h1 : (i 1 : ℕ) < 256 := (i 1).isLt
  simp only [Matrix.cons_val_zero, Matrix.cons_val_one, Shape.size] at *
  omega

/-! ## A buffer held whole is held as four pairwise disjoint parts that cover it, and back -/

theorem pt_split4 {ℓ : Loc nD τ sig} {A B C D : Finset (Idx ℓ)} {q : PosShare TreeShare} (f : Buf (Elt F) ℓ)
    (hAB : Disjoint A B) (hAC : Disjoint A C) (hAD : Disjoint A D) (hBC : Disjoint B C) (hBD : Disjoint B D)
    (hCD : Disjoint C D) (hU : A ∪ (B ∪ (C ∪ D)) = Finset.univ) :
    (ℓ ↦{q} f : sProp 𝕄) ⊢ iprop((ℓ ↦[A]{q} f) ∗ (ℓ ↦[B]{q} f) ∗ (ℓ ↦[C]{q} f) ∗ (ℓ ↦[D]{q} f)) := by
  rw [← hU]
  refine (pointsTo_union (Finset.disjoint_union_right.mpr ⟨hAB, Finset.disjoint_union_right.mpr ⟨hAC, hAD⟩⟩)).1.trans ?_
  refine sep_mono_right ((pointsTo_union (Finset.disjoint_union_right.mpr ⟨hBC, hBD⟩)).1.trans ?_)
  exact sep_mono_right (pointsTo_union hCD).1

theorem pt_join4 {ℓ : Loc nD τ sig} {A B C D : Finset (Idx ℓ)} {q : PosShare TreeShare} (fa fb fc fd : Buf (Elt F) ℓ)
    (hAB : Disjoint A B) (hAC : Disjoint A C) (hAD : Disjoint A D) (hBC : Disjoint B C) (hBD : Disjoint B D)
    (hCD : Disjoint C D) (hU : A ∪ (B ∪ (C ∪ D)) = Finset.univ) :
    (iprop((ℓ ↦[A]{q} fa) ∗ (ℓ ↦[B]{q} fb) ∗ (ℓ ↦[C]{q} fc) ∗ (ℓ ↦[D]{q} fd)) : sProp 𝕄) ⊢ iprop(∃ f : Buf (Elt F) ℓ, ℓ ↦{q} f) := by
  refine (sep_mono_right (sep_mono_right (pointsTo_join hCD))).trans ?_
  refine (sep_mono_right (pointsTo_join (Finset.disjoint_union_right.mpr ⟨hBC, hBD⟩))).trans ?_
  refine (pointsTo_join (Finset.disjoint_union_right.mpr ⟨hAB, Finset.disjoint_union_right.mpr ⟨hAC, hAD⟩⟩)).trans ?_
  rw [hU]
  exact exists_intro (Φ := fun f : Buf (Elt F) ℓ => (ℓ ↦{q} f : sProp 𝕄)) _

/-- The element set of a band is its rectangle. -/
theorem sB0_set : (sB0 : Memref sig .tc .vmem S64x256 .bf16).view.set = R0.set := View.set_slice_whole _ _
theorem sB1_set : (sB1 : Memref sig .tc .vmem S64x256 .bf16).view.set = R1.set := View.set_slice_whole _ _
theorem sB2_set : (sB2 : Memref sig .tc .vmem S64x256 .bf16).view.set = R2.set := View.set_slice_whole _ _
theorem sB3_set : (sB3 : Memref sig .tc .vmem S64x256 .bf16).view.set = R3.set := View.set_slice_whole _ _
theorem rB0_set : (rB0 : Memref sig .tc .vmem S64x256 .bf16).view.set = R0.set := View.set_slice_whole _ _
theorem rB1_set : (rB1 : Memref sig .tc .vmem S64x256 .bf16).view.set = R1.set := View.set_slice_whole _ _
theorem rB2_set : (rB2 : Memref sig .tc .vmem S64x256 .bf16).view.set = R2.set := View.set_slice_whole _ _
theorem rB3_set : (rB3 : Memref sig .tc .vmem S64x256 .bf16).view.set = R3.set := View.set_slice_whole _ _

/-- Band `k` of a buffer at contents `f` is the buffer's points-to at the band's rectangle. -/
theorem sPt0_eq (d : Dev nD) (f : Buf (Elt F) ((d : Thread nD τ).loc cc0_scratch0)) :
    (sPt d 0 f : sProp 𝕄) = (((d : Thread nD τ).loc cc0_scratch0) ↦[R0.set]{fullShare} f) :=
  (rfl : (sPt d 0 f : sProp 𝕄) = (((d : Thread nD τ).loc cc0_scratch0) ↦[(sB0 : Memref sig .tc .vmem S64x256 .bf16).view.set]{fullShare} f)).trans
    (congrArg (fun I => (((d : Thread nD τ).loc cc0_scratch0) ↦[I]{fullShare} f : sProp 𝕄)) sB0_set)
theorem sPt1_eq (d : Dev nD) (f : Buf (Elt F) ((d : Thread nD τ).loc cc0_scratch0)) :
    (sPt d 1 f : sProp 𝕄) = (((d : Thread nD τ).loc cc0_scratch0) ↦[R1.set]{fullShare} f) :=
  (rfl : (sPt d 1 f : sProp 𝕄) = (((d : Thread nD τ).loc cc0_scratch0) ↦[(sB1 : Memref sig .tc .vmem S64x256 .bf16).view.set]{fullShare} f)).trans
    (congrArg (fun I => (((d : Thread nD τ).loc cc0_scratch0) ↦[I]{fullShare} f : sProp 𝕄)) sB1_set)
theorem sPt2_eq (d : Dev nD) (f : Buf (Elt F) ((d : Thread nD τ).loc cc0_scratch0)) :
    (sPt d 2 f : sProp 𝕄) = (((d : Thread nD τ).loc cc0_scratch0) ↦[R2.set]{fullShare} f) :=
  (rfl : (sPt d 2 f : sProp 𝕄) = (((d : Thread nD τ).loc cc0_scratch0) ↦[(sB2 : Memref sig .tc .vmem S64x256 .bf16).view.set]{fullShare} f)).trans
    (congrArg (fun I => (((d : Thread nD τ).loc cc0_scratch0) ↦[I]{fullShare} f : sProp 𝕄)) sB2_set)
theorem sPt3_eq (d : Dev nD) (f : Buf (Elt F) ((d : Thread nD τ).loc cc0_scratch0)) :
    (sPt d 3 f : sProp 𝕄) = (((d : Thread nD τ).loc cc0_scratch0) ↦[R3.set]{fullShare} f) :=
  (rfl : (sPt d 3 f : sProp 𝕄) = (((d : Thread nD τ).loc cc0_scratch0) ↦[(sB3 : Memref sig .tc .vmem S64x256 .bf16).view.set]{fullShare} f)).trans
    (congrArg (fun I => (((d : Thread nD τ).loc cc0_scratch0) ↦[I]{fullShare} f : sProp 𝕄)) sB3_set)
theorem rPt0_eq (d : Dev nD) (f : Buf (Elt F) ((d : Thread nD τ).loc cc0_scratch1)) :
    (rPt d 0 f : sProp 𝕄) = (((d : Thread nD τ).loc cc0_scratch1) ↦[R0.set]{fullShare} f) :=
  (rfl : (rPt d 0 f : sProp 𝕄) = (((d : Thread nD τ).loc cc0_scratch1) ↦[(rB0 : Memref sig .tc .vmem S64x256 .bf16).view.set]{fullShare} f)).trans
    (congrArg (fun I => (((d : Thread nD τ).loc cc0_scratch1) ↦[I]{fullShare} f : sProp 𝕄)) rB0_set)
theorem rPt1_eq (d : Dev nD) (f : Buf (Elt F) ((d : Thread nD τ).loc cc0_scratch1)) :
    (rPt d 1 f : sProp 𝕄) = (((d : Thread nD τ).loc cc0_scratch1) ↦[R1.set]{fullShare} f) :=
  (rfl : (rPt d 1 f : sProp 𝕄) = (((d : Thread nD τ).loc cc0_scratch1) ↦[(rB1 : Memref sig .tc .vmem S64x256 .bf16).view.set]{fullShare} f)).trans
    (congrArg (fun I => (((d : Thread nD τ).loc cc0_scratch1) ↦[I]{fullShare} f : sProp 𝕄)) rB1_set)
theorem rPt2_eq (d : Dev nD) (f : Buf (Elt F) ((d : Thread nD τ).loc cc0_scratch1)) :
    (rPt d 2 f : sProp 𝕄) = (((d : Thread nD τ).loc cc0_scratch1) ↦[R2.set]{fullShare} f) :=
  (rfl : (rPt d 2 f : sProp 𝕄) = (((d : Thread nD τ).loc cc0_scratch1) ↦[(rB2 : Memref sig .tc .vmem S64x256 .bf16).view.set]{fullShare} f)).trans
    (congrArg (fun I => (((d : Thread nD τ).loc cc0_scratch1) ↦[I]{fullShare} f : sProp 𝕄)) rB2_set)
theorem rPt3_eq (d : Dev nD) (f : Buf (Elt F) ((d : Thread nD τ).loc cc0_scratch1)) :
    (rPt d 3 f : sProp 𝕄) = (((d : Thread nD τ).loc cc0_scratch1) ↦[R3.set]{fullShare} f) :=
  (rfl : (rPt d 3 f : sProp 𝕄) = (((d : Thread nD τ).loc cc0_scratch1) ↦[(rB3 : Memref sig .tc .vmem S64x256 .bf16).view.set]{fullShare} f)).trans
    (congrArg (fun I => (((d : Thread nD τ).loc cc0_scratch1) ↦[I]{fullShare} f : sProp 𝕄)) rB3_set)

/-! ## Writes and reads through a band -/

/-- Two unmasked writes of one payload through a view agree on the view's elements, whatever they were laid over. -/
theorem write_univ_agree {κ : Kind} {sp : Space} {S : Shape} {e : EltTy} (v : View sig κ sp S e)
    (f f' : v.ty.Contents (Elt F)) (w : S.Idx → Elt F e) :
    ∀ i ∈ v.set, v.write (Elt F) f w Finset.univ i = v.write (Elt F) f' w Finset.univ i := by
  intro i hi
  obtain ⟨y, -, rfl⟩ := Finset.mem_map.mp hi
  rw [View.write_emb_of_mem _ _ (Finset.mem_univ y), View.write_emb_of_mem _ _ (Finset.mem_univ y)]

/-- Band `0` of the landing buffer, once the peer's chunk has landed, reads as the chunk. -/
theorem read_land0 (c : Dev nD) : ((rM : Memref sig .tc .vmem S256x256 .bf16).access R0).read (Elt F) (land m c 0) = snd0 m (peer c) :=
  View.read_write_univ (v := (rB0 : Memref sig .tc .vmem S64x256 .bf16).view) _ _

/-- Band `1` of the landing buffer, once the peer's chunk has landed, reads as the chunk. -/
theorem read_land1 (c : Dev nD) : ((rM : Memref sig .tc .vmem S256x256 .bf16).access R1).read (Elt F) (land m c 1) = snd1 m (peer c) :=
  View.read_write_univ (v := (rB1 : Memref sig .tc .vmem S64x256 .bf16).view) _ _

/-- Band `2` of the landing buffer, once the peer's chunk has landed, reads as the chunk. -/
theorem read_land2 (c : Dev nD) : ((rM : Memref sig .tc .vmem S256x256 .bf16).access R2).read (Elt F) (land m c 2) = snd2 m (peer c) :=
  View.read_write_univ (v := (rB2 : Memref sig .tc .vmem S64x256 .bf16).view) _ _

/-- Band `3` of the landing buffer, once the peer's chunk has landed, reads as the chunk. -/
theorem read_land3 (c : Dev nD) : ((rM : Memref sig .tc .vmem S256x256 .bf16).access R3).read (Elt F) (land m c 3) = snd3 m (peer c) :=
  View.read_write_univ (v := (rB3 : Memref sig .tc .vmem S64x256 .bf16).view) _ _

/-- What transfer `0` from device `c` leaves on band `0` of its peer's landing buffer is, on the band, the chunk
    device `c` sent: the peer's peer is `c`. -/
theorem landed0 (c : Dev nD) (fd : Buf (Elt F) (((peer c : Dev nD) : Thread nD τ).loc cc0_scratch1)) :
    (((((peer c : Dev nD) : Thread nD τ).loc cc0_scratch1) ↦[(rB0 : Memref sig .tc .vmem S64x256 .bf16).view.set]{fullShare}
        ((rB0 : Memref sig .tc .vmem S64x256 .bf16).view.write (Elt F) fd ((sB0 : Memref sig .tc .vmem S64x256 .bf16).view.read (Elt F) (sent m c 0)) Finset.univ)) : sProp 𝕄)
      = rPt (peer c) 0 (land m (peer c) 0) := by
  have hr : (sB0 : Memref sig .tc .vmem S64x256 .bf16).view.read (Elt F) (sent m c 0) = snd0 m c := View.read_write_univ (v := (sB0 : Memref sig .tc .vmem S64x256 .bf16).view) _ _
  rw [hr]
  have hl : land m (peer c) 0 = (rB0 : Memref sig .tc .vmem S64x256 .bf16).view.write (Elt F) (rB0 : Memref sig .tc .vmem S64x256 .bf16).view.junk (snd0 m c) Finset.univ := by
    show (rB0 : Memref sig .tc .vmem S64x256 .bf16).view.write (Elt F) (rB0 : Memref sig .tc .vmem S64x256 .bf16).view.junk (snd0 m (peer (peer c))) Finset.univ = _
    rw [peer_peer]
  rw [hl]
  exact pointsTo_congr (write_univ_agree (rB0 : Memref sig .tc .vmem S64x256 .bf16).view _ _ _)

/-- What transfer `1` from device `c` leaves on band `1` of its peer's landing buffer is, on the band, the chunk
    device `c` sent: the peer's peer is `c`. -/
theorem landed1 (c : Dev nD) (fd : Buf (Elt F) (((peer c : Dev nD) : Thread nD τ).loc cc0_scratch1)) :
    (((((peer c : Dev nD) : Thread nD τ).loc cc0_scratch1) ↦[(rB1 : Memref sig .tc .vmem S64x256 .bf16).view.set]{fullShare}
        ((rB1 : Memref sig .tc .vmem S64x256 .bf16).view.write (Elt F) fd ((sB1 : Memref sig .tc .vmem S64x256 .bf16).view.read (Elt F) (sent m c 1)) Finset.univ)) : sProp 𝕄)
      = rPt (peer c) 1 (land m (peer c) 1) := by
  have hr : (sB1 : Memref sig .tc .vmem S64x256 .bf16).view.read (Elt F) (sent m c 1) = snd1 m c := View.read_write_univ (v := (sB1 : Memref sig .tc .vmem S64x256 .bf16).view) _ _
  rw [hr]
  have hl : land m (peer c) 1 = (rB1 : Memref sig .tc .vmem S64x256 .bf16).view.write (Elt F) (rB1 : Memref sig .tc .vmem S64x256 .bf16).view.junk (snd1 m c) Finset.univ := by
    show (rB1 : Memref sig .tc .vmem S64x256 .bf16).view.write (Elt F) (rB1 : Memref sig .tc .vmem S64x256 .bf16).view.junk (snd1 m (peer (peer c))) Finset.univ = _
    rw [peer_peer]
  rw [hl]
  exact pointsTo_congr (write_univ_agree (rB1 : Memref sig .tc .vmem S64x256 .bf16).view _ _ _)

/-- What transfer `2` from device `c` leaves on band `2` of its peer's landing buffer is, on the band, the chunk
    device `c` sent: the peer's peer is `c`. -/
theorem landed2 (c : Dev nD) (fd : Buf (Elt F) (((peer c : Dev nD) : Thread nD τ).loc cc0_scratch1)) :
    (((((peer c : Dev nD) : Thread nD τ).loc cc0_scratch1) ↦[(rB2 : Memref sig .tc .vmem S64x256 .bf16).view.set]{fullShare}
        ((rB2 : Memref sig .tc .vmem S64x256 .bf16).view.write (Elt F) fd ((sB2 : Memref sig .tc .vmem S64x256 .bf16).view.read (Elt F) (sent m c 2)) Finset.univ)) : sProp 𝕄)
      = rPt (peer c) 2 (land m (peer c) 2) := by
  have hr : (sB2 : Memref sig .tc .vmem S64x256 .bf16).view.read (Elt F) (sent m c 2) = snd2 m c := View.read_write_univ (v := (sB2 : Memref sig .tc .vmem S64x256 .bf16).view) _ _
  rw [hr]
  have hl : land m (peer c) 2 = (rB2 : Memref sig .tc .vmem S64x256 .bf16).view.write (Elt F) (rB2 : Memref sig .tc .vmem S64x256 .bf16).view.junk (snd2 m c) Finset.univ := by
    show (rB2 : Memref sig .tc .vmem S64x256 .bf16).view.write (Elt F) (rB2 : Memref sig .tc .vmem S64x256 .bf16).view.junk (snd2 m (peer (peer c))) Finset.univ = _
    rw [peer_peer]
  rw [hl]
  exact pointsTo_congr (write_univ_agree (rB2 : Memref sig .tc .vmem S64x256 .bf16).view _ _ _)

/-- What transfer `3` from device `c` leaves on band `3` of its peer's landing buffer is, on the band, the chunk
    device `c` sent: the peer's peer is `c`. -/
theorem landed3 (c : Dev nD) (fd : Buf (Elt F) (((peer c : Dev nD) : Thread nD τ).loc cc0_scratch1)) :
    (((((peer c : Dev nD) : Thread nD τ).loc cc0_scratch1) ↦[(rB3 : Memref sig .tc .vmem S64x256 .bf16).view.set]{fullShare}
        ((rB3 : Memref sig .tc .vmem S64x256 .bf16).view.write (Elt F) fd ((sB3 : Memref sig .tc .vmem S64x256 .bf16).view.read (Elt F) (sent m c 3)) Finset.univ)) : sProp 𝕄)
      = rPt (peer c) 3 (land m (peer c) 3) := by
  have hr : (sB3 : Memref sig .tc .vmem S64x256 .bf16).view.read (Elt F) (sent m c 3) = snd3 m c := View.read_write_univ (v := (sB3 : Memref sig .tc .vmem S64x256 .bf16).view) _ _
  rw [hr]
  have hl : land m (peer c) 3 = (rB3 : Memref sig .tc .vmem S64x256 .bf16).view.write (Elt F) (rB3 : Memref sig .tc .vmem S64x256 .bf16).view.junk (snd3 m c) Finset.univ := by
    show (rB3 : Memref sig .tc .vmem S64x256 .bf16).view.write (Elt F) (rB3 : Memref sig .tc .vmem S64x256 .bf16).view.junk (snd3 m (peer (peer c))) Finset.univ = _
    rw [peer_peer]
  rw [hl]
  exact pointsTo_congr (write_univ_agree (rB3 : Memref sig .tc .vmem S64x256 .bf16).view _ _ _)

/-! ## Whole and by bands -/

theorem s_split (c : Dev nD) (f : Buf (Elt F) ((c : Thread nD τ).loc cc0_scratch0)) :
    ((((c : Thread nD τ).loc cc0_scratch0) ↦{fullShare} f : sProp 𝕄)) ⊢ iprop(sPt c 0 f ∗ sPt c 1 f ∗ sPt c 2 f ∗ sPt c 3 f) := by
  rw [sPt0_eq, sPt1_eq, sPt2_eq, sPt3_eq]
  exact pt_split4 f R01 R02 R03 R12 R13 R23 R_cover
theorem r_split (c : Dev nD) (f : Buf (Elt F) ((c : Thread nD τ).loc cc0_scratch1)) :
    ((((c : Thread nD τ).loc cc0_scratch1) ↦{fullShare} f : sProp 𝕄)) ⊢ iprop(rPt c 0 f ∗ rPt c 1 f ∗ rPt c 2 f ∗ rPt c 3 f) := by
  rw [rPt0_eq, rPt1_eq, rPt2_eq, rPt3_eq]
  exact pt_split4 f R01 R02 R03 R12 R13 R23 R_cover
theorem s_join (c : Dev nD) (f0 f1 f2 f3 : Buf (Elt F) ((c : Thread nD τ).loc cc0_scratch0)) :
    (iprop(sPt c 0 f0 ∗ sPt c 1 f1 ∗ sPt c 2 f2 ∗ sPt c 3 f3) : sProp 𝕄)
      ⊢ iprop(∃ f : Buf (Elt F) ((c : Thread nD τ).loc cc0_scratch0), ((c : Thread nD τ).loc cc0_scratch0) ↦{fullShare} f) := by
  rw [sPt0_eq, sPt1_eq, sPt2_eq, sPt3_eq]
  exact pt_join4 f0 f1 f2 f3 R01 R02 R03 R12 R13 R23 R_cover
theorem r_join (c : Dev nD) (f0 f1 f2 f3 : Buf (Elt F) ((c : Thread nD τ).loc cc0_scratch1)) :
    (iprop(rPt c 0 f0 ∗ rPt c 1 f1 ∗ rPt c 2 f2 ∗ rPt c 3 f3) : sProp 𝕄)
      ⊢ iprop(∃ f : Buf (Elt F) ((c : Thread nD τ).loc cc0_scratch1), ((c : Thread nD τ).loc cc0_scratch1) ↦{fullShare} f) := by
  rw [rPt0_eq, rPt1_eq, rPt2_eq, rPt3_eq]
  exact pt_join4 f0 f1 f2 f3 R01 R02 R03 R12 R13 R23 R_cover

/-! ## A load and a store through a band's rectangle; the transfer of a band

Band by band (`k = 0, 1, 2, 3`): a load of the staging buffer through the band's rectangle, holding the band (what is
read is not used); a store of a chunk through it, after which the band holds the chunk whatever it held; a load of the
landing buffer once the peer's chunk has landed, which reads the chunk; and transfer `k` — band `k` of the staging
buffer, holding chunk `k`, into band `k` of the peer's landing buffer (held at any contents), addressed to
`n = peer c`: it pays the departure duty of the sender's send cell `k` and the landing duty of the peer's receive
cell `k`, leaves the send cell's credit, and takes the landing off what the sender owes. -/

section Rules

theorem wp_load_sband0 {α : Type} {Q : α → sProp 𝕄} (c : Dev nD) {hl : (sM : Memref sig .tc .vmem S256x256 .bf16).view.LoadsAt R0.toLoadRect}
    {kk : (R0.toLoadRect.shape.Idx → Elt F .bf16) → Prog (TpuEff nD τ sig (Elt F) Λ₀ .tc) α}
    (f : Buf (Elt F) ((c : Thread nD τ).loc cc0_scratch0)) :
    (sPt c 0 f : sProp 𝕄)
      ⊢ iprop((sPt c 0 f -∗ wp frame (wpE (defs₀ (F := F)) 𝒱₀ (c : Thread nD τ) none) Set.univ (kk ((sM : Memref sig .tc .vmem S256x256 .bf16).view.readAt (Elt F) R0.toLoadRect f)) Q)
        -∗ wp frame (wpE (defs₀ (F := F)) 𝒱₀ (c : Thread nD τ) none) Set.univ (.op (.load sM R0.toLoadRect hl) kk) Q) := by
  exact wp_load_rect (defs := defs₀ (F := F)) 𝒱₀ (c : Thread nD τ) none (Γ := .empty) Set.univ (m := (sM : Memref sig .tc .vmem S256x256 .bf16)) (r := R0) (hl := hl) (k := kk)
    (S := (sB0 : Memref sig .tc .vmem S64x256 .bf16).view.set) (q := fullShare) (f := f) (Q := Q) subset_rfl

theorem wp_load_sband1 {α : Type} {Q : α → sProp 𝕄} (c : Dev nD) {hl : (sM : Memref sig .tc .vmem S256x256 .bf16).view.LoadsAt R1.toLoadRect}
    {kk : (R1.toLoadRect.shape.Idx → Elt F .bf16) → Prog (TpuEff nD τ sig (Elt F) Λ₀ .tc) α}
    (f : Buf (Elt F) ((c : Thread nD τ).loc cc0_scratch0)) :
    (sPt c 1 f : sProp 𝕄)
      ⊢ iprop((sPt c 1 f -∗ wp frame (wpE (defs₀ (F := F)) 𝒱₀ (c : Thread nD τ) none) Set.univ (kk ((sM : Memref sig .tc .vmem S256x256 .bf16).view.readAt (Elt F) R1.toLoadRect f)) Q)
        -∗ wp frame (wpE (defs₀ (F := F)) 𝒱₀ (c : Thread nD τ) none) Set.univ (.op (.load sM R1.toLoadRect hl) kk) Q) := by
  exact wp_load_rect (defs := defs₀ (F := F)) 𝒱₀ (c : Thread nD τ) none (Γ := .empty) Set.univ (m := (sM : Memref sig .tc .vmem S256x256 .bf16)) (r := R1) (hl := hl) (k := kk)
    (S := (sB1 : Memref sig .tc .vmem S64x256 .bf16).view.set) (q := fullShare) (f := f) (Q := Q) subset_rfl

theorem wp_load_sband2 {α : Type} {Q : α → sProp 𝕄} (c : Dev nD) {hl : (sM : Memref sig .tc .vmem S256x256 .bf16).view.LoadsAt R2.toLoadRect}
    {kk : (R2.toLoadRect.shape.Idx → Elt F .bf16) → Prog (TpuEff nD τ sig (Elt F) Λ₀ .tc) α}
    (f : Buf (Elt F) ((c : Thread nD τ).loc cc0_scratch0)) :
    (sPt c 2 f : sProp 𝕄)
      ⊢ iprop((sPt c 2 f -∗ wp frame (wpE (defs₀ (F := F)) 𝒱₀ (c : Thread nD τ) none) Set.univ (kk ((sM : Memref sig .tc .vmem S256x256 .bf16).view.readAt (Elt F) R2.toLoadRect f)) Q)
        -∗ wp frame (wpE (defs₀ (F := F)) 𝒱₀ (c : Thread nD τ) none) Set.univ (.op (.load sM R2.toLoadRect hl) kk) Q) := by
  exact wp_load_rect (defs := defs₀ (F := F)) 𝒱₀ (c : Thread nD τ) none (Γ := .empty) Set.univ (m := (sM : Memref sig .tc .vmem S256x256 .bf16)) (r := R2) (hl := hl) (k := kk)
    (S := (sB2 : Memref sig .tc .vmem S64x256 .bf16).view.set) (q := fullShare) (f := f) (Q := Q) subset_rfl

theorem wp_load_sband3 {α : Type} {Q : α → sProp 𝕄} (c : Dev nD) {hl : (sM : Memref sig .tc .vmem S256x256 .bf16).view.LoadsAt R3.toLoadRect}
    {kk : (R3.toLoadRect.shape.Idx → Elt F .bf16) → Prog (TpuEff nD τ sig (Elt F) Λ₀ .tc) α}
    (f : Buf (Elt F) ((c : Thread nD τ).loc cc0_scratch0)) :
    (sPt c 3 f : sProp 𝕄)
      ⊢ iprop((sPt c 3 f -∗ wp frame (wpE (defs₀ (F := F)) 𝒱₀ (c : Thread nD τ) none) Set.univ (kk ((sM : Memref sig .tc .vmem S256x256 .bf16).view.readAt (Elt F) R3.toLoadRect f)) Q)
        -∗ wp frame (wpE (defs₀ (F := F)) 𝒱₀ (c : Thread nD τ) none) Set.univ (.op (.load sM R3.toLoadRect hl) kk) Q) := by
  exact wp_load_rect (defs := defs₀ (F := F)) 𝒱₀ (c : Thread nD τ) none (Γ := .empty) Set.univ (m := (sM : Memref sig .tc .vmem S256x256 .bf16)) (r := R3) (hl := hl) (k := kk)
    (S := (sB3 : Memref sig .tc .vmem S64x256 .bf16).view.set) (q := fullShare) (f := f) (Q := Q) subset_rfl

theorem wp_store_sband0 {α : Type} {Q : α → sProp 𝕄} (c : Dev nD) (w : FVec F S64x256 .bf16) {hx : ((sM : Memref sig .tc .vmem S256x256 .bf16).access R0).Stores Finset.univ}
    {hm : (Finset.univ : Finset R0.shape.Idx) = Finset.univ ∨ ∀ a, R0.stride a = 1}
    {kk : PUnit → Prog (TpuEff nD τ sig (Elt F) Λ₀ .tc) α}
    (f : Buf (Elt F) ((c : Thread nD τ).loc cc0_scratch0)) :
    (sPt c 0 f : sProp 𝕄)
      ⊢ iprop((sPt c 0 (sB0.view.write (Elt F) sB0.view.junk w Finset.univ) -∗ wp frame (wpE (defs₀ (F := F)) 𝒱₀ (c : Thread nD τ) none) Set.univ (kk ⟨⟩) Q)
        -∗ wp frame (wpE (defs₀ (F := F)) 𝒱₀ (c : Thread nD τ) none) Set.univ (.op (.store sM R0 w Finset.univ hx hm) kk) Q) := by
  have h := wp_store (defs := defs₀ (F := F)) 𝒱₀ (c : Thread nD τ) none (Γ := .empty) Set.univ (m := (sM : Memref sig .tc .vmem S256x256 .bf16)) (r := R0) (w := w) (Mk := Finset.univ)
    (hx := hx) (hm := hm) (k := kk) (S := (sB0 : Memref sig .tc .vmem S64x256 .bf16).view.set) (f := f) (Q := Q) subset_rfl
  rw [pointsTo_congr (ℓ := (c : Thread nD τ).loc cc0_scratch0) (I := (sB0 : Memref sig .tc .vmem S64x256 .bf16).view.set) (q := fullShare)
    (f := ((sM : Memref sig .tc .vmem S256x256 .bf16).access R0).write (Elt F) f w Finset.univ)
    (g := (sB0 : Memref sig .tc .vmem S64x256 .bf16).view.write (Elt F) (sB0 : Memref sig .tc .vmem S64x256 .bf16).view.junk w Finset.univ)
    (write_univ_agree (sB0 : Memref sig .tc .vmem S64x256 .bf16).view f (sB0 : Memref sig .tc .vmem S64x256 .bf16).view.junk w)] at h
  exact h

theorem wp_store_sband1 {α : Type} {Q : α → sProp 𝕄} (c : Dev nD) (w : FVec F S64x256 .bf16) {hx : ((sM : Memref sig .tc .vmem S256x256 .bf16).access R1).Stores Finset.univ}
    {hm : (Finset.univ : Finset R1.shape.Idx) = Finset.univ ∨ ∀ a, R1.stride a = 1}
    {kk : PUnit → Prog (TpuEff nD τ sig (Elt F) Λ₀ .tc) α}
    (f : Buf (Elt F) ((c : Thread nD τ).loc cc0_scratch0)) :
    (sPt c 1 f : sProp 𝕄)
      ⊢ iprop((sPt c 1 (sB1.view.write (Elt F) sB1.view.junk w Finset.univ) -∗ wp frame (wpE (defs₀ (F := F)) 𝒱₀ (c : Thread nD τ) none) Set.univ (kk ⟨⟩) Q)
        -∗ wp frame (wpE (defs₀ (F := F)) 𝒱₀ (c : Thread nD τ) none) Set.univ (.op (.store sM R1 w Finset.univ hx hm) kk) Q) := by
  have h := wp_store (defs := defs₀ (F := F)) 𝒱₀ (c : Thread nD τ) none (Γ := .empty) Set.univ (m := (sM : Memref sig .tc .vmem S256x256 .bf16)) (r := R1) (w := w) (Mk := Finset.univ)
    (hx := hx) (hm := hm) (k := kk) (S := (sB1 : Memref sig .tc .vmem S64x256 .bf16).view.set) (f := f) (Q := Q) subset_rfl
  rw [pointsTo_congr (ℓ := (c : Thread nD τ).loc cc0_scratch0) (I := (sB1 : Memref sig .tc .vmem S64x256 .bf16).view.set) (q := fullShare)
    (f := ((sM : Memref sig .tc .vmem S256x256 .bf16).access R1).write (Elt F) f w Finset.univ)
    (g := (sB1 : Memref sig .tc .vmem S64x256 .bf16).view.write (Elt F) (sB1 : Memref sig .tc .vmem S64x256 .bf16).view.junk w Finset.univ)
    (write_univ_agree (sB1 : Memref sig .tc .vmem S64x256 .bf16).view f (sB1 : Memref sig .tc .vmem S64x256 .bf16).view.junk w)] at h
  exact h

theorem wp_store_sband2 {α : Type} {Q : α → sProp 𝕄} (c : Dev nD) (w : FVec F S64x256 .bf16) {hx : ((sM : Memref sig .tc .vmem S256x256 .bf16).access R2).Stores Finset.univ}
    {hm : (Finset.univ : Finset R2.shape.Idx) = Finset.univ ∨ ∀ a, R2.stride a = 1}
    {kk : PUnit → Prog (TpuEff nD τ sig (Elt F) Λ₀ .tc) α}
    (f : Buf (Elt F) ((c : Thread nD τ).loc cc0_scratch0)) :
    (sPt c 2 f : sProp 𝕄)
      ⊢ iprop((sPt c 2 (sB2.view.write (Elt F) sB2.view.junk w Finset.univ) -∗ wp frame (wpE (defs₀ (F := F)) 𝒱₀ (c : Thread nD τ) none) Set.univ (kk ⟨⟩) Q)
        -∗ wp frame (wpE (defs₀ (F := F)) 𝒱₀ (c : Thread nD τ) none) Set.univ (.op (.store sM R2 w Finset.univ hx hm) kk) Q) := by
  have h := wp_store (defs := defs₀ (F := F)) 𝒱₀ (c : Thread nD τ) none (Γ := .empty) Set.univ (m := (sM : Memref sig .tc .vmem S256x256 .bf16)) (r := R2) (w := w) (Mk := Finset.univ)
    (hx := hx) (hm := hm) (k := kk) (S := (sB2 : Memref sig .tc .vmem S64x256 .bf16).view.set) (f := f) (Q := Q) subset_rfl
  rw [pointsTo_congr (ℓ := (c : Thread nD τ).loc cc0_scratch0) (I := (sB2 : Memref sig .tc .vmem S64x256 .bf16).view.set) (q := fullShare)
    (f := ((sM : Memref sig .tc .vmem S256x256 .bf16).access R2).write (Elt F) f w Finset.univ)
    (g := (sB2 : Memref sig .tc .vmem S64x256 .bf16).view.write (Elt F) (sB2 : Memref sig .tc .vmem S64x256 .bf16).view.junk w Finset.univ)
    (write_univ_agree (sB2 : Memref sig .tc .vmem S64x256 .bf16).view f (sB2 : Memref sig .tc .vmem S64x256 .bf16).view.junk w)] at h
  exact h

theorem wp_store_sband3 {α : Type} {Q : α → sProp 𝕄} (c : Dev nD) (w : FVec F S64x256 .bf16) {hx : ((sM : Memref sig .tc .vmem S256x256 .bf16).access R3).Stores Finset.univ}
    {hm : (Finset.univ : Finset R3.shape.Idx) = Finset.univ ∨ ∀ a, R3.stride a = 1}
    {kk : PUnit → Prog (TpuEff nD τ sig (Elt F) Λ₀ .tc) α}
    (f : Buf (Elt F) ((c : Thread nD τ).loc cc0_scratch0)) :
    (sPt c 3 f : sProp 𝕄)
      ⊢ iprop((sPt c 3 (sB3.view.write (Elt F) sB3.view.junk w Finset.univ) -∗ wp frame (wpE (defs₀ (F := F)) 𝒱₀ (c : Thread nD τ) none) Set.univ (kk ⟨⟩) Q)
        -∗ wp frame (wpE (defs₀ (F := F)) 𝒱₀ (c : Thread nD τ) none) Set.univ (.op (.store sM R3 w Finset.univ hx hm) kk) Q) := by
  have h := wp_store (defs := defs₀ (F := F)) 𝒱₀ (c : Thread nD τ) none (Γ := .empty) Set.univ (m := (sM : Memref sig .tc .vmem S256x256 .bf16)) (r := R3) (w := w) (Mk := Finset.univ)
    (hx := hx) (hm := hm) (k := kk) (S := (sB3 : Memref sig .tc .vmem S64x256 .bf16).view.set) (f := f) (Q := Q) subset_rfl
  rw [pointsTo_congr (ℓ := (c : Thread nD τ).loc cc0_scratch0) (I := (sB3 : Memref sig .tc .vmem S64x256 .bf16).view.set) (q := fullShare)
    (f := ((sM : Memref sig .tc .vmem S256x256 .bf16).access R3).write (Elt F) f w Finset.univ)
    (g := (sB3 : Memref sig .tc .vmem S64x256 .bf16).view.write (Elt F) (sB3 : Memref sig .tc .vmem S64x256 .bf16).view.junk w Finset.univ)
    (write_univ_agree (sB3 : Memref sig .tc .vmem S64x256 .bf16).view f (sB3 : Memref sig .tc .vmem S64x256 .bf16).view.junk w)] at h
  exact h

theorem wp_load_rband0 {α : Type} {Q : α → sProp 𝕄} (c : Dev nD) {hl : (rM : Memref sig .tc .vmem S256x256 .bf16).view.LoadsAt R0.toLoadRect}
    {kk : (R0.toLoadRect.shape.Idx → Elt F .bf16) → Prog (TpuEff nD τ sig (Elt F) Λ₀ .tc) α} :
    (rPt c 0 (land m c 0) : sProp 𝕄)
      ⊢ iprop((rPt c 0 (land m c 0) -∗ wp frame (wpE (defs₀ (F := F)) 𝒱₀ (c : Thread nD τ) none) Set.univ (kk (snd0 m (peer c))) Q)
        -∗ wp frame (wpE (defs₀ (F := F)) 𝒱₀ (c : Thread nD τ) none) Set.univ (.op (.load rM R0.toLoadRect hl) kk) Q) := by
  have h := wp_load_rect (defs := defs₀ (F := F)) 𝒱₀ (c : Thread nD τ) none (Γ := .empty) Set.univ (m := (rM : Memref sig .tc .vmem S256x256 .bf16)) (r := R0) (hl := hl) (k := kk)
    (S := (rB0 : Memref sig .tc .vmem S64x256 .bf16).view.set) (q := fullShare) (f := land m c 0) (Q := Q) subset_rfl
  rw [read_land0] at h
  exact h

theorem wp_load_rband1 {α : Type} {Q : α → sProp 𝕄} (c : Dev nD) {hl : (rM : Memref sig .tc .vmem S256x256 .bf16).view.LoadsAt R1.toLoadRect}
    {kk : (R1.toLoadRect.shape.Idx → Elt F .bf16) → Prog (TpuEff nD τ sig (Elt F) Λ₀ .tc) α} :
    (rPt c 1 (land m c 1) : sProp 𝕄)
      ⊢ iprop((rPt c 1 (land m c 1) -∗ wp frame (wpE (defs₀ (F := F)) 𝒱₀ (c : Thread nD τ) none) Set.univ (kk (snd1 m (peer c))) Q)
        -∗ wp frame (wpE (defs₀ (F := F)) 𝒱₀ (c : Thread nD τ) none) Set.univ (.op (.load rM R1.toLoadRect hl) kk) Q) := by
  have h := wp_load_rect (defs := defs₀ (F := F)) 𝒱₀ (c : Thread nD τ) none (Γ := .empty) Set.univ (m := (rM : Memref sig .tc .vmem S256x256 .bf16)) (r := R1) (hl := hl) (k := kk)
    (S := (rB1 : Memref sig .tc .vmem S64x256 .bf16).view.set) (q := fullShare) (f := land m c 1) (Q := Q) subset_rfl
  rw [read_land1] at h
  exact h

theorem wp_load_rband2 {α : Type} {Q : α → sProp 𝕄} (c : Dev nD) {hl : (rM : Memref sig .tc .vmem S256x256 .bf16).view.LoadsAt R2.toLoadRect}
    {kk : (R2.toLoadRect.shape.Idx → Elt F .bf16) → Prog (TpuEff nD τ sig (Elt F) Λ₀ .tc) α} :
    (rPt c 2 (land m c 2) : sProp 𝕄)
      ⊢ iprop((rPt c 2 (land m c 2) -∗ wp frame (wpE (defs₀ (F := F)) 𝒱₀ (c : Thread nD τ) none) Set.univ (kk (snd2 m (peer c))) Q)
        -∗ wp frame (wpE (defs₀ (F := F)) 𝒱₀ (c : Thread nD τ) none) Set.univ (.op (.load rM R2.toLoadRect hl) kk) Q) := by
  have h := wp_load_rect (defs := defs₀ (F := F)) 𝒱₀ (c : Thread nD τ) none (Γ := .empty) Set.univ (m := (rM : Memref sig .tc .vmem S256x256 .bf16)) (r := R2) (hl := hl) (k := kk)
    (S := (rB2 : Memref sig .tc .vmem S64x256 .bf16).view.set) (q := fullShare) (f := land m c 2) (Q := Q) subset_rfl
  rw [read_land2] at h
  exact h

theorem wp_load_rband3 {α : Type} {Q : α → sProp 𝕄} (c : Dev nD) {hl : (rM : Memref sig .tc .vmem S256x256 .bf16).view.LoadsAt R3.toLoadRect}
    {kk : (R3.toLoadRect.shape.Idx → Elt F .bf16) → Prog (TpuEff nD τ sig (Elt F) Λ₀ .tc) α} :
    (rPt c 3 (land m c 3) : sProp 𝕄)
      ⊢ iprop((rPt c 3 (land m c 3) -∗ wp frame (wpE (defs₀ (F := F)) 𝒱₀ (c : Thread nD τ) none) Set.univ (kk (snd3 m (peer c))) Q)
        -∗ wp frame (wpE (defs₀ (F := F)) 𝒱₀ (c : Thread nD τ) none) Set.univ (.op (.load rM R3.toLoadRect hl) kk) Q) := by
  have h := wp_load_rect (defs := defs₀ (F := F)) 𝒱₀ (c : Thread nD τ) none (Γ := .empty) Set.univ (m := (rM : Memref sig .tc .vmem S256x256 .bf16)) (r := R3) (hl := hl) (k := kk)
    (S := (rB3 : Memref sig .tc .vmem S64x256 .bf16).view.set) (q := fullShare) (f := land m c 3) (Q := Q) subset_rfl
  rw [read_land3] at h
  exact h

theorem wp_send_band0 {α : Type} {Q : α → sProp 𝕄} (c : Dev nD) (K : Dev nD × Fin 9 → ℕ) (n : Dev nD) (hn : n = peer c)
    {hsc : (rB0 : Memref sig (Dev.tc n : Thread nD τ).2.kind .vmem S64x256 .bf16).view.ref.isScScratch = false}
    {hsrc : sB0.view.WordExact} {hdst : rB0.view.WordExact}
    {hsem : DmaTarget.Typed .vmem (.dma rS0.sem) (.remote (Dev.tc n : Thread nD τ) rB0 (.dma sS0.sem) hsc)}
    {kk : PUnit → Prog (TpuEff nD τ sig (Elt F) Λ₀ .tc) α}
    (fd : Buf (Elt F) ((peer c : Thread nD τ).loc cc0_scratch1)) (O : CellTallies nD τ sig Unit) (W : Waits sig Unit) :
    iprop(cellInv ER (sched m) (K (c, 1)) (sendCell c 0) ∗ cellInv ER (sched m) (K (peer c, 5)) (recvCell (peer c) 0)
        ∗ sPt c 0 (sent m c 0) ∗ rPt (peer c) 0 fd
        ∗ owes (c : Thread nD τ) (O + tallyAt (recvCell (peer c) 0) () N) W
        ∗ dutyTok ER (sendCell c 0) 0 () ∗ reached ER (sendCell c 0) 0
        ∗ dutyTok ER (recvCell (peer c) 0) 0 () ∗ reached ER (recvCell (peer c) 0) 0)
      ⊢ iprop(((cred (tallyAt (sendCell c 0) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sB0 (.remote (Dev.tc n : Thread nD τ) rB0 (.dma sS0.sem) hsc) (.dma rS0.sem) hsrc hdst hsem) kk) Q) := by
  subst hn
  exact Rounds.wp_send_pointsTo (defs := defs₀ (F := F)) 𝒱₀ ER (sched m) (c : Thread nD τ) none (Γ := .empty)
    (c' := (Dev.tc (peer c) : Thread nD τ)) (src := (sB0 : Memref sig .tc .vmem S64x256 .bf16)) (dst := (rB0 : Memref sig .tc .vmem S64x256 .bf16)) (hsc := hsc)
    (sS := .dma sS0.sem) (sem := .dma rS0.sem) (hsrc := hsrc) (hdst := hdst) (hsem := hsem) (k := kk) (q := fullShare)
    (fs := sent m c 0) (fd := fd) (κ₁ := K (c, 1)) (κ₂ := K (peer c, 5)) (r₁ := 0) (r₂ := 0) (d₁ := ()) (d₂ := ())
    (show () ∈ (sched m).duties (kcell (c, 1)) 0 by rw [duties_cell]; exact Finset.mem_singleton_self _)
    (show () ∈ (sched m).duties (kcell (peer c, 5)) 0 by rw [duties_cell]; exact Finset.mem_singleton_self _)
    () () N rfl (amount_xfer m c 1 (by decide) ()) (amount_xfer m (peer c) 5 (by decide) ()) O rfl (W := W) (Q := Q)
    (Entails.of_eq (payload_send m c 0 ()).symm)
    (Entails.of_eq ((landed0 m c fd).trans (payload_recv m (peer c) 0 ()).symm))

theorem wp_send_band1 {α : Type} {Q : α → sProp 𝕄} (c : Dev nD) (K : Dev nD × Fin 9 → ℕ) (n : Dev nD) (hn : n = peer c)
    {hsc : (rB1 : Memref sig (Dev.tc n : Thread nD τ).2.kind .vmem S64x256 .bf16).view.ref.isScScratch = false}
    {hsrc : sB1.view.WordExact} {hdst : rB1.view.WordExact}
    {hsem : DmaTarget.Typed .vmem (.dma rS1.sem) (.remote (Dev.tc n : Thread nD τ) rB1 (.dma sS1.sem) hsc)}
    {kk : PUnit → Prog (TpuEff nD τ sig (Elt F) Λ₀ .tc) α}
    (fd : Buf (Elt F) ((peer c : Thread nD τ).loc cc0_scratch1)) (O : CellTallies nD τ sig Unit) (W : Waits sig Unit) :
    iprop(cellInv ER (sched m) (K (c, 2)) (sendCell c 1) ∗ cellInv ER (sched m) (K (peer c, 6)) (recvCell (peer c) 1)
        ∗ sPt c 1 (sent m c 1) ∗ rPt (peer c) 1 fd
        ∗ owes (c : Thread nD τ) (O + tallyAt (recvCell (peer c) 1) () N) W
        ∗ dutyTok ER (sendCell c 1) 0 () ∗ reached ER (sendCell c 1) 0
        ∗ dutyTok ER (recvCell (peer c) 1) 0 () ∗ reached ER (recvCell (peer c) 1) 0)
      ⊢ iprop(((cred (tallyAt (sendCell c 1) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sB1 (.remote (Dev.tc n : Thread nD τ) rB1 (.dma sS1.sem) hsc) (.dma rS1.sem) hsrc hdst hsem) kk) Q) := by
  subst hn
  exact Rounds.wp_send_pointsTo (defs := defs₀ (F := F)) 𝒱₀ ER (sched m) (c : Thread nD τ) none (Γ := .empty)
    (c' := (Dev.tc (peer c) : Thread nD τ)) (src := (sB1 : Memref sig .tc .vmem S64x256 .bf16)) (dst := (rB1 : Memref sig .tc .vmem S64x256 .bf16)) (hsc := hsc)
    (sS := .dma sS1.sem) (sem := .dma rS1.sem) (hsrc := hsrc) (hdst := hdst) (hsem := hsem) (k := kk) (q := fullShare)
    (fs := sent m c 1) (fd := fd) (κ₁ := K (c, 2)) (κ₂ := K (peer c, 6)) (r₁ := 0) (r₂ := 0) (d₁ := ()) (d₂ := ())
    (show () ∈ (sched m).duties (kcell (c, 2)) 0 by rw [duties_cell]; exact Finset.mem_singleton_self _)
    (show () ∈ (sched m).duties (kcell (peer c, 6)) 0 by rw [duties_cell]; exact Finset.mem_singleton_self _)
    () () N rfl (amount_xfer m c 2 (by decide) ()) (amount_xfer m (peer c) 6 (by decide) ()) O rfl (W := W) (Q := Q)
    (Entails.of_eq (payload_send m c 1 ()).symm)
    (Entails.of_eq ((landed1 m c fd).trans (payload_recv m (peer c) 1 ()).symm))

theorem wp_send_band2 {α : Type} {Q : α → sProp 𝕄} (c : Dev nD) (K : Dev nD × Fin 9 → ℕ) (n : Dev nD) (hn : n = peer c)
    {hsc : (rB2 : Memref sig (Dev.tc n : Thread nD τ).2.kind .vmem S64x256 .bf16).view.ref.isScScratch = false}
    {hsrc : sB2.view.WordExact} {hdst : rB2.view.WordExact}
    {hsem : DmaTarget.Typed .vmem (.dma rS2.sem) (.remote (Dev.tc n : Thread nD τ) rB2 (.dma sS2.sem) hsc)}
    {kk : PUnit → Prog (TpuEff nD τ sig (Elt F) Λ₀ .tc) α}
    (fd : Buf (Elt F) ((peer c : Thread nD τ).loc cc0_scratch1)) (O : CellTallies nD τ sig Unit) (W : Waits sig Unit) :
    iprop(cellInv ER (sched m) (K (c, 3)) (sendCell c 2) ∗ cellInv ER (sched m) (K (peer c, 7)) (recvCell (peer c) 2)
        ∗ sPt c 2 (sent m c 2) ∗ rPt (peer c) 2 fd
        ∗ owes (c : Thread nD τ) (O + tallyAt (recvCell (peer c) 2) () N) W
        ∗ dutyTok ER (sendCell c 2) 0 () ∗ reached ER (sendCell c 2) 0
        ∗ dutyTok ER (recvCell (peer c) 2) 0 () ∗ reached ER (recvCell (peer c) 2) 0)
      ⊢ iprop(((cred (tallyAt (sendCell c 2) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sB2 (.remote (Dev.tc n : Thread nD τ) rB2 (.dma sS2.sem) hsc) (.dma rS2.sem) hsrc hdst hsem) kk) Q) := by
  subst hn
  exact Rounds.wp_send_pointsTo (defs := defs₀ (F := F)) 𝒱₀ ER (sched m) (c : Thread nD τ) none (Γ := .empty)
    (c' := (Dev.tc (peer c) : Thread nD τ)) (src := (sB2 : Memref sig .tc .vmem S64x256 .bf16)) (dst := (rB2 : Memref sig .tc .vmem S64x256 .bf16)) (hsc := hsc)
    (sS := .dma sS2.sem) (sem := .dma rS2.sem) (hsrc := hsrc) (hdst := hdst) (hsem := hsem) (k := kk) (q := fullShare)
    (fs := sent m c 2) (fd := fd) (κ₁ := K (c, 3)) (κ₂ := K (peer c, 7)) (r₁ := 0) (r₂ := 0) (d₁ := ()) (d₂ := ())
    (show () ∈ (sched m).duties (kcell (c, 3)) 0 by rw [duties_cell]; exact Finset.mem_singleton_self _)
    (show () ∈ (sched m).duties (kcell (peer c, 7)) 0 by rw [duties_cell]; exact Finset.mem_singleton_self _)
    () () N rfl (amount_xfer m c 3 (by decide) ()) (amount_xfer m (peer c) 7 (by decide) ()) O rfl (W := W) (Q := Q)
    (Entails.of_eq (payload_send m c 2 ()).symm)
    (Entails.of_eq ((landed2 m c fd).trans (payload_recv m (peer c) 2 ()).symm))

theorem wp_send_band3 {α : Type} {Q : α → sProp 𝕄} (c : Dev nD) (K : Dev nD × Fin 9 → ℕ) (n : Dev nD) (hn : n = peer c)
    {hsc : (rB3 : Memref sig (Dev.tc n : Thread nD τ).2.kind .vmem S64x256 .bf16).view.ref.isScScratch = false}
    {hsrc : sB3.view.WordExact} {hdst : rB3.view.WordExact}
    {hsem : DmaTarget.Typed .vmem (.dma rS3.sem) (.remote (Dev.tc n : Thread nD τ) rB3 (.dma sS3.sem) hsc)}
    {kk : PUnit → Prog (TpuEff nD τ sig (Elt F) Λ₀ .tc) α}
    (fd : Buf (Elt F) ((peer c : Thread nD τ).loc cc0_scratch1)) (O : CellTallies nD τ sig Unit) (W : Waits sig Unit) :
    iprop(cellInv ER (sched m) (K (c, 4)) (sendCell c 3) ∗ cellInv ER (sched m) (K (peer c, 8)) (recvCell (peer c) 3)
        ∗ sPt c 3 (sent m c 3) ∗ rPt (peer c) 3 fd
        ∗ owes (c : Thread nD τ) (O + tallyAt (recvCell (peer c) 3) () N) W
        ∗ dutyTok ER (sendCell c 3) 0 () ∗ reached ER (sendCell c 3) 0
        ∗ dutyTok ER (recvCell (peer c) 3) 0 () ∗ reached ER (recvCell (peer c) 3) 0)
      ⊢ iprop(((cred (tallyAt (sendCell c 3) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sB3 (.remote (Dev.tc n : Thread nD τ) rB3 (.dma sS3.sem) hsc) (.dma rS3.sem) hsrc hdst hsem) kk) Q) := by
  subst hn
  exact Rounds.wp_send_pointsTo (defs := defs₀ (F := F)) 𝒱₀ ER (sched m) (c : Thread nD τ) none (Γ := .empty)
    (c' := (Dev.tc (peer c) : Thread nD τ)) (src := (sB3 : Memref sig .tc .vmem S64x256 .bf16)) (dst := (rB3 : Memref sig .tc .vmem S64x256 .bf16)) (hsc := hsc)
    (sS := .dma sS3.sem) (sem := .dma rS3.sem) (hsrc := hsrc) (hdst := hdst) (hsem := hsem) (k := kk) (q := fullShare)
    (fs := sent m c 3) (fd := fd) (κ₁ := K (c, 4)) (κ₂ := K (peer c, 8)) (r₁ := 0) (r₂ := 0) (d₁ := ()) (d₂ := ())
    (show () ∈ (sched m).duties (kcell (c, 4)) 0 by rw [duties_cell]; exact Finset.mem_singleton_self _)
    (show () ∈ (sched m).duties (kcell (peer c, 8)) 0 by rw [duties_cell]; exact Finset.mem_singleton_self _)
    () () N rfl (amount_xfer m c 4 (by decide) ()) (amount_xfer m (peer c) 8 (by decide) ()) O rfl (W := W) (Q := Q)
    (Entails.of_eq (payload_send m c 3 ()).symm)
    (Entails.of_eq ((landed3 m c fd).trans (payload_recv m (peer c) 3 ()).symm))

end Rules

/-! ## None of the rules rests on anything but the three standard axioms -/

/-- info: 'Cert.Kernel.RS.s_split' depends on axioms: [propext, Classical.choice, Quot.sound] -/
#guard_msgs in #print axioms s_split

/-- info: 'Cert.Kernel.RS.r_split' depends on axioms: [propext, Classical.choice, Quot.sound] -/
#guard_msgs in #print axioms r_split

/-- info: 'Cert.Kernel.RS.s_join' depends on axioms: [propext, Classical.choice, Quot.sound] -/
#guard_msgs in #print axioms s_join

/-- info: 'Cert.Kernel.RS.r_join' depends on axioms: [propext, Classical.choice, Quot.sound] -/
#guard_msgs in #print axioms r_join

/-- info: 'Cert.Kernel.RS.wp_load_sband0' depends on axioms: [propext, Classical.choice, Quot.sound] -/
#guard_msgs in #print axioms wp_load_sband0

/-- info: 'Cert.Kernel.RS.wp_load_sband1' depends on axioms: [propext, Classical.choice, Quot.sound] -/
#guard_msgs in #print axioms wp_load_sband1

/-- info: 'Cert.Kernel.RS.wp_load_sband2' depends on axioms: [propext, Classical.choice, Quot.sound] -/
#guard_msgs in #print axioms wp_load_sband2

/-- info: 'Cert.Kernel.RS.wp_load_sband3' depends on axioms: [propext, Classical.choice, Quot.sound] -/
#guard_msgs in #print axioms wp_load_sband3

/-- info: 'Cert.Kernel.RS.wp_store_sband0' depends on axioms: [propext, Classical.choice, Quot.sound] -/
#guard_msgs in #print axioms wp_store_sband0

/-- info: 'Cert.Kernel.RS.wp_store_sband1' depends on axioms: [propext, Classical.choice, Quot.sound] -/
#guard_msgs in #print axioms wp_store_sband1

/-- info: 'Cert.Kernel.RS.wp_store_sband2' depends on axioms: [propext, Classical.choice, Quot.sound] -/
#guard_msgs in #print axioms wp_store_sband2

/-- info: 'Cert.Kernel.RS.wp_store_sband3' depends on axioms: [propext, Classical.choice, Quot.sound] -/
#guard_msgs in #print axioms wp_store_sband3

/-- info: 'Cert.Kernel.RS.wp_load_rband0' depends on axioms: [propext, Classical.choice, Quot.sound] -/
#guard_msgs in #print axioms wp_load_rband0

/-- info: 'Cert.Kernel.RS.wp_load_rband1' depends on axioms: [propext, Classical.choice, Quot.sound] -/
#guard_msgs in #print axioms wp_load_rband1

/-- info: 'Cert.Kernel.RS.wp_load_rband2' depends on axioms: [propext, Classical.choice, Quot.sound] -/
#guard_msgs in #print axioms wp_load_rband2

/-- info: 'Cert.Kernel.RS.wp_load_rband3' depends on axioms: [propext, Classical.choice, Quot.sound] -/
#guard_msgs in #print axioms wp_load_rband3

/-- info: 'Cert.Kernel.RS.wp_send_band0' depends on axioms: [propext, Classical.choice, Quot.sound] -/
#guard_msgs in #print axioms wp_send_band0

/-- info: 'Cert.Kernel.RS.wp_send_band1' depends on axioms: [propext, Classical.choice, Quot.sound] -/
#guard_msgs in #print axioms wp_send_band1

/-- info: 'Cert.Kernel.RS.wp_send_band2' depends on axioms: [propext, Classical.choice, Quot.sound] -/
#guard_msgs in #print axioms wp_send_band2

/-- info: 'Cert.Kernel.RS.wp_send_band3' depends on axioms: [propext, Classical.choice, Quot.sound] -/
#guard_msgs in #print axioms wp_send_band3

end Cert.Kernel.RS

end
-- ==== Proof.KernelRS.Body.lean ====
/-
  One device's body, run from what the launch hands it to what it gives back.

  In program order: the entry signal to the peer, with which the device hands over its landing buffer cut into its four
  row bands; chunk 0 rounded into band 0 of the staging buffer; the wait for the peer's entry signal, which brings the
  peer's landing buffer band by band; then, chunk by chunk, the transfer of band `k` into the peer's band `k` and the
  rounding of the next chunk; then, band by band, the wait for the peer's chunk to land, its sum with the device's own
  half of the slab, and the store of the rounded sum into the result; last the four waits that bring the staging
  buffer's bands back. The eight own cells are closed, the two buffers put together again from their bands, and the
  four stores of the result read as the result block.
-/
import proofs.«901034_g7700000000001035_dist_rs_v7x_xyz2x2x4_x_m256_n256_bf16_1_alg».proof.Proof.KernelRS.Bands
import Idealize.ShloMosaic.Lib.Tactic

noncomputable section

namespace Cert.Kernel.RS

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- What device `c` reads off the common records: the invariants of its own nine cells and of the five of its peer's
    it pays into, and their first rounds reached. -/
theorem records_at (K : Dev nD × Fin 9 → ℕ) (c : Dev nD) :
    records m K ⊢ (iprop(cellInv ER (sched m) (K (c, 0)) (kcell (c, 0))
      ∗ cellInv ER (sched m) (K (c, 1)) (kcell (c, 1))
      ∗ cellInv ER (sched m) (K (c, 2)) (kcell (c, 2))
      ∗ cellInv ER (sched m) (K (c, 3)) (kcell (c, 3))
      ∗ cellInv ER (sched m) (K (c, 4)) (kcell (c, 4))
      ∗ cellInv ER (sched m) (K (c, 5)) (kcell (c, 5))
      ∗ cellInv ER (sched m) (K (c, 6)) (kcell (c, 6))
      ∗ cellInv ER (sched m) (K (c, 7)) (kcell (c, 7))
      ∗ cellInv ER (sched m) (K (c, 8)) (kcell (c, 8))
      ∗ cellInv ER (sched m) (K (peer c, 0)) (kcell (peer c, 0))
      ∗ cellInv ER (sched m) (K (peer c, 5)) (kcell (peer c, 5))
      ∗ cellInv ER (sched m) (K (peer c, 6)) (kcell (peer c, 6))
      ∗ cellInv ER (sched m) (K (peer c, 7)) (kcell (peer c, 7))
      ∗ cellInv ER (sched m) (K (peer c, 8)) (kcell (peer c, 8))
      ∗ reached ER (kcell (c, 0)) 0
      ∗ reached ER (kcell (c, 1)) 0
      ∗ reached ER (kcell (c, 2)) 0
      ∗ reached ER (kcell (c, 3)) 0
      ∗ reached ER (kcell (c, 4)) 0
      ∗ reached ER (kcell (c, 5)) 0
      ∗ reached ER (kcell (c, 6)) 0
      ∗ reached ER (kcell (c, 7)) 0
      ∗ reached ER (kcell (c, 8)) 0
      ∗ reached ER (kcell (peer c, 0)) 0
      ∗ reached ER (kcell (peer c, 5)) 0
      ∗ reached ER (kcell (peer c, 6)) 0
      ∗ reached ER (kcell (peer c, 7)) 0
      ∗ reached ER (kcell (peer c, 8)) 0) : sProp 𝕄) := by
  unfold records
  iintro ⟨#HI, #HR⟩
  isplitr; · iapply (inv_at m K (c, 0)); iexact HI
  isplitr; · iapply (inv_at m K (c, 1)); iexact HI
  isplitr; · iapply (inv_at m K (c, 2)); iexact HI
  isplitr; · iapply (inv_at m K (c, 3)); iexact HI
  isplitr; · iapply (inv_at m K (c, 4)); iexact HI
  isplitr; · iapply (inv_at m K (c, 5)); iexact HI
  isplitr; · iapply (inv_at m K (c, 6)); iexact HI
  isplitr; · iapply (inv_at m K (c, 7)); iexact HI
  isplitr; · iapply (inv_at m K (c, 8)); iexact HI
  isplitr; · iapply (inv_at m K (peer c, 0)); iexact HI
  isplitr; · iapply (inv_at m K (peer c, 5)); iexact HI
  isplitr; · iapply (inv_at m K (peer c, 6)); iexact HI
  isplitr; · iapply (inv_at m K (peer c, 7)); iexact HI
  isplitr; · iapply (inv_at m K (peer c, 8)); iexact HI
  isplitr; · iapply (reached_at (F := F) (c, 0)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitr; · iapply (reached_at (F := F) (c, 5)); iexact HR
  isplitr; · iapply (reached_at (F := F) (c, 6)); iexact HR
  isplitr; · iapply (reached_at (F := F) (c, 7)); iexact HR
  isplitr; · iapply (reached_at (F := F) (c, 8)); iexact HR
  isplitr; · iapply (reached_at (F := F) (peer c, 0)); iexact HR
  isplitr; · iapply (reached_at (F := F) (peer c, 5)); iexact HR
  isplitr; · iapply (reached_at (F := F) (peer c, 6)); iexact HR
  isplitr; · iapply (reached_at (F := F) (peer c, 7)); iexact HR
  iapply (reached_at (F := F) (peer c, 8)); iexact HR

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The rest of a cell's one round, nothing of it taken, is its one duty's payload. -/
theorem rest_bar (c : Dev nD) : bigSep ((sched (F := F) m).duties (barCell c) 0 \ ∅) (fun d => (sched (F := F) m).payload (barCell c) 0 d) = barPay c := by
  rw [Finset.sdiff_empty, duties_cell, bigSep_singleton, payload_bar]
theorem rest_send (c : Dev nD) (k : Fin 4) :
    bigSep ((sched (F := F) m).duties (sendCell c k) 0 \ ∅) (fun d => (sched (F := F) m).payload (sendCell c k) 0 d) = sPt c k (sent m c k) := by
  rw [Finset.sdiff_empty, duties_cell, bigSep_singleton, payload_send]
theorem rest_recv (c : Dev nD) (k : Fin 4) :
    bigSep ((sched (F := F) m).duties (recvCell c k) 0 \ ∅) (fun d => (sched (F := F) m).payload (recvCell c k) 0 d) = rPt c k (land m c k) := by
  rw [Finset.sdiff_empty, duties_cell, bigSep_singleton, payload_recv]

theorem mayWait_bar' (c : Dev nD) :
    (levAts L lv : sProp 𝕄) ⊢ MayWait (c : Thread nD τ) (.reg barS) () (tallyAt (recvCell (peer c) 3) () N + tallyAt (recvCell (peer c) 2) () N + tallyAt (recvCell (peer c) 1) () N + tallyAt (recvCell (peer c) 0) () N) := by
  have h := mayWait_bar (F := F) c; unfold O₁ at h; exact h

/-- The four stores of the result, over whatever the staging buffer held, leave the four chunks one under the other. -/
theorem out_final (c : Dev nD) (g : (cc0_stg1_0 : Ref sig .tc).ty.Contents (Elt F)) :
    ((oM : Memref sig .tc .vmem S256x256 .bf16).access R3).write (Elt F)
      (((oM : Memref sig .tc .vmem S256x256 .bf16).access R2).write (Elt F)
        (((oM : Memref sig .tc .vmem S256x256 .bf16).access R1).write (Elt F)
          (((oM : Memref sig .tc .vmem S256x256 .bf16).access R0).write (Elt F) g (out0 m c) Finset.univ)
          (out1 m c) Finset.univ)
        (out2 m c) Finset.univ)
      (out3 m c) Finset.univ = outAt m c :=
  View.read_writes_eq_canon (oM : Memref sig .tc .vmem S256x256 .bf16).view g (outPieces m c) (out_cover m c)

/-- Owing nothing, whatever has been waited on, is what the pipeline asks after the point. -/
theorem owesAt_intro (c : Dev nD) (W' : Waits sig Unit) :
    (owes (c : Thread nD τ) 0 W' : sProp 𝕄) ⊢ (dats m 0 c).owesAt () t₀.succ := by
  unfold Dat.owesAt Pipeline.owesWithin
  rw [show (dats m 0 c).owed t₀.succ = 0 from rfl]
  iintro HO
  iexists W'
  isplitr; · ipureintro; exact fun _ _ => Or.inl trivial
  iexact HO

theorem owes_zero_add (t : Thread nD τ) (T : CellTallies nD τ sig Unit) (W : Waits sig Unit) :
    (owes t T W : sProp 𝕄) = owes t (0 + T) W := by rw [zero_add]

set_option maxHeartbeats 4000000 in
theorem sound_body (c : Dev nD) :
    bodyPre m c ⊢ wp frame (wpE (defs₀ (F := F)) 𝒱₀ c none) Set.univ (theBody (F := F)) (fun _ => bodyPost m c) := by
  unfold theBody
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold bodyPre Φ₀ start ghost positions payToks creds scratch
  rw [bigSep_fin9]
  iintro ⟨⟨⟨⟨%K, Hrec, ⟨HaB, HaS0, HaS1, HaS2, HaS3, HaR0, HaR1, HaR2, HaR3⟩, HtB, HtR0, HtR1, HtR2, HtR3, HtS0, HtS1, HtS2, HtS3⟩, ⟨HcB, HcR0, HcR1, HcR2, HcR3⟩, #Hlev⟩, ⟨%fs, Hs⟩, ⟨%fr, Hr⟩⟩,
    Ho, ⟨%d0, %g0, %hg0, Hx⟩, ⟨%d1, %g1, %hg1, Hout⟩⟩
  ihave Hall := (records_at m K c) $$ Hrec
  icases Hall with ⟨#HIB, #HIS0, #HIS1, #HIS2, #HIS3, #HIR0, #HIR1, #HIR2, #HIR3, #HIpB, #HIpR0, #HIpR1, #HIpR2, #HIpR3, #HrB, #HrS0, #HrS1, #HrS2, #HrS3, #HrR0, #HrR1, #HrR2, #HrR3, #HrpB, #HrpR0, #HrpR1, #HrpR2, #HrpR3⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀ O₁
  ihave Hs4 := (s_split c fs) $$ Hs
  icases Hs4 with ⟨Hs0, Hs1, Hs2, Hs3⟩
  ihave Hr4 := (r_split c fr) $$ Hr
  icases Hr4 with ⟨Hr0, Hr1, Hr2, Hr3⟩
  simp only [dev1_eq c]
  -- the entry signal to the peer: with it go the four bands of the landing buffer
  iapply (Rounds.wp_signal 𝒱₀ ER (sched m) (c : Thread nD τ) none (dst := (peer c : Thread nD τ)) (κ := K (peer c, 0)) (d := ())
      (show () ∈ (sched m).duties (barCell (peer c)) 0 from by rw [duties_cell]; exact Finset.mem_singleton_self _)
      ((amount_bar m (peer c) ()).trans (by decide)) () (tallyAt (recvCell (peer c) 3) () N + tallyAt (recvCell (peer c) 2) () N + tallyAt (recvCell (peer c) 1) () N + tallyAt (recvCell (peer c) 0) () N) rfl)
    $$ [HO HtB Hr0 Hr1 Hr2 Hr3]
  · isplitr; · iexact HIpB
    isplitl [HO]; · iexact HO
    isplitl [HtB]; · iexact HtB
    isplitl [Hr0 Hr1 Hr2 Hr3]
    · iapply (Entails.of_eq (payload_bar m (peer c) ()).symm)
      unfold barPay; rw [peer_peer]
      isplitl [Hr0]; · iexists fr; iexact Hr0
      isplitl [Hr1]; · iexists fr; iexact Hr1
      isplitl [Hr2]; · iexists fr; iexact Hr2
      iexists fr; iexact Hr3
    · iexact HrpB
  iintro HO
  iapply (wp_load 𝒱₀ (c : Thread nD τ) none Set.univ (m := xM) (Finset.subset_univ _)) $$ Hx; iintro Hx
  iapply (wp_load_sband0 c fs) $$ Hs0; iintro Hs0
  iapply (wp_store_sband0 c _ fs) $$ Hs0; iintro Hs0
  -- the wait for the peer's entry signal, while the four transfers are still owed: the peer's landing buffer comes with it
  iapply (Rounds.wp_wait_rest_token 𝒱₀ ER (sched m) (c : Thread nD τ) none (κ := K (c, 0))
      (wpE_semWait_eq 𝒱₀ (c : Thread nD τ) none Set.univ) (Set.mem_univ _) () (O := tallyAt (recvCell (peer c) 3) () N + tallyAt (recvCell (peer c) 2) () N + tallyAt (recvCell (peer c) 1) () N + tallyAt (recvCell (peer c) 0) () N) (W := W) (R := 0) (m := 0) (T := ∅)
      (show 0 + (1#32).toNat = (sched m).expect (barCell c) 0 from by rw [expect_bar]; decide)) $$ [HcB HO HaB]
  · isplitr; · iexact HIB
    isplitl [HcB]; · iexact HcB
    isplitl [HO]; · iexact HO
    isplitr; · iapply (mayWait_bar' c); iexact Hlev
    iexact HaB
  iintro ⟨HO, HaB, -, Hpay⟩
  ihave Hp := (Entails.of_eq (rest_bar m c)) $$ Hpay
  unfold barPay
  icases Hp with ⟨⟨%fp0, Hp0⟩, ⟨%fp1, Hp1⟩, ⟨%fp2, Hp2⟩, ⟨%fp3, Hp3⟩⟩
  -- transfer 0: band 0 of the staging buffer into band 0 of the peer's landing buffer
  iapply (wp_send_band0 m c K _ (dev2_eq c) fp0 (tallyAt (recvCell (peer c) 3) () N + tallyAt (recvCell (peer c) 2) () N + tallyAt (recvCell (peer c) 1) () N) _) $$ [HO Hs0 Hp0 HtS0 HtR0]
  · isplitr; · iexact HIS0
    isplitr; · iexact HIpR0
    isplitl [Hs0]; · iexact Hs0
    isplitl [Hp0]; · iexact Hp0
    isplitl [HO]; · iexact HO
    isplitl [HtS0]; · iexact HtS0
    isplitr; · iexact HrS0
    isplitl [HtR0]; · iexact HtR0
    iexact HrpR0
  iintro ⟨HcS0, HO⟩
  iapply (wp_load 𝒱₀ (c : Thread nD τ) none Set.univ (m := xM) (Finset.subset_univ _)) $$ Hx; iintro Hx
  iapply (wp_load_sband1 c fs) $$ Hs1; iintro Hs1
  iapply (wp_store_sband1 c _ fs) $$ Hs1; iintro Hs1
  -- transfer 1: band 1 of the staging buffer into band 1 of the peer's landing buffer
  iapply (wp_send_band1 m c K _ (dev3_eq c) fp1 (tallyAt (recvCell (peer c) 3) () N + tallyAt (recvCell (peer c) 2) () N) _) $$ [HO Hs1 Hp1 HtS1 HtR1]
  · isplitr; · iexact HIS1
    isplitr; · iexact HIpR1
    isplitl [Hs1]; · iexact Hs1
    isplitl [Hp1]; · iexact Hp1
    isplitl [HO]; · iexact HO
    isplitl [HtS1]; · iexact HtS1
    isplitr; · iexact HrS1
    isplitl [HtR1]; · iexact HtR1
    iexact HrpR1
  iintro ⟨HcS1, HO⟩
  iapply (wp_load 𝒱₀ (c : Thread nD τ) none Set.univ (m := xM) (Finset.subset_univ _)) $$ Hx; iintro Hx
  iapply (wp_load_sband2 c fs) $$ Hs2; iintro Hs2
  iapply (wp_store_sband2 c _ fs) $$ Hs2; iintro Hs2
  -- transfer 2: band 2 of the staging buffer into band 2 of the peer's landing buffer
  iapply (wp_send_band2 m c K _ (dev4_eq c) fp2 (tallyAt (recvCell (peer c) 3) () N) _) $$ [HO Hs2 Hp2 HtS2 HtR2]
  · isplitr; · iexact HIS2
    isplitr; · iexact HIpR2
    isplitl [Hs2]; · iexact Hs2
    isplitl [Hp2]; · iexact Hp2
    isplitl [HO]; · iexact HO
    isplitl [HtS2]; · iexact HtS2
    isplitr; · iexact HrS2
    isplitl [HtR2]; · iexact HtR2
    iexact HrpR2
  iintro ⟨HcS2, HO⟩
  iapply (wp_load 𝒱₀ (c : Thread nD τ) none Set.univ (m := xM) (Finset.subset_univ _)) $$ Hx; iintro Hx
  iapply (wp_load_sband3 c fs) $$ Hs3; iintro Hs3
  iapply (wp_store_sband3 c _ fs) $$ Hs3; iintro Hs3
  ihave HO := (Entails.of_eq (owes_zero_add _ _ _)) $$ HO
  -- transfer 3: band 3 of the staging buffer into band 3 of the peer's landing buffer
  iapply (wp_send_band3 m c K _ (dev5_eq c) fp3 (0) _) $$ [HO Hs3 Hp3 HtS3 HtR3]
  · isplitr; · iexact HIS3
    isplitr; · iexact HIpR3
    isplitl [Hs3]; · iexact Hs3
    isplitl [Hp3]; · iexact Hp3
    isplitl [HO]; · iexact HO
    isplitl [HtS3]; · iexact HtS3
    isplitr; · iexact HrS3
    isplitl [HtR3]; · iexact HtR3
    iexact HrpR3
  iintro ⟨HcS3, HO⟩
  -- the wait on receive cell 0: its band of the landing buffer, holding the peer's chunk
  iapply (Rounds.wp_wait_rest_token 𝒱₀ ER (sched m) (c : Thread nD τ) none (κ := K (c, 5))
      (wpE_waitDma2_eq 𝒱₀ (c : Thread nD τ) none Set.univ) (Set.mem_univ _) () (O := 0) (W := _) (R := 0) (m := 0) (T := ∅)
      (by rw [Nat.zero_add, expect_xfer m c 5 (by decide)])) $$ [HcR0 HO HaR0]
  · isplitr; · iexact HIR0
    isplitl [HcR0]; · iexact HcR0
    isplitl [HO]; · iexact HO
    isplitr; · rw [MayWait_zero]; iempintro
    iexact HaR0
  iintro ⟨HO, HaR0, -, Hpay⟩
  ihave Hr0 := (Entails.of_eq (rest_recv m c 0)) $$ Hpay
  iapply (wp_load 𝒱₀ (c : Thread nD τ) none Set.univ (m := xM) (Finset.subset_univ _)) $$ Hx; iintro Hx
  iapply (wp_load_rband0 m c) $$ Hr0; iintro Hr0
  iapply (wp_load 𝒱₀ (c : Thread nD τ) none Set.univ (m := oM) (Finset.subset_univ _)) $$ Hout; iintro Hout
  iapply (wp_store 𝒱₀ (c : Thread nD τ) none Set.univ (m := oM) (r := R0) (Mk := Finset.univ) (Finset.subset_univ _)) $$ Hout; iintro Hout
  -- the wait on receive cell 1: its band of the landing buffer, holding the peer's chunk
  iapply (Rounds.wp_wait_rest_token 𝒱₀ ER (sched m) (c : Thread nD τ) none (κ := K (c, 6))
      (wpE_waitDma2_eq 𝒱₀ (c : Thread nD τ) none Set.univ) (Set.mem_univ _) () (O := 0) (W := _) (R := 0) (m := 0) (T := ∅)
      (by rw [Nat.zero_add, expect_xfer m c 6 (by decide)])) $$ [HcR1 HO HaR1]
  · isplitr; · iexact HIR1
    isplitl [HcR1]; · iexact HcR1
    isplitl [HO]; · iexact HO
    isplitr; · rw [MayWait_zero]; iempintro
    iexact HaR1
  iintro ⟨HO, HaR1, -, Hpay⟩
  ihave Hr1 := (Entails.of_eq (rest_recv m c 1)) $$ Hpay
  iapply (wp_load 𝒱₀ (c : Thread nD τ) none Set.univ (m := xM) (Finset.subset_univ _)) $$ Hx; iintro Hx
  iapply (wp_load_rband1 m c) $$ Hr1; iintro Hr1
  iapply (wp_load 𝒱₀ (c : Thread nD τ) none Set.univ (m := oM) (Finset.subset_univ _)) $$ Hout; iintro Hout
  iapply (wp_store 𝒱₀ (c : Thread nD τ) none Set.univ (m := oM) (r := R1) (Mk := Finset.univ) (Finset.subset_univ _)) $$ Hout; iintro Hout
  -- the wait on receive cell 2: its band of the landing buffer, holding the peer's chunk
  iapply (Rounds.wp_wait_rest_token 𝒱₀ ER (sched m) (c : Thread nD τ) none (κ := K (c, 7))
      (wpE_waitDma2_eq 𝒱₀ (c : Thread nD τ) none Set.univ) (Set.mem_univ _) () (O := 0) (W := _) (R := 0) (m := 0) (T := ∅)
      (by rw [Nat.zero_add, expect_xfer m c 7 (by decide)])) $$ [HcR2 HO HaR2]
  · isplitr; · iexact HIR2
    isplitl [HcR2]; · iexact HcR2
    isplitl [HO]; · iexact HO
    isplitr; · rw [MayWait_zero]; iempintro
    iexact HaR2
  iintro ⟨HO, HaR2, -, Hpay⟩
  ihave Hr2 := (Entails.of_eq (rest_recv m c 2)) $$ Hpay
  iapply (wp_load 𝒱₀ (c : Thread nD τ) none Set.univ (m := xM) (Finset.subset_univ _)) $$ Hx; iintro Hx
  iapply (wp_load_rband2 m c) $$ Hr2; iintro Hr2
  iapply (wp_load 𝒱₀ (c : Thread nD τ) none Set.univ (m := oM) (Finset.subset_univ _)) $$ Hout; iintro Hout
  iapply (wp_store 𝒱₀ (c : Thread nD τ) none Set.univ (m := oM) (r := R2) (Mk := Finset.univ) (Finset.subset_univ _)) $$ Hout; iintro Hout
  -- the wait on receive cell 3: its band of the landing buffer, holding the peer's chunk
  iapply (Rounds.wp_wait_rest_token 𝒱₀ ER (sched m) (c : Thread nD τ) none (κ := K (c, 8))
      (wpE_waitDma2_eq 𝒱₀ (c : Thread nD τ) none Set.univ) (Set.mem_univ _) () (O := 0) (W := _) (R := 0) (m := 0) (T := ∅)
      (by rw [Nat.zero_add, expect_xfer m c 8 (by decide)])) $$ [HcR3 HO HaR3]
  · isplitr; · iexact HIR3
    isplitl [HcR3]; · iexact HcR3
    isplitl [HO]; · iexact HO
    isplitr; · rw [MayWait_zero]; iempintro
    iexact HaR3
  iintro ⟨HO, HaR3, -, Hpay⟩
  ihave Hr3 := (Entails.of_eq (rest_recv m c 3)) $$ Hpay
  iapply (wp_load 𝒱₀ (c : Thread nD τ) none Set.univ (m := xM) (Finset.subset_univ _)) $$ Hx; iintro Hx
  iapply (wp_load_rband3 m c) $$ Hr3; iintro Hr3
  iapply (wp_load 𝒱₀ (c : Thread nD τ) none Set.univ (m := oM) (Finset.subset_univ _)) $$ Hout; iintro Hout
  iapply (wp_store 𝒱₀ (c : Thread nD τ) none Set.univ (m := oM) (r := R3) (Mk := Finset.univ) (Finset.subset_univ _)) $$ Hout; iintro Hout
  -- the wait on send cell 0: its band of the staging buffer back
  iapply (Rounds.wp_wait_rest_token 𝒱₀ ER (sched m) (c : Thread nD τ) none (κ := K (c, 1))
      (wpE_waitDma2_eq 𝒱₀ (c : Thread nD τ) none Set.univ) (Set.mem_univ _) () (O := 0) (W := _) (R := 0) (m := 0) (T := ∅)
      (by rw [Nat.zero_add, expect_xfer m c 1 (by decide)])) $$ [HcS0 HO HaS0]
  · isplitr; · iexact HIS0
    isplitl [HcS0]; · iexact HcS0
    isplitl [HO]; · iexact HO
    isplitr; · rw [MayWait_zero]; iempintro
    iexact HaS0
  iintro ⟨HO, HaS0, -, Hpay⟩
  ihave Hs0 := (Entails.of_eq (rest_send m c 0)) $$ Hpay
  -- the wait on send cell 1: its band of the staging buffer back
  iapply (Rounds.wp_wait_rest_token 𝒱₀ ER (sched m) (c : Thread nD τ) none (κ := K (c, 2))
      (wpE_waitDma2_eq 𝒱₀ (c : Thread nD τ) none Set.univ) (Set.mem_univ _) () (O := 0) (W := _) (R := 0) (m := 0) (T := ∅)
      (by rw [Nat.zero_add, expect_xfer m c 2 (by decide)])) $$ [HcS1 HO HaS1]
  · isplitr; · iexact HIS1
    isplitl [HcS1]; · iexact HcS1
    isplitl [HO]; · iexact HO
    isplitr; · rw [MayWait_zero]; iempintro
    iexact HaS1
  iintro ⟨HO, HaS1, -, Hpay⟩
  ihave Hs1 := (Entails.of_eq (rest_send m c 1)) $$ Hpay
  -- the wait on send cell 2: its band of the staging buffer back
  iapply (Rounds.wp_wait_rest_token 𝒱₀ ER (sched m) (c : Thread nD τ) none (κ := K (c, 3))
      (wpE_waitDma2_eq 𝒱₀ (c : Thread nD τ) none Set.univ) (Set.mem_univ _) () (O := 0) (W := _) (R := 0) (m := 0) (T := ∅)
      (by rw [Nat.zero_add, expect_xfer m c 3 (by decide)])) $$ [HcS2 HO HaS2]
  · isplitr; · iexact HIS2
    isplitl [HcS2]; · iexact HcS2
    isplitl [HO]; · iexact HO
    isplitr; · rw [MayWait_zero]; iempintro
    iexact HaS2
  iintro ⟨HO, HaS2, -, Hpay⟩
  ihave Hs2 := (Entails.of_eq (rest_send m c 2)) $$ Hpay
  -- the wait on send cell 3: its band of the staging buffer back
  iapply (Rounds.wp_wait_rest_token 𝒱₀ ER (sched m) (c : Thread nD τ) none (κ := K (c, 4))
      (wpE_waitDma2_eq 𝒱₀ (c : Thread nD τ) none Set.univ) (Set.mem_univ _) () (O := 0) (W := _) (R := 0) (m := 0) (T := ∅)
      (by rw [Nat.zero_add, expect_xfer m c 4 (by decide)])) $$ [HcS3 HO HaS3]
  · isplitr; · iexact HIS3
    isplitl [HcS3]; · iexact HcS3
    isplitl [HO]; · iexact HO
    isplitr; · rw [MayWait_zero]; iempintro
    iexact HaS3
  iintro ⟨HO, HaS3, -, Hpay⟩
  ihave Hs3 := (Entails.of_eq (rest_send m c 3)) $$ Hpay
  -- the eight own cells close: their counters at zero are the core's again
  imod (Rounds.cell_close ER (sched m) (Set.mem_univ (K (c, 1))) (fun h => h) (R := 0 + 1) (duties_later m (kcell (c, 1)))) $$ [HaS0] with HzS0
  · isplitr; · iexact HIS0
    iexact HaS0
  imod (Rounds.cell_close ER (sched m) (Set.mem_univ (K (c, 2))) (fun h => h) (R := 0 + 1) (duties_later m (kcell (c, 2)))) $$ [HaS1] with HzS1
  · isplitr; · iexact HIS1
    iexact HaS1
  imod (Rounds.cell_close ER (sched m) (Set.mem_univ (K (c, 3))) (fun h => h) (R := 0 + 1) (duties_later m (kcell (c, 3)))) $$ [HaS2] with HzS2
  · isplitr; · iexact HIS2
    iexact HaS2
  imod (Rounds.cell_close ER (sched m) (Set.mem_univ (K (c, 4))) (fun h => h) (R := 0 + 1) (duties_later m (kcell (c, 4)))) $$ [HaS3] with HzS3
  · isplitr; · iexact HIS3
    iexact HaS3
  imod (Rounds.cell_close ER (sched m) (Set.mem_univ (K (c, 5))) (fun h => h) (R := 0 + 1) (duties_later m (kcell (c, 5)))) $$ [HaR0] with HzR0
  · isplitr; · iexact HIR0
    iexact HaR0
  imod (Rounds.cell_close ER (sched m) (Set.mem_univ (K (c, 6))) (fun h => h) (R := 0 + 1) (duties_later m (kcell (c, 6)))) $$ [HaR1] with HzR1
  · isplitr; · iexact HIR1
    iexact HaR1
  imod (Rounds.cell_close ER (sched m) (Set.mem_univ (K (c, 7))) (fun h => h) (R := 0 + 1) (duties_later m (kcell (c, 7)))) $$ [HaR2] with HzR2
  · isplitr; · iexact HIR2
    iexact HaR2
  imod (Rounds.cell_close ER (sched m) (Set.mem_univ (K (c, 8))) (fun h => h) (R := 0 + 1) (duties_later m (kcell (c, 8)))) $$ [HaR3] with HzR3
  · isplitr; · iexact HIR3
    iexact HaR3
  rw [wp_ret]; imodintro
  unfold bodyPost Φ₁ scratch
  rw [bigSep_fin8]
  isplitl [Hs0 Hs1 Hs2 Hs3 Hr0 Hr1 Hr2 Hr3 HzS0 HzS1 HzS2 HzS3 HzR0 HzR1 HzR2 HzR3]
  · isplitl [Hs0 Hs1 Hs2 Hs3 Hr0 Hr1 Hr2 Hr3]
    · isplitl [Hs0 Hs1 Hs2 Hs3]
      · iapply (s_join c _ _ _ _)
        isplitl [Hs0]; · iexact Hs0
        isplitl [Hs1]; · iexact Hs1
        isplitl [Hs2]; · iexact Hs2
        iexact Hs3
      · iapply (r_join c _ _ _ _)
        isplitl [Hr0]; · iexact Hr0
        isplitl [Hr1]; · iexact Hr1
        isplitl [Hr2]; · iexact Hr2
        iexact Hr3
    · isplitl [HzS0]; · iexact HzS0
      isplitl [HzS1]; · iexact HzS1
      isplitl [HzS2]; · iexact HzS2
      isplitl [HzS3]; · iexact HzS3
      isplitl [HzR0]; · iexact HzR0
      isplitl [HzR1]; · iexact HzR1
      isplitl [HzR2]; · iexact HzR2
      iexact HzR3
  isplitl [HO]
  · iapply (owesAt_intro m c _)
    iexact HO
  isplitl [Hx]
  · iexists _; isplitr; · (ipureintro; rfl)
    iexact Hx
  iexists _; isplitr; · (ipureintro; exact out_final m c g1)
  iexact Hout

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  exact sound_body m c

/-- info: 'Cert.Kernel.RS.body_obligation' depends on axioms: [propext, Classical.choice, Quot.sound] -/
#guard_msgs in #print axioms body_obligation

end Cert.Kernel.RS

end
-- ==== Proof.KernelRS.Run.lean ====
/-
  The run of the idealized program's sixteen devices: the launch, from every device's body.
-/
import proofs.«901034_g7700000000001035_dist_rs_v7x_xyz2x2x4_x_m256_n256_bf16_1_alg».proof.Proof.KernelRS.Launch
import proofs.«901034_g7700000000001035_dist_rs_v7x_xyz2x2x4_x_m256_n256_bf16_1_alg».proof.Proof.KernelRS.Body

noncomputable section

namespace Cert.Kernel.RS

open Cert.Kernel Cert.Kernel.Gen
open Idealize.ShloMosaic Idealize.ShloMosaic.TcCoe Idealize.SL.Sem

variable {F : FTy → Type} [FloatOps F]

/-- From any memory with zero counters, every weakly fair execution of @main on the sixteen devices terminates, nothing
    faulting; every final state has each device's result array at `outAt` and its argument array unchanged. -/
theorem run_main (m : (ℓ : Loc nD τ sig) → Buf (Elt F) ℓ) (ρ : Dev nD → PrngReg) :
    θ_run (defs (F := F)) (onTc (τ := τ) (main (F := F))) ⟨m, fun _ => 0, ρ⟩
      (fun r => ∀ c : Dev nD, r.2.mem ((c : Thread nD τ).loc main_v1) = outAt m c
        ∧ r.2.mem ((c : Thread nD τ).loc main_arg0) = m ((c : Thread nD τ).loc main_arg0)) :=
  run_main_of m ρ (body_obligation m)

/-- info: 'Cert.Kernel.RS.run_main' depends on axioms: [propext, Classical.choice, Quot.sound] -/
#guard_msgs in #print axioms run_main

end Cert.Kernel.RS

end
-- ==== Proof.KernelIdealRS.Contents.lean ====
/-
  The contents every buffer of the exchange holds, as pure terms of the argument arrays, for any float instance.

  The sixteen devices pair up along the first mesh axis: device `c` and `peer c` differ in that coordinate only.
  Device `c` holds block `c / 8` of `x` (one slab `[1, 256, 512]`). It rounds the HALF of its slab that its peer
  will own (columns `256·(1 - c/8) …`) to the narrow format, four chunks of 64 rows, and sends chunk `k` into rows
  `64k …` of the peer's landing buffer; it adds what lands from the peer, chunk by chunk, to its own half (columns
  `256·(c/8) …`) and stores the rounded sums into rows `64k …` of its result block.
-/
import proofs.«901034_g7700000000001035_dist_rs_v7x_xyz2x2x4_x_m256_n256_bf16_1_alg».proof.Proof.Gen.KernelIdeal.Skeleton
import proofs.«901034_g7700000000001035_dist_rs_v7x_xyz2x2x4_x_m256_n256_bf16_1_alg».proof.Proof.Gen.KernelIdeal.Launch
import Idealize.ShloMosaic.Lib.Pipeline.FrameBody
import Idealize.ShloMosaic.Lib.Ring
import Idealize.ShloMosaic.Lib.Tactic

noncomputable section

namespace Cert.KernelIdeal.RS

open Cert.KernelIdeal Cert.KernelIdeal.Gen
open Idealize.ShloMosaic Idealize.ShloMosaic.TcCoe Idealize.ShloMosaic.Tactic Idealize.SL.Sem

variable {F : FTy → Type} [FloatOps F]
variable (m : (ℓ : Loc nD τ sig) → Buf (Elt F) ℓ)

/-! ## The pairing -/

/-- The device that differs from `c` in the first mesh coordinate only. -/
def peer (c : Dev nD) : Dev nD := ⟨(c.val + 8) % 16, Nat.mod_lt _ (by decide)⟩

theorem peer_peer (c : Dev nD) : peer (peer c) = c := by revert c; decide
theorem peer_ne (c : Dev nD) : peer c ≠ c := by revert c; decide

/-- Every `device_id` chain of the body names the peer. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))
theorem dev3_eq (c : Dev nD) : (⟨k0_dev3 c, k0_dev3_lt c⟩ : Dev nD) = peer c :=
  Fin.ext ((k0_dev3_eq c).trans (by revert c; decide))
theorem dev4_eq (c : Dev nD) : (⟨k0_dev4 c, k0_dev4_lt c⟩ : Dev nD) = peer c :=
  Fin.ext ((k0_dev4_eq c).trans (by revert c; decide))
theorem dev5_eq (c : Dev nD) : (⟨k0_dev5 c, k0_dev5_lt c⟩ : Dev nD) = peer c :=
  Fin.ext ((k0_dev5_eq c).trans (by revert c; decide))

def pairing : Dev nD ≃ Dev nD := ⟨peer, peer, peer_peer, peer_peer⟩

/-! ## The memrefs -/

abbrev xM : Memref sig .tc .vmem S1x256x512 .f32 := Memref.whole cc0_stg0_0
abbrev oM : Memref sig .tc .vmem S256x256 .bf16 := Memref.whole cc0_stg1_0
/-- The staging buffer of what is sent, and the landing buffer. -/
abbrev sM : Memref sig .tc .vmem S256x256 .bf16 := Memref.whole cc0_scratch0
abbrev rM : Memref sig .tc .vmem S256x256 .bf16 := Memref.whole cc0_scratch1

/-- Rows `64k … 64k + 63` of a `[256, 256]` buffer. -/
abbrev R0 : Rect S256x256 := Rect.unit (s := S256x256) ![0, 0] S64x256.size inb_S256x256_S64x256_0_0
abbrev R1 : Rect S256x256 := Rect.unit (s := S256x256) ![64, 0] S64x256.size inb_S256x256_S64x256_64_0
abbrev R2 : Rect S256x256 := Rect.unit (s := S256x256) ![128, 0] S64x256.size inb_S256x256_S64x256_128_0
abbrev R3 : Rect S256x256 := Rect.unit (s := S256x256) ![192, 0] S64x256.size inb_S256x256_S64x256_192_0

/-! ## The slab and what is read of it -/

/-- Device `c`'s slab of `x`, as its staging buffer holds it. -/
def xstg (c : Dev nD) : (cc0_stg0_0 : Ref sig .tc).ty.Contents (Elt F) :=
  (win0_0.blk (0 : Fin 1)).view.read (Elt F) (m ((c : Thread nD τ).loc main_arg0))

/-- Chunk `k` of the half the PEER will own (the body's loads at `k0_off1 … k0_off4`). -/
def xs0 (c : Dev nD) : Vec F S1x64x256 .f32 :=
  (xM : Memref sig .tc .vmem S1x256x512 .f32).view.readAt (Elt F) (Rect.unit (s := S1x256x512) (k0_off1 c) S1x64x256.size (k0_off1_inb c)).toLoadRect (xstg m c)
def xs1 (c : Dev nD) : Vec F S1x64x256 .f32 :=
  (xM : Memref sig .tc .vmem S1x256x512 .f32).view.readAt (Elt F) (Rect.unit (s := S1x256x512) (k0_off2 c) S1x64x256.size (k0_off2_inb c)).toLoadRect (xstg m c)
def xs2 (c : Dev nD) : Vec F S1x64x256 .f32 :=
  (xM : Memref sig .tc .vmem S1x256x512 .f32).view.readAt (Elt F) (Rect.unit (s := S1x256x512) (k0_off3 c) S1x64x256.size (k0_off3_inb c)).toLoadRect (xstg m c)
def xs3 (c : Dev nD) : Vec F S1x64x256 .f32 :=
  (xM : Memref sig .tc .vmem S1x256x512 .f32).view.readAt (Elt F) (Rect.unit (s := S1x256x512) (k0_off4 c) S1x64x256.size (k0_off4_inb c)).toLoadRect (xstg m c)

/-- Chunk `k` of the half device `c` itself owns (the loads at `k0_off5 … k0_off8`). -/
def xm0 (c : Dev nD) : Vec F S1x64x256 .f32 :=
  (xM : Memref sig .tc .vmem S1x256x512 .f32).view.readAt (Elt F) (Rect.unit (s := S1x256x512) (k0_off5 c) S1x64x256.size (k0_off5_inb c)).toLoadRect (xstg m c)
def xm1 (c : Dev nD) : Vec F S1x64x256 .f32 :=
  (xM : Memref sig .tc .vmem S1x256x512 .f32).view.readAt (Elt F) (Rect.unit (s := S1x256x512) (k0_off6 c) S1x64x256.size (k0_off6_inb c)).toLoadRect (xstg m c)
def xm2 (c : Dev nD) : Vec F S1x64x256 .f32 :=
  (xM : Memref sig .tc .vmem S1x256x512 .f32).view.readAt (Elt F) (Rect.unit (s := S1x256x512) (k0_off7 c) S1x64x256.size (k0_off7_inb c)).toLoadRect (xstg m c)
def xm3 (c : Dev nD) : Vec F S1x64x256 .f32 :=
  (xM : Memref sig .tc .vmem S1x256x512 .f32).view.readAt (Elt F) (Rect.unit (s := S1x256x512) (k0_off8 c) S1x64x256.size (k0_off8_inb c)).toLoadRect (xstg m c)

/-! ## What is sent, and what is stored -/

/-- Chunk `k` as device `c` sends it: its rows of the peer's half, rounded. -/
def snd0 (c : Dev nD) : FVec F S64x256 .bf16 := k0_pay1 (xs0 m c)
def snd1 (c : Dev nD) : FVec F S64x256 .bf16 := k0_pay2 (xs1 m c)
def snd2 (c : Dev nD) : FVec F S64x256 .bf16 := k0_pay4 (k0_pay3 (xs2 m c))
def snd3 (c : Dev nD) : FVec F S64x256 .bf16 := k0_pay5 (xs3 m c)

/-- Chunk `k` of device `c`'s result: its own half plus what its peer sent, rounded. -/
def out0 (c : Dev nD) : FVec F S64x256 .bf16 := k0_pay6 (xm0 m c) (snd0 m (peer c))
def out1 (c : Dev nD) : FVec F S64x256 .bf16 := k0_pay7 (xm1 m c) (snd1 m (peer c))
def out2 (c : Dev nD) : FVec F S64x256 .bf16 := k0_pay8 (xm2 m c) (snd2 m (peer c))
def out3 (c : Dev nD) : FVec F S64x256 .bf16 := k0_pay9 (xm3 m c) (snd3 m (peer c))

/-- The four stores of the result, last first, as pieces. -/
def outPieces (c : Dev nD) : List (View.Piece (Elt F) S256x256 .bf16) :=
  [⟨R3, out3 m c⟩, ⟨R2, out2 m c⟩, ⟨R1, out1 m c⟩, ⟨R0, out0 m c⟩]

/-- Device `c`'s result block: the four chunks, one under the other. -/
def outAt (c : Dev nD) : (cc0_stg1_0 : Ref sig .tc).ty.Contents (Elt F) := View.canon (outPieces m c)

/-- The four row bands cover the block. -/
theorem out_cover (c : Dev nD) : ∀ y : S256x256.Idx, ∃ p ∈ outPieces m c, y ∈ p.1.set :=
  View.cover_of_tiledL (outPieces m c) S64x256.size (by unfold outPieces; sl_kernel_rfl)

end Cert.KernelIdeal.RS

end
-- ==== Proof.KernelIdealRS.Proto.lean ====
/-
  The protocol of the pairwise exchange, as a schedule of rounds, for any float instance.

  Each device has nine semaphores in play. Its BARRIER semaphore is signalled once, by its peer, at the peer's entry:
  with that unit the peer hands over its landing buffer, cut into the four row bands. Transfer `k` (rows `64k …` of the staging buffer into
  rows `64k …` of the peer's landing buffer) credits the sender's SEND semaphore `k`, which returns the band of
  the staging buffer that was read, and the peer's RECEIVE semaphore `k`, which hands the peer its band of the
  landing buffer holding what was sent. A device waits for its barrier unit while it still owes the four transfers;
  every receive semaphore therefore ranks above every barrier semaphore, and nothing else is waited for while
  anything is owed.
-/
import proofs.«901034_g7700000000001035_dist_rs_v7x_xyz2x2x4_x_m256_n256_bf16_1_alg».proof.Proof.KernelIdealRS.Contents
import Idealize.ShloMosaic.Lib.Pipeline.Launch
import Idealize.ShloMosaic.Lib.Pipeline.Kit
import Idealize.ShloMosaic.Lib.Tactic

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's, side by side -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The semaphores, the cells, the bands -/

/-- The runtime's barrier semaphore of collective id 0 (not scoped to the launch). -/
abbrev barS : Sem sig := (SemArray.scalar (sig.barrier 0 rfl) : Sems sig S_).sem

/-- Send semaphore `k` and receive semaphore `k`, as the body slices them out of the two arrays. -/
abbrev sS0 : DmaSems sig S_ := (cc0_scratch2.slice (Rect.unit (s := S4) ![0] S1.size inb_S4_S1_0)).squeeze S_ squeezes_S1_S_
abbrev sS1 : DmaSems sig S_ := (cc0_scratch2.slice (Rect.unit (s := S4) ![1] S1.size inb_S4_S1_1)).squeeze S_ squeezes_S1_S_
abbrev sS2 : DmaSems sig S_ := (cc0_scratch2.slice (Rect.unit (s := S4) ![2] S1.size inb_S4_S1_2)).squeeze S_ squeezes_S1_S_
abbrev sS3 : DmaSems sig S_ := (cc0_scratch2.slice (Rect.unit (s := S4) ![3] S1.size inb_S4_S1_3)).squeeze S_ squeezes_S1_S_
abbrev rS0 : DmaSems sig S_ := (cc0_scratch3.slice (Rect.unit (s := S4) ![0] S1.size inb_S4_S1_0)).squeeze S_ squeezes_S1_S_
abbrev rS1 : DmaSems sig S_ := (cc0_scratch3.slice (Rect.unit (s := S4) ![1] S1.size inb_S4_S1_1)).squeeze S_ squeezes_S1_S_
abbrev rS2 : DmaSems sig S_ := (cc0_scratch3.slice (Rect.unit (s := S4) ![2] S1.size inb_S4_S1_2)).squeeze S_ squeezes_S1_S_
abbrev rS3 : DmaSems sig S_ := (cc0_scratch3.slice (Rect.unit (s := S4) ![3] S1.size inb_S4_S1_3)).squeeze S_ squeezes_S1_S_

/-- The nine semaphores of the exchange: the barrier, the four send, the four receive. -/
abbrev csem : Fin 9 → SemLoc sig := fun
  | 0 => .reg barS
  | 1 => .dma sS0.sem | 2 => .dma sS1.sem | 3 => .dma sS2.sem | 4 => .dma sS3.sem
  | 5 => .dma rS0.sem | 6 => .dma rS1.sem | 7 => .dma rS2.sem | 8 => .dma rS3.sem
/-- The eight scoped ones, as the launch indexes a kernel's own semaphores. -/
abbrev osem : Fin 8 → SemLoc sig := fun
  | 0 => .dma sS0.sem | 1 => .dma sS1.sem | 2 => .dma sS2.sem | 3 => .dma sS3.sem
  | 4 => .dma rS0.sem | 5 => .dma rS1.sem | 6 => .dma rS2.sem | 7 => .dma rS3.sem

abbrev kcell (ck : Dev nD × Fin 9) : GSem nD τ sig := ((ck.1 : Thread nD τ), csem ck.2)
abbrev barCell (c : Dev nD) : GSem nD τ sig := kcell (c, 0)
/-- Send cell `k` of device `c` is `kcell (c, sIx k)`, receive cell `k` is `kcell (c, rIx k)`. -/
abbrev sIx (k : Fin 4) : Fin 9 := ⟨k.val + 1, by omega⟩
abbrev rIx (k : Fin 4) : Fin 9 := ⟨k.val + 5, by omega⟩
abbrev sendCell (c : Dev nD) (k : Fin 4) : GSem nD τ sig := kcell (c, sIx k)
abbrev recvCell (c : Dev nD) (k : Fin 4) : GSem nD τ sig := kcell (c, rIx k)

/-- Band `k` of the staging buffer and of the landing buffer, as the body slices them. -/
abbrev sB0 : Memref sig .tc .vmem S64x256 .bf16 := sM.slice R0 (fun _ => rfl)
abbrev sB1 : Memref sig .tc .vmem S64x256 .bf16 := sM.slice R1 (fun _ => rfl)
abbrev sB2 : Memref sig .tc .vmem S64x256 .bf16 := sM.slice R2 (fun _ => rfl)
abbrev sB3 : Memref sig .tc .vmem S64x256 .bf16 := sM.slice R3 (fun _ => rfl)
abbrev rB0 : Memref sig .tc .vmem S64x256 .bf16 := rM.slice R0 (fun _ => rfl)
abbrev rB1 : Memref sig .tc .vmem S64x256 .bf16 := rM.slice R1 (fun _ => rfl)
abbrev rB2 : Memref sig .tc .vmem S64x256 .bf16 := rM.slice R2 (fun _ => rfl)
abbrev rB3 : Memref sig .tc .vmem S64x256 .bf16 := rM.slice R3 (fun _ => rfl)

abbrev sB : Fin 4 → Memref sig .tc .vmem S64x256 .bf16 := fun | 0 => sB0 | 1 => sB1 | 2 => sB2 | 3 => sB3
abbrev rB : Fin 4 → Memref sig .tc .vmem S64x256 .bf16 := fun | 0 => rB0 | 1 => rB1 | 2 => rB2 | 3 => rB3

/-- A band's transfer credit. -/
abbrev N : ℕ := (rB0 : Memref sig .tc .vmem S64x256 .bf16).view.dmaCredit
theorem N_pos : 0 < N := View.dmaCredit_pos _ (by decide)
theorem N_r (k : Fin 4) : (rB k).view.dmaCredit = N := by fin_cases k <;> rfl

/-! ## Contents of the bands -/

/-- What device `c` sends as chunk `k`. -/
def snd (c : Dev nD) : Fin 4 → FVec F S64x256 .bf16 := fun | 0 => snd0 m c | 1 => snd1 m c | 2 => snd2 m c | 3 => snd3 m c

/-- Band `k` of the staging buffer once chunk `k` is stored: the chunk over nothing in particular. -/
def sent (c : Dev nD) (k : Fin 4) : Buf (Elt F) ((sB k).view.loc (c : Thread nD τ)) :=
  (sB k).view.write (Elt F) (sB k).view.junk (snd m c k) Finset.univ
/-- Band `k` of the landing buffer once the peer's chunk `k` has landed. -/
def land (c : Dev nD) (k : Fin 4) : Buf (Elt F) ((rB k).view.loc (c : Thread nD τ)) :=
  (rB k).view.write (Elt F) (rB k).view.junk (snd m (peer c) k) Finset.univ

/-- Band `k` of device `d`'s staging buffer at contents `f`; of its landing buffer. -/
abbrev sPt (d : Dev nD) (k : Fin 4) (f : Buf (Elt F) ((sB k).view.loc (d : Thread nD τ))) : sProp 𝕄 :=
  (sB k).view.loc (d : Thread nD τ) ↦[(sB k).view.set]{fullShare} f
abbrev rPt (d : Dev nD) (k : Fin 4) (f : Buf (Elt F) ((rB k).view.loc (d : Thread nD τ))) : sProp 𝕄 :=
  (rB k).view.loc (d : Thread nD τ) ↦[(rB k).view.set]{fullShare} f

/-! ## The schedule -/

/-- What the peer's entry signal hands device `c`: the peer's landing buffer, band by band. -/
def barPay (c : Dev nD) : sProp 𝕄 :=
  iprop((∃ f, rPt (peer c) 0 f) ∗ (∃ f, rPt (peer c) 1 f) ∗ (∃ f, rPt (peer c) 2 f) ∗ (∃ f, rPt (peer c) 3 f))

abbrev IsBar (g : GSem nD τ sig) : Prop := g.1.2 = .tc ∧ g.2 = .reg barS
abbrev IsSend (g : GSem nD τ sig) (k : Fin 4) : Prop := g.1.2 = .tc ∧ g.2 = csem (sIx k)
abbrev IsRecv (g : GSem nD τ sig) (k : Fin 4) : Prop := g.1.2 = .tc ∧ g.2 = csem (rIx k)
abbrev IsCell (g : GSem nD τ sig) : Prop := g.1.2 = .tc ∧ ∃ j : Fin 9, g.2 = csem j

/-- One round, round 0, one duty a cell: a barrier cell one unit (from the peer), a send or a receive cell one band's
    credit. -/
def sched : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay g.1.1
    else if g.2 = csem 1 then sPt g.1.1 0 (sent m g.1.1 0)
    else if g.2 = csem 2 then sPt g.1.1 1 (sent m g.1.1 1)
    else if g.2 = csem 3 then sPt g.1.1 2 (sent m g.1.1 2)
    else if g.2 = csem 4 then sPt g.1.1 3 (sent m g.1.1 3)
    else if g.2 = csem 5 then rPt g.1.1 0 (land m g.1.1 0)
    else if g.2 = csem 6 then rPt g.1.1 1 (land m g.1.1 1)
    else if g.2 = csem 7 then rPt g.1.1 2 (land m g.1.1 2)
    else if g.2 = csem 8 then rPt g.1.1 3 (land m g.1.1 3)
    else iprop(emp)
  amount_pos g _ _ _ := by
    by_cases h : g.2 = .reg barS
    · rw [if_pos h]; exact Nat.one_pos
    · rw [if_neg h]; exact N_pos

set_option synthInstance.maxHeartbeats 400000 in
set_option maxHeartbeats 800000 in
instance sched_payload_storable (g : GSem nD τ sig) (r : ℕ) (d : Unit) :
    BI.Storable (upEmb : UEmb _ 𝕄) ((sched (F := F) m).payload g r d) := by
  show BI.Storable upEmb (if g.2 = .reg barS then barPay g.1.1
    else if g.2 = csem 1 then sPt g.1.1 0 (sent m g.1.1 0)
    else if g.2 = csem 2 then sPt g.1.1 1 (sent m g.1.1 1)
    else if g.2 = csem 3 then sPt g.1.1 2 (sent m g.1.1 2)
    else if g.2 = csem 4 then sPt g.1.1 3 (sent m g.1.1 3)
    else if g.2 = csem 5 then rPt g.1.1 0 (land m g.1.1 0)
    else if g.2 = csem 6 then rPt g.1.1 1 (land m g.1.1 1)
    else if g.2 = csem 7 then rPt g.1.1 2 (land m g.1.1 2)
    else if g.2 = csem 8 then rPt g.1.1 3 (land m g.1.1 3)
    else iprop(emp))
  unfold barPay
  (repeat' split) <;> infer_instance

/-- The nine semaphores are pairwise distinct. -/
theorem csem_injective : Function.Injective (csem : Fin 9 → SemLoc sig) := by decide

section Sched
variable (c : Dev nD)

theorem duties_cell (j : Fin 9) : (sched (F := F) m).duties (kcell (c, j)) 0 = {()} := by
  dsimp only [sched]; exact if_pos ⟨rfl, rfl, j, rfl⟩
theorem duties_later (g : GSem nD τ sig) : ∀ r, 1 ≤ r → (sched (F := F) m).duties g r = ∅ :=
  fun r hr => by dsimp only [sched]; rw [if_neg fun h => by omega]

theorem amount_bar (u : Unit) : (sched (F := F) m).amount (barCell c) 0 u = 1 := by dsimp only [sched]; exact if_pos rfl
theorem amount_xfer (j : Fin 9) (hj : j ≠ 0) (u : Unit) : (sched (F := F) m).amount (kcell (c, j)) 0 u = N := by
  dsimp only [sched]; exact if_neg fun h => hj (csem_injective h)

theorem expect_bar : (sched (F := F) m).expect (barCell c) 0 = 1 := by
  unfold Schedule.expect Schedule.amountOf; rw [duties_cell, Finset.sum_singleton, amount_bar]
theorem expect_xfer (j : Fin 9) (hj : j ≠ 0) : (sched (F := F) m).expect (kcell (c, j)) 0 = N := by
  unfold Schedule.expect Schedule.amountOf; rw [duties_cell, Finset.sum_singleton, amount_xfer m c j hj]

theorem payload_bar (u : Unit) : (sched (F := F) m).payload (barCell c) 0 u = barPay c := by dsimp only [sched]; exact if_pos rfl
theorem payload_send (k : Fin 4) (u : Unit) : (sched (F := F) m).payload (sendCell c k) 0 u = sPt c k (sent m c k) := by
  fin_cases k <;> (dsimp only [sched]; simp only [csem_injective.eq_iff, ↓reduceIte]; rfl)
theorem payload_recv (k : Fin 4) (u : Unit) : (sched (F := F) m).payload (recvCell c k) 0 u = rPt c k (land m c k) := by
  fin_cases k <;> (dsimp only [sched]; simp only [csem_injective.eq_iff, ↓reduceIte]; rfl)

end Sched

/-! ## What each device owes at launch; the levels -/

/-- Device `c` owes its peer's four receive cells a band's credit each and its peer's barrier cell one unit — summed
    so that the entry signal peels the last summand and transfer `k` then the last that is left. -/
def O₁ (c : Dev nD) : CellTallies nD τ sig Unit :=
  tallyAt (recvCell (peer c) 3) () N + tallyAt (recvCell (peer c) 2) () N + tallyAt (recvCell (peer c) 1) () N + tallyAt (recvCell (peer c) 0) () N
def O₀ (c : Dev nD) : CellTallies nD τ sig Unit := O₁ c + tallyAt (barCell (peer c)) () 1

def L (g : GSem nD τ sig) : Finset Unit := if g.1.2 = .tc then {()} else ∅
/-- Barrier cells at 1, receive cells at 2, everything else (the pipeline's staging cells, the send cells) at 0. -/
def lv (g : GSem nD τ sig) (_ : Unit) : ℕ :=
  if g.2 = .reg barS then 1 else if g.2 = csem 5 ∨ g.2 = csem 6 ∨ g.2 = csem 7 ∨ g.2 = csem 8 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_recv (c : Dev nD) (k : Fin 4) (u : Unit) : lv (recvCell c k) u = 2 := by
  fin_cases k <;> (dsimp only [lv]; rw [if_neg (fun h => by cases h)]; simp)

theorem O₁_pos {c : Dev nD} {g : GSem nD τ sig} {u : Unit} (h : 0 < O₁ c g u) : ∃ k, g = recvCell (peer c) k := by
  unfold O₁ at h
  simp only [Pi.add_apply, Finsupp.add_apply, tallyAt_apply] at h
  by_contra hn
  rw [not_exists] at hn
  rw [if_neg (fun h' => hn 3 h'.1), if_neg (fun h' => hn 2 h'.1), if_neg (fun h' => hn 1 h'.1), if_neg (fun h' => hn 0 h'.1)] at h
  exact Nat.lt_irrefl 0 h

theorem O₀_pos {c : Dev nD} {g : GSem nD τ sig} {u : Unit} (h : 0 < O₀ c g u) : (∃ k, g = recvCell (peer c) k) ∨ g = barCell (peer c) := by
  unfold O₀ at h
  rw [Pi.add_apply, Finsupp.add_apply, tallyAt_apply] at h
  by_cases hb : g = barCell (peer c)
  · exact .inr hb
  · rw [if_neg (fun h' => hb h'.1), Nat.add_zero] at h
    exact .inl (O₁_pos h)

/-- A wait on a semaphore that is neither a barrier nor a receive semaphore, whatever of its launch debt the device
    still owes. -/
theorem mayWait_low (c : Dev nD) (sm : SemLoc sig) (hq : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl <;> exact Finset.mem_singleton_self _)
      (fun p hp => by rw [Finset.mem_singleton.mp hp]; exact le_of_eq hq)
      (fun g u hg => by
        rcases O₀_pos hg with ⟨k, rfl⟩ | rfl
        · rw [lv_recv]; decide
        · rw [lv_bar]; decide)
  · rw [MayWait_zero]; iintro -; iempintro

/-- At its barrier wait a device owes the four transfers only: receive cells, above its barrier cell. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨k, rfl⟩ := O₁_pos hg; exact Finset.mem_singleton_self _)
    (fun p hp => by rw [Finset.mem_singleton.mp hp]; exact le_of_eq (lv_bar c ()))
    (fun g u hg => by obtain ⟨k, rfl⟩ := O₁_pos hg; rw [lv_recv]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Every cell's invariant, at the names the launch allocated them, and every cell's first round reached: what all
    devices know alike. -/
def records (K : Dev nD × Fin 9 → ℕ) : sProp 𝕄 :=
  iprop((bigSep Finset.univ fun ck : Dev nD × Fin 9 => cellInv ER (sched m) (K ck) (kcell ck))
    ∗ bigSep Finset.univ fun ck : Dev nD × Fin 9 => reached ER (kcell ck) 0)

instance records_persistent (K : Dev nD × Fin 9 → ℕ) : BI.Persistent (records m K) := by unfold records; infer_instance

theorem inv_at (K : Dev nD × Fin 9 → ℕ) (ck : Dev nD × Fin 9) :
    (bigSep Finset.univ fun ck : Dev nD × Fin 9 => (cellInv ER (sched m) (K ck) (kcell ck) : sProp 𝕄)) ⊢ cellInv ER (sched m) (K ck) (kcell ck) :=
  bigSep_elim (Finset.mem_univ ck)
theorem reached_at (ck : Dev nD × Fin 9) :
    (bigSep Finset.univ fun ck : Dev nD × Fin 9 => (reached ER (kcell ck) 0 : sProp 𝕄)) ⊢ reached ER (kcell ck) 0 :=
  bigSep_elim (Finset.mem_univ ck)

/-- The tokens of the duties device `c` pays: its peer's barrier unit, its peer's four landings, its own four
    departures. -/
def payToks (c : Dev nD) : sProp 𝕄 :=
  iprop(dutyTok ER (barCell (peer c)) 0 ()
    ∗ dutyTok ER (recvCell (peer c) 0) 0 () ∗ dutyTok ER (recvCell (peer c) 1) 0 () ∗ dutyTok ER (recvCell (peer c) 2) 0 () ∗ dutyTok ER (recvCell (peer c) 3) 0 ()
    ∗ dutyTok ER (sendCell c 0) 0 () ∗ dutyTok ER (sendCell c 1) 0 () ∗ dutyTok ER (sendCell c 2) 0 () ∗ dutyTok ER (sendCell c 3) 0 ())
/-- Its positions: at round 0 of each of its nine cells. -/
def positions (c : Dev nD) : sProp 𝕄 := bigSep Finset.univ fun j : Fin 9 => atPos ER (kcell (c, j)) 0 ∅ 0

/-- The exchange's ghost state device `c` starts from. -/
def ghost (K : Dev nD × Fin 9 → ℕ) (c : Dev nD) : sProp 𝕄 := iprop(records m K ∗ positions c ∗ payToks c)

/-- The credit dealt at launch: its barrier unit and its four landings. -/
def creds (c : Dev nD) : sProp 𝕄 :=
  iprop(cred (tallyAt (barCell c) () 1)
    ∗ cred (tallyAt (recvCell c 0) () N) ∗ cred (tallyAt (recvCell c 1) () N) ∗ cred (tallyAt (recvCell c 2) () N) ∗ cred (tallyAt (recvCell c 3) () N))

/-- What device `c`'s body starts from, besides its buffers. -/
def start (c : Dev nD) : sProp 𝕄 := iprop((∃ K, ghost m K c) ∗ creds c ∗ levAts L lv)

/-- The staging buffer of what is sent and the landing buffer, each whole, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratch c)
/-- After the point: the two buffers back whole, the eight own cells closed at zero. -/
def Φ₁ (c : Dev nD) : sProp 𝕄 := iprop(scratch c ∗ bigSep Finset.univ fun j : Fin 8 => semVal ((c : Thread nD τ), osem j) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at stated contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body of device `c` is run from, and to. -/
def bodyPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outAt m c))

/-- The body as the pipeline calls it at its one point. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) (Memref.whole cc0_scratch1) (Memref.isWhole_whole _) cc0_scratch2 cc0_scratch3

end Cert.KernelIdeal.RS

end
-- ==== Proof.KernelIdealRS.Launch.lean ====
/-
  The launch of the pairwise exchange, for any float instance.

  From any memory whose semaphore counters are zero, the sixteen devices' bodies — each proved from its own
  start (the cells' invariants, its positions, the tokens of the nine duties it pays, its launch credit, the levels)
  — compose into a run of @main: every weakly fair execution terminates, nothing faults, each device's result array
  ends as its result block and its argument array as it was.

  The ghost state of the exchange is funded for all devices at once: every device's nine cells (its barrier cell, on
  the runtime's unscoped semaphore, and its eight scoped transfer cells) are allocated under one update, and the
  duty tokens minted per own cell are dealt to the devices that pay them — the barrier's and the four receive cells'
  to the peer, the four send cells' to the device itself. The launch credit of a barrier cell is the one unit its
  peer owes it, of a receive cell the band's credit its peer owes it.
-/
import proofs.«901034_g7700000000001035_dist_rs_v7x_xyz2x2x4_x_m256_n256_bf16_1_alg».proof.Proof.KernelIdealRS.Proto
import proofs.«901034_g7700000000001035_dist_rs_v7x_xyz2x2x4_x_m256_n256_bf16_1_alg».proof.Proof.Gen.KernelIdeal.Launch
import proofs.«901034_g7700000000001035_dist_rs_v7x_xyz2x2x4_x_m256_n256_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and tokens the launch funds -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 9 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl

/-- Every device's nine cells. -/
def exCells : Finset (GSem nD τ sig) := Finset.univ.map ⟨kcell, kcell_injective⟩

/-- The one duty of round 0 of a cell, as minted. -/
abbrev tokOf (cj : Dev nD × Fin 9) : GSem nD τ sig × ℕ × Unit := (kcell cj, 0, ())
theorem tokOf_injective : Function.Injective (tokOf : Dev nD × Fin 9 → GSem nD τ sig × ℕ × Unit) :=
  fun a b h => kcell_injective (congrArg Prod.fst h)
def exToks : Finset (GSem nD τ sig × ℕ × Unit) := Finset.univ.map ⟨tokOf, tokOf_injective⟩

/-- The launch element: the pipeline library's and the exchange's. -/
def u₀ : UU :=
  (initOf (Pipeline.cells cfgs cellOf_inj) (Pipeline.launchToks cfgs cellOf_inj), initOf exCells exToks)

/-- The duty tokens of device `c`'s own cells. -/
def toks (c : Dev nD) : sProp 𝕄 :=
  iprop(dutyTok ER (barCell c) 0 ()
    ∗ dutyTok ER (sendCell c 0) 0 () ∗ dutyTok ER (sendCell c 1) 0 () ∗ dutyTok ER (sendCell c 2) 0 () ∗ dutyTok ER (sendCell c 3) 0 ()
    ∗ dutyTok ER (recvCell c 0) 0 () ∗ dutyTok ER (recvCell c 1) 0 () ∗ dutyTok ER (recvCell c 2) 0 () ∗ dutyTok ER (recvCell c 3) 0 ())

/-- What the launch element deals device `c`. -/
def G (c : Dev nD) : sProp 𝕄 :=
  iprop((bigSep Finset.univ fun k : Fin 9 => roundState ER (sched m) (kcell (c, k)) 0)
    ∗ (bigSep Finset.univ fun k : Fin 9 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 9 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_fin9]; rfl
  iintro HX
  imod (Rounds.fund ER (sched m) exCells exToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  unfold Pipeline.ownSems0
  rw [bigSep_fin8, unscopedSems0_eq, bigSep_fin9]
  iintro ⟨⟨H1, H2, H3, H4, H5, H6, H7, H8⟩, HB⟩
  isplitl [HB]; · iexact HB
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 9 => iprop(∃ κ : ℕ, cellInv ER (sched m) κ (kcell (c, k))))
          ∗ (bigSep Finset.univ fun k : Fin 9 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 9 => semVal (kcell (c, k)) 0) ∗ bigSep Finset.univ fun k : Fin 9 => roundState ER (sched m) (kcell (c, k)) 0)
      ⊢ (|={Set.univ}=> bigSep Finset.univ fun k : Fin 9 => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The global step: the cells allocated, the tokens dealt to their payers -/

/-- What stays with device `c`: its positions and the tokens of the duties it pays. -/
def linear (c : Dev nD) : sProp 𝕄 := iprop(positions c ∗ payToks c)

theorem ghost_intro (K : Dev nD × Fin 9 → ℕ) (c : Dev nD) : iprop(records m K ∗ linear c) ⊢ G' m c := by
  unfold linear G' ghost
  iintro ⟨HR, HP, HT⟩
  iexists K
  isplitl [HR]; · iexact HR
  isplitl [HP]; · iexact HP
  iexact HT

/-- The tokens dealt across the pairing: a device's barrier token and its four receive tokens go to its peer, its four
    send tokens stay. -/
theorem toks_around : (bigSep Finset.univ fun c : Dev nD => (toks c : sProp 𝕄)) ⊢ bigSep Finset.univ fun c : Dev nD => payToks c := by
  unfold toks payToks
  simp only [bigSep_sep']
  rw [bigSep_univ_equiv pairing (fun c : Dev nD => (dutyTok ER (barCell c) 0 () : sProp 𝕄)),
    bigSep_univ_equiv pairing (fun c : Dev nD => (dutyTok ER (recvCell c 0) 0 () : sProp 𝕄)),
    bigSep_univ_equiv pairing (fun c : Dev nD => (dutyTok ER (recvCell c 1) 0 () : sProp 𝕄)),
    bigSep_univ_equiv pairing (fun c : Dev nD => (dutyTok ER (recvCell c 2) 0 () : sProp 𝕄)),
    bigSep_univ_equiv pairing (fun c : Dev nD => (dutyTok ER (recvCell c 3) 0 () : sProp 𝕄))]
  iintro ⟨HB, S0, S1, S2, S3, R0, R1, R2, R3⟩
  isplitl [HB]; · iexact HB
  isplitl [R0]; · iexact R0
  isplitl [R1]; · iexact R1
  isplitl [R2]; · iexact R2
  isplitl [R3]; · iexact R3
  isplitl [S0]; · iexact S0
  isplitl [S1]; · iexact S1
  isplitl [S2]; · iexact S2
  iexact S3

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 9 => iprop(∃ κ : ℕ, cellInv ER (sched m) κ (kcell (c, k))))
          ∗ (bigSep Finset.univ fun k : Fin 9 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 9 => iprop(∃ κ : ℕ, cellInv ER (sched m) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 9 => (atPos ER (kcell (c, k)) 0 ∅ 0 : sProp 𝕄)) payToks).symm).trans
      (bigSep_mono fun c _ => show _ ⊢ linear c from Entails.of_eq (by unfold linear positions; rfl)))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What the devices owe cell `j` of their peers comes back to each device as the credit of its own cell `j`. -/
theorem cred_at (j : Fin 9) (n : ℕ) (c : Dev nD) :
    (Pipeline.launchCred (fun d : Dev nD => (tallyAt (kcell (peer d, j)) () n : CellTallies nD τ sig Unit)) c : sProp 𝕄)
      ⊢ cred (tallyAt (kcell (c, j)) () n) :=
  Pipeline.launchCred_tallyAt (csem j) peer peer peer_peer peer_peer () n c

theorem creds_intro (c : Dev nD) : (Pipeline.launchCred O₀ c : sProp 𝕄) ⊢ creds c := by
  have h0 : (Pipeline.launchCred O₀ c : sProp 𝕄)
      ⊢ iprop(Pipeline.launchCred O₁ c ∗ Pipeline.launchCred (fun d : Dev nD => (tallyAt (barCell (peer d)) () 1 : CellTallies nD τ sig Unit)) c) :=
    Entails.of_eq (Pipeline.launchCred_add O₁ (fun d : Dev nD => tallyAt (barCell (peer d)) () 1) c)
  have h1 : (Pipeline.launchCred O₁ c : sProp 𝕄)
      ⊢ iprop(Pipeline.launchCred (fun d : Dev nD => (tallyAt (recvCell (peer d) 3) () N + tallyAt (recvCell (peer d) 2) () N + tallyAt (recvCell (peer d) 1) () N : CellTallies nD τ sig Unit)) c
          ∗ Pipeline.launchCred (fun d : Dev nD => (tallyAt (recvCell (peer d) 0) () N : CellTallies nD τ sig Unit)) c) :=
    Entails.of_eq (Pipeline.launchCred_add _ (fun d : Dev nD => tallyAt (recvCell (peer d) 0) () N) c)
  have h2 : (Pipeline.launchCred (fun d : Dev nD => (tallyAt (recvCell (peer d) 3) () N + tallyAt (recvCell (peer d) 2) () N + tallyAt (recvCell (peer d) 1) () N : CellTallies nD τ sig Unit)) c : sProp 𝕄)
      ⊢ iprop(Pipeline.launchCred (fun d : Dev nD => (tallyAt (recvCell (peer d) 3) () N + tallyAt (recvCell (peer d) 2) () N : CellTallies nD τ sig Unit)) c
          ∗ Pipeline.launchCred (fun d : Dev nD => (tallyAt (recvCell (peer d) 1) () N : CellTallies nD τ sig Unit)) c) :=
    Entails.of_eq (Pipeline.launchCred_add _ (fun d : Dev nD => tallyAt (recvCell (peer d) 1) () N) c)
  have h3 : (Pipeline.launchCred (fun d : Dev nD => (tallyAt (recvCell (peer d) 3) () N + tallyAt (recvCell (peer d) 2) () N : CellTallies nD τ sig Unit)) c : sProp 𝕄)
      ⊢ iprop(Pipeline.launchCred (fun d : Dev nD => (tallyAt (recvCell (peer d) 3) () N : CellTallies nD τ sig Unit)) c
          ∗ Pipeline.launchCred (fun d : Dev nD => (tallyAt (recvCell (peer d) 2) () N : CellTallies nD τ sig Unit)) c) :=
    Entails.of_eq (Pipeline.launchCred_add _ (fun d : Dev nD => tallyAt (recvCell (peer d) 2) () N) c)
  unfold creds
  iintro H
  ihave H := h0 $$ H
  icases H with ⟨H, HB⟩
  ihave H := h1 $$ H
  icases H with ⟨H, H0⟩
  ihave H := h2 $$ H
  icases H with ⟨H, H1⟩
  ihave H := h3 $$ H
  icases H with ⟨H3, H2⟩
  isplitl [HB]; · iapply (cred_at (F := F) 0 1 c); iexact HB
  isplitl [H0]; · iapply (cred_at (F := F) (rIx 0) N c); iexact H0
  isplitl [H1]; · iapply (cred_at (F := F) (rIx 1) N c); iexact H1
  isplitl [H2]; · iapply (cred_at (F := F) (rIx 2) N c); iexact H2
  iapply (cred_at (F := F) (rIx 3) N c); iexact H3

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq]
  unfold Φ₁ scratch Pipeline.ownSems0
  iintro ⟨Hr, Hz⟩
  isplitr; · iempintro
  isplitl [Hz]; · iexact Hz
  iexact Hr

/-- The pipeline's staging cells sit at level 0. -/
theorem lv_stage (c : Dev nD) (w : Fin cfg0.W) (s : Fin (cfg0.win w).nbuf) :
    lv ((c : Thread nD τ), .dma ((cfg0.win w).sem s)) () = 0 := by
  have h1 : (SemLoc.dma ((cfg0.win w).sem s) : SemLoc sig) ≠ .reg barS := fun h => by cases h
  have h2 : ¬ ((SemLoc.dma ((cfg0.win w).sem s) : SemLoc sig) = csem 5 ∨ (SemLoc.dma ((cfg0.win w).sem s) : SemLoc sig) = csem 6
      ∨ (SemLoc.dma ((cfg0.win w).sem s) : SemLoc sig) = csem 7 ∨ (SemLoc.dma ((cfg0.win w).sem s) : SemLoc sig) = csem 8) := by
    fin_cases w <;> fin_cases s <;> decide
  dsimp only [lv]; rw [if_neg h1, if_neg h2]

theorem waits (c : Dev nD) : (levAts L lv : sProp 𝕄) ⊢ Pipeline.cellsWaits cfgs (dats m) () 0 c :=
  Pipeline.cellsWaits_intro cfgs (dats m) () 0 c fun w s t =>
    mayWait_low c _ (lv_stage c w s) _ (by
      rcases t with ⟨_ | _, ht⟩
      · exact Or.inl rfl
      · exact Or.inr rfl)

/-! ## The final arrays -/

/-- The argument array is never written back. -/
theorem final_x (c : Dev nD) : (dats (F := F) m 0 c).arrAt (0 : Fin 2) cfg0.N = m ((c : Thread nD τ).loc main_arg0) :=
  (dats (F := F) m 0 c).arrAt_in (0 : Fin 2) rfl _

/-- The result array after its one write-back holds what the body left in the result's staging buffer. -/
theorem final_out (c : Dev nD) : (dats (F := F) m 0 c).arrAt (1 : Fin 2) cfg0.N = outAt m c := by
  have ho : ((cfg0.win (1 : Fin 2)).blk t₀).view.read (Elt F) ((dats (F := F) m 0 c).arrAt (1 : Fin 2) cfg0.N)
      = (dats (F := F) m 0 c).flushed (1 : Fin 2) t₀ := by
    rw [show cfg0.N = (t₀ : Fin cfg0.N).val + 1 from rfl, (dats (F := F) m 0 c).arrAt_succ (1 : Fin 2) t₀, flush0_1 t₀, if_pos rfl]
    exact View.read_write_univ _ _
  have hz : (fun a => (win0_1.index t₀) a * main_v1.ty.shape.size a) = fun _ => 0 := funext fun a => by fin_cases a <;> decide
  have hr := fun f => Memref.read_access_unit_zero (Elt F) main_v1 hz (fun a => by fin_cases a <;> decide) f
  rw [hr] at ho
  rw [ho]
  rfl

/-! ## The run -/

set_option maxRecDepth 8000 in
/-- At the compiled mesh of sixteen devices, for any float values, from any memory with zero counters, given each
    device's body from its start: every weakly fair execution of @main terminates, nothing faulting, and every final
    state has each device's result array at its result block and its argument array as launched. -/
theorem run_main_of (m : (ℓ : Loc nD τ sig) → Buf (Elt F) ℓ) (ρ : Dev nD → PrngReg)
    (hbody : ∀ c, BodyObligation (dats (F := F) m 0 c) (defs₀ (F := F)) 𝒱₀ () Set.univ) :
    θ_run (defs (F := F)) (onTc (τ := τ) (main (F := F))) ⟨m, fun _ => 0, ρ⟩
      (fun r => ∀ c : Dev nD, r.2.mem ((c : Thread nD τ).loc main_v1) = outAt m c
        ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c => ⟨((h c).1 1).trans (final_out m c), ((h c).1 0).trans (final_x m c)⟩)

/-- info: 'Cert.KernelIdeal.RS.run_main_of' depends on axioms: [propext, Classical.choice, Quot.sound] -/
#guard_msgs in #print axioms run_main_of

end Cert.KernelIdeal.RS

end
-- ==== Proof.KernelIdealRS.Bands.lean ====
/-
  Rules for the row bands of the staging buffer and of the landing buffer: a `[256, 256]` buffer held whole is held
  as its four bands of 64 rows and back; a store of a chunk through band `k`'s rectangle, a load through it, and the
  transfer of band `k` of the staging buffer into band `k` of the peer's landing buffer, each stated over the band
  alone, with the band's contents named independently of what the buffer held before.
-/
import proofs.«901034_g7700000000001035_dist_rs_v7x_xyz2x2x4_x_m256_n256_bf16_1_alg».proof.Proof.KernelIdealRS.Proto

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-! ## The geometry of the four row bands -/

theorem R01 : Disjoint R0.set R1.set := Rect.unit_disjoint 0 (by decide)
theorem R02 : Disjoint R0.set R2.set := Rect.unit_disjoint 0 (by decide)
theorem R03 : Disjoint R0.set R3.set := Rect.unit_disjoint 0 (by decide)
theorem R12 : Disjoint R1.set R2.set := Rect.unit_disjoint 0 (by decide)
theorem R13 : Disjoint R1.set R3.set := Rect.unit_disjoint 0 (by decide)
theorem R23 : Disjoint R2.set R3.set := Rect.unit_disjoint 0 (by decide)

/-- Every index of the buffer lies in one of the four bands. -/
theorem R_cover : R0.set ∪ (R1.set ∪ (R2.set ∪ R3.set)) = (Finset.univ : Finset S256x256.Idx) := by
  ext i
  simp only [Finset.mem_union, Finset.mem_univ, iff_true, Rect.mem_set_unit, Fin.forall_fin_two]
  have h0 : (i 0 : ℕ) < 256 := (i 0).isLt
  have h1 : (i 1 : ℕ) < 256 := (i 1).isLt
  simp only [Matrix.cons_val_zero, Matrix.cons_val_one, Shape.size] at *
  omega

/-! ## A buffer held whole is held as four pairwise disjoint parts that cover it, and back -/

theorem pt_split4 {ℓ : Loc nD τ sig} {A B C D : Finset (Idx ℓ)} {q : PosShare TreeShare} (f : Buf (Elt F) ℓ)
    (hAB : Disjoint A B) (hAC : Disjoint A C) (hAD : Disjoint A D) (hBC : Disjoint B C) (hBD : Disjoint B D)
    (hCD : Disjoint C D) (hU : A ∪ (B ∪ (C ∪ D)) = Finset.univ) :
    (ℓ ↦{q} f : sProp 𝕄) ⊢ iprop((ℓ ↦[A]{q} f) ∗ (ℓ ↦[B]{q} f) ∗ (ℓ ↦[C]{q} f) ∗ (ℓ ↦[D]{q} f)) := by
  rw [← hU]
  refine (pointsTo_union (Finset.disjoint_union_right.mpr ⟨hAB, Finset.disjoint_union_right.mpr ⟨hAC, hAD⟩⟩)).1.trans ?_
  refine sep_mono_right ((pointsTo_union (Finset.disjoint_union_right.mpr ⟨hBC, hBD⟩)).1.trans ?_)
  exact sep_mono_right (pointsTo_union hCD).1

theorem pt_join4 {ℓ : Loc nD τ sig} {A B C D : Finset (Idx ℓ)} {q : PosShare TreeShare} (fa fb fc fd : Buf (Elt F) ℓ)
    (hAB : Disjoint A B) (hAC : Disjoint A C) (hAD : Disjoint A D) (hBC : Disjoint B C) (hBD : Disjoint B D)
    (hCD : Disjoint C D) (hU : A ∪ (B ∪ (C ∪ D)) = Finset.univ) :
    (iprop((ℓ ↦[A]{q} fa) ∗ (ℓ ↦[B]{q} fb) ∗ (ℓ ↦[C]{q} fc) ∗ (ℓ ↦[D]{q} fd)) : sProp 𝕄) ⊢ iprop(∃ f : Buf (Elt F) ℓ, ℓ ↦{q} f) := by
  refine (sep_mono_right (sep_mono_right (pointsTo_join hCD))).trans ?_
  refine (sep_mono_right (pointsTo_join (Finset.disjoint_union_right.mpr ⟨hBC, hBD⟩))).trans ?_
  refine (pointsTo_join (Finset.disjoint_union_right.mpr ⟨hAB, Finset.disjoint_union_right.mpr ⟨hAC, hAD⟩⟩)).trans ?_
  rw [hU]
  exact exists_intro (Φ := fun f : Buf (Elt F) ℓ => (ℓ ↦{q} f : sProp 𝕄)) _

/-- The element set of a band is its rectangle. -/
theorem sB0_set : (sB0 : Memref sig .tc .vmem S64x256 .bf16).view.set = R0.set := View.set_slice_whole _ _
theorem sB1_set : (sB1 : Memref sig .tc .vmem S64x256 .bf16).view.set = R1.set := View.set_slice_whole _ _
theorem sB2_set : (sB2 : Memref sig .tc .vmem S64x256 .bf16).view.set = R2.set := View.set_slice_whole _ _
theorem sB3_set : (sB3 : Memref sig .tc .vmem S64x256 .bf16).view.set = R3.set := View.set_slice_whole _ _
theorem rB0_set : (rB0 : Memref sig .tc .vmem S64x256 .bf16).view.set = R0.set := View.set_slice_whole _ _
theorem rB1_set : (rB1 : Memref sig .tc .vmem S64x256 .bf16).view.set = R1.set := View.set_slice_whole _ _
theorem rB2_set : (rB2 : Memref sig .tc .vmem S64x256 .bf16).view.set = R2.set := View.set_slice_whole _ _
theorem rB3_set : (rB3 : Memref sig .tc .vmem S64x256 .bf16).view.set = R3.set := View.set_slice_whole _ _

/-- Band `k` of a buffer at contents `f` is the buffer's points-to at the band's rectangle. -/
theorem sPt0_eq (d : Dev nD) (f : Buf (Elt F) ((d : Thread nD τ).loc cc0_scratch0)) :
    (sPt d 0 f : sProp 𝕄) = (((d : Thread nD τ).loc cc0_scratch0) ↦[R0.set]{fullShare} f) :=
  (rfl : (sPt d 0 f : sProp 𝕄) = (((d : Thread nD τ).loc cc0_scratch0) ↦[(sB0 : Memref sig .tc .vmem S64x256 .bf16).view.set]{fullShare} f)).trans
    (congrArg (fun I => (((d : Thread nD τ).loc cc0_scratch0) ↦[I]{fullShare} f : sProp 𝕄)) sB0_set)
theorem sPt1_eq (d : Dev nD) (f : Buf (Elt F) ((d : Thread nD τ).loc cc0_scratch0)) :
    (sPt d 1 f : sProp 𝕄) = (((d : Thread nD τ).loc cc0_scratch0) ↦[R1.set]{fullShare} f) :=
  (rfl : (sPt d 1 f : sProp 𝕄) = (((d : Thread nD τ).loc cc0_scratch0) ↦[(sB1 : Memref sig .tc .vmem S64x256 .bf16).view.set]{fullShare} f)).trans
    (congrArg (fun I => (((d : Thread nD τ).loc cc0_scratch0) ↦[I]{fullShare} f : sProp 𝕄)) sB1_set)
theorem sPt2_eq (d : Dev nD) (f : Buf (Elt F) ((d : Thread nD τ).loc cc0_scratch0)) :
    (sPt d 2 f : sProp 𝕄) = (((d : Thread nD τ).loc cc0_scratch0) ↦[R2.set]{fullShare} f) :=
  (rfl : (sPt d 2 f : sProp 𝕄) = (((d : Thread nD τ).loc cc0_scratch0) ↦[(sB2 : Memref sig .tc .vmem S64x256 .bf16).view.set]{fullShare} f)).trans
    (congrArg (fun I => (((d : Thread nD τ).loc cc0_scratch0) ↦[I]{fullShare} f : sProp 𝕄)) sB2_set)
theorem sPt3_eq (d : Dev nD) (f : Buf (Elt F) ((d : Thread nD τ).loc cc0_scratch0)) :
    (sPt d 3 f : sProp 𝕄) = (((d : Thread nD τ).loc cc0_scratch0) ↦[R3.set]{fullShare} f) :=
  (rfl : (sPt d 3 f : sProp 𝕄) = (((d : Thread nD τ).loc cc0_scratch0) ↦[(sB3 : Memref sig .tc .vmem S64x256 .bf16).view.set]{fullShare} f)).trans
    (congrArg (fun I => (((d : Thread nD τ).loc cc0_scratch0) ↦[I]{fullShare} f : sProp 𝕄)) sB3_set)
theorem rPt0_eq (d : Dev nD) (f : Buf (Elt F) ((d : Thread nD τ).loc cc0_scratch1)) :
    (rPt d 0 f : sProp 𝕄) = (((d : Thread nD τ).loc cc0_scratch1) ↦[R0.set]{fullShare} f) :=
  (rfl : (rPt d 0 f : sProp 𝕄) = (((d : Thread nD τ).loc cc0_scratch1) ↦[(rB0 : Memref sig .tc .vmem S64x256 .bf16).view.set]{fullShare} f)).trans
    (congrArg (fun I => (((d : Thread nD τ).loc cc0_scratch1) ↦[I]{fullShare} f : sProp 𝕄)) rB0_set)
theorem rPt1_eq (d : Dev nD) (f : Buf (Elt F) ((d : Thread nD τ).loc cc0_scratch1)) :
    (rPt d 1 f : sProp 𝕄) = (((d : Thread nD τ).loc cc0_scratch1) ↦[R1.set]{fullShare} f) :=
  (rfl : (rPt d 1 f : sProp 𝕄) = (((d : Thread nD τ).loc cc0_scratch1) ↦[(rB1 : Memref sig .tc .vmem S64x256 .bf16).view.set]{fullShare} f)).trans
    (congrArg (fun I => (((d : Thread nD τ).loc cc0_scratch1) ↦[I]{fullShare} f : sProp 𝕄)) rB1_set)
theorem rPt2_eq (d : Dev nD) (f : Buf (Elt F) ((d : Thread nD τ).loc cc0_scratch1)) :
    (rPt d 2 f : sProp 𝕄) = (((d : Thread nD τ).loc cc0_scratch1) ↦[R2.set]{fullShare} f) :=
  (rfl : (rPt d 2 f : sProp 𝕄) = (((d : Thread nD τ).loc cc0_scratch1) ↦[(rB2 : Memref sig .tc .vmem S64x256 .bf16).view.set]{fullShare} f)).trans
    (congrArg (fun I => (((d : Thread nD τ).loc cc0_scratch1) ↦[I]{fullShare} f : sProp 𝕄)) rB2_set)
theorem rPt3_eq (d : Dev nD) (f : Buf (Elt F) ((d : Thread nD τ).loc cc0_scratch1)) :
    (rPt d 3 f : sProp 𝕄) = (((d : Thread nD τ).loc cc0_scratch1) ↦[R3.set]{fullShare} f) :=
  (rfl : (rPt d 3 f : sProp 𝕄) = (((d : Thread nD τ).loc cc0_scratch1) ↦[(rB3 : Memref sig .tc .vmem S64x256 .bf16).view.set]{fullShare} f)).trans
    (congrArg (fun I => (((d : Thread nD τ).loc cc0_scratch1) ↦[I]{fullShare} f : sProp 𝕄)) rB3_set)

/-! ## Writes and reads through a band -/

/-- Two unmasked writes of one payload through a view agree on the view's elements, whatever they were laid over. -/
theorem write_univ_agree {κ : Kind} {sp : Space} {S : Shape} {e : EltTy} (v : View sig κ sp S e)
    (f f' : v.ty.Contents (Elt F)) (w : S.Idx → Elt F e) :
    ∀ i ∈ v.set, v.write (Elt F) f w Finset.univ i = v.write (Elt F) f' w Finset.univ i := by
  intro i hi
  obtain ⟨y, -, rfl⟩ := Finset.mem_map.mp hi
  rw [View.write_emb_of_mem _ _ (Finset.mem_univ y), View.write_emb_of_mem _ _ (Finset.mem_univ y)]

/-- Band `0` of the landing buffer, once the peer's chunk has landed, reads as the chunk. -/
theorem read_land0 (c : Dev nD) : ((rM : Memref sig .tc .vmem S256x256 .bf16).access R0).read (Elt F) (land m c 0) = snd0 m (peer c) :=
  View.read_write_univ (v := (rB0 : Memref sig .tc .vmem S64x256 .bf16).view) _ _

/-- Band `1` of the landing buffer, once the peer's chunk has landed, reads as the chunk. -/
theorem read_land1 (c : Dev nD) : ((rM : Memref sig .tc .vmem S256x256 .bf16).access R1).read (Elt F) (land m c 1) = snd1 m (peer c) :=
  View.read_write_univ (v := (rB1 : Memref sig .tc .vmem S64x256 .bf16).view) _ _

/-- Band `2` of the landing buffer, once the peer's chunk has landed, reads as the chunk. -/
theorem read_land2 (c : Dev nD) : ((rM : Memref sig .tc .vmem S256x256 .bf16).access R2).read (Elt F) (land m c 2) = snd2 m (peer c) :=
  View.read_write_univ (v := (rB2 : Memref sig .tc .vmem S64x256 .bf16).view) _ _

/-- Band `3` of the landing buffer, once the peer's chunk has landed, reads as the chunk. -/
theorem read_land3 (c : Dev nD) : ((rM : Memref sig .tc .vmem S256x256 .bf16).access R3).read (Elt F) (land m c 3) = snd3 m (peer c) :=
  View.read_write_univ (v := (rB3 : Memref sig .tc .vmem S64x256 .bf16).view) _ _

/-- What transfer `0` from device `c` leaves on band `0` of its peer's landing buffer is, on the band, the chunk
    device `c` sent: the peer's peer is `c`. -/
theorem landed0 (c : Dev nD) (fd : Buf (Elt F) (((peer c : Dev nD) : Thread nD τ).loc cc0_scratch1)) :
    (((((peer c : Dev nD) : Thread nD τ).loc cc0_scratch1) ↦[(rB0 : Memref sig .tc .vmem S64x256 .bf16).view.set]{fullShare}
        ((rB0 : Memref sig .tc .vmem S64x256 .bf16).view.write (Elt F) fd ((sB0 : Memref sig .tc .vmem S64x256 .bf16).view.read (Elt F) (sent m c 0)) Finset.univ)) : sProp 𝕄)
      = rPt (peer c) 0 (land m (peer c) 0) := by
  have hr : (sB0 : Memref sig .tc .vmem S64x256 .bf16).view.read (Elt F) (sent m c 0) = snd0 m c := View.read_write_univ (v := (sB0 : Memref sig .tc .vmem S64x256 .bf16).view) _ _
  rw [hr]
  have hl : land m (peer c) 0 = (rB0 : Memref sig .tc .vmem S64x256 .bf16).view.write (Elt F) (rB0 : Memref sig .tc .vmem S64x256 .bf16).view.junk (snd0 m c) Finset.univ := by
    show (rB0 : Memref sig .tc .vmem S64x256 .bf16).view.write (Elt F) (rB0 : Memref sig .tc .vmem S64x256 .bf16).view.junk (snd0 m (peer (peer c))) Finset.univ = _
    rw [peer_peer]
  rw [hl]
  exact pointsTo_congr (write_univ_agree (rB0 : Memref sig .tc .vmem S64x256 .bf16).view _ _ _)

/-- What transfer `1` from device `c` leaves on band `1` of its peer's landing buffer is, on the band, the chunk
    device `c` sent: the peer's peer is `c`. -/
theorem landed1 (c : Dev nD) (fd : Buf (Elt F) (((peer c : Dev nD) : Thread nD τ).loc cc0_scratch1)) :
    (((((peer c : Dev nD) : Thread nD τ).loc cc0_scratch1) ↦[(rB1 : Memref sig .tc .vmem S64x256 .bf16).view.set]{fullShare}
        ((rB1 : Memref sig .tc .vmem S64x256 .bf16).view.write (Elt F) fd ((sB1 : Memref sig .tc .vmem S64x256 .bf16).view.read (Elt F) (sent m c 1)) Finset.univ)) : sProp 𝕄)
      = rPt (peer c) 1 (land m (peer c) 1) := by
  have hr : (sB1 : Memref sig .tc .vmem S64x256 .bf16).view.read (Elt F) (sent m c 1) = snd1 m c := View.read_write_univ (v := (sB1 : Memref sig .tc .vmem S64x256 .bf16).view) _ _
  rw [hr]
  have hl : land m (peer c) 1 = (rB1 : Memref sig .tc .vmem S64x256 .bf16).view.write (Elt F) (rB1 : Memref sig .tc .vmem S64x256 .bf16).view.junk (snd1 m c) Finset.univ := by
    show (rB1 : Memref sig .tc .vmem S64x256 .bf16).view.write (Elt F) (rB1 : Memref sig .tc .vmem S64x256 .bf16).view.junk (snd1 m (peer (peer c))) Finset.univ = _
    rw [peer_peer]
  rw [hl]
  exact pointsTo_congr (write_univ_agree (rB1 : Memref sig .tc .vmem S64x256 .bf16).view _ _ _)

/-- What transfer `2` from device `c` leaves on band `2` of its peer's landing buffer is, on the band, the chunk
    device `c` sent: the peer's peer is `c`. -/
theorem landed2 (c : Dev nD) (fd : Buf (Elt F) (((peer c : Dev nD) : Thread nD τ).loc cc0_scratch1)) :
    (((((peer c : Dev nD) : Thread nD τ).loc cc0_scratch1) ↦[(rB2 : Memref sig .tc .vmem S64x256 .bf16).view.set]{fullShare}
        ((rB2 : Memref sig .tc .vmem S64x256 .bf16).view.write (Elt F) fd ((sB2 : Memref sig .tc .vmem S64x256 .bf16).view.read (Elt F) (sent m c 2)) Finset.univ)) : sProp 𝕄)
      = rPt (peer c) 2 (land m (peer c) 2) := by
  have hr : (sB2 : Memref sig .tc .vmem S64x256 .bf16).view.read (Elt F) (sent m c 2) = snd2 m c := View.read_write_univ (v := (sB2 : Memref sig .tc .vmem S64x256 .bf16).view) _ _
  rw [hr]
  have hl : land m (peer c) 2 = (rB2 : Memref sig .tc .vmem S64x256 .bf16).view.write (Elt F) (rB2 : Memref sig .tc .vmem S64x256 .bf16).view.junk (snd2 m c) Finset.univ := by
    show (rB2 : Memref sig .tc .vmem S64x256 .bf16).view.write (Elt F) (rB2 : Memref sig .tc .vmem S64x256 .bf16).view.junk (snd2 m (peer (peer c))) Finset.univ = _
    rw [peer_peer]
  rw [hl]
  exact pointsTo_congr (write_univ_agree (rB2 : Memref sig .tc .vmem S64x256 .bf16).view _ _ _)

/-- What transfer `3` from device `c` leaves on band `3` of its peer's landing buffer is, on the band, the chunk
    device `c` sent: the peer's peer is `c`. -/
theorem landed3 (c : Dev nD) (fd : Buf (Elt F) (((peer c : Dev nD) : Thread nD τ).loc cc0_scratch1)) :
    (((((peer c : Dev nD) : Thread nD τ).loc cc0_scratch1) ↦[(rB3 : Memref sig .tc .vmem S64x256 .bf16).view.set]{fullShare}
        ((rB3 : Memref sig .tc .vmem S64x256 .bf16).view.write (Elt F) fd ((sB3 : Memref sig .tc .vmem S64x256 .bf16).view.read (Elt F) (sent m c 3)) Finset.univ)) : sProp 𝕄)
      = rPt (peer c) 3 (land m (peer c) 3) := by
  have hr : (sB3 : Memref sig .tc .vmem S64x256 .bf16).view.read (Elt F) (sent m c 3) = snd3 m c := View.read_write_univ (v := (sB3 : Memref sig .tc .vmem S64x256 .bf16).view) _ _
  rw [hr]
  have hl : land m (peer c) 3 = (rB3 : Memref sig .tc .vmem S64x256 .bf16).view.write (Elt F) (rB3 : Memref sig .tc .vmem S64x256 .bf16).view.junk (snd3 m c) Finset.univ := by
    show (rB3 : Memref sig .tc .vmem S64x256 .bf16).view.write (Elt F) (rB3 : Memref sig .tc .vmem S64x256 .bf16).view.junk (snd3 m (peer (peer c))) Finset.univ = _
    rw [peer_peer]
  rw [hl]
  exact pointsTo_congr (write_univ_agree (rB3 : Memref sig .tc .vmem S64x256 .bf16).view _ _ _)

/-! ## Whole and by bands -/

theorem s_split (c : Dev nD) (f : Buf (Elt F) ((c : Thread nD τ).loc cc0_scratch0)) :
    ((((c : Thread nD τ).loc cc0_scratch0) ↦{fullShare} f : sProp 𝕄)) ⊢ iprop(sPt c 0 f ∗ sPt c 1 f ∗ sPt c 2 f ∗ sPt c 3 f) := by
  rw [sPt0_eq, sPt1_eq, sPt2_eq, sPt3_eq]
  exact pt_split4 f R01 R02 R03 R12 R13 R23 R_cover
theorem r_split (c : Dev nD) (f : Buf (Elt F) ((c : Thread nD τ).loc cc0_scratch1)) :
    ((((c : Thread nD τ).loc cc0_scratch1) ↦{fullShare} f : sProp 𝕄)) ⊢ iprop(rPt c 0 f ∗ rPt c 1 f ∗ rPt c 2 f ∗ rPt c 3 f) := by
  rw [rPt0_eq, rPt1_eq, rPt2_eq, rPt3_eq]
  exact pt_split4 f R01 R02 R03 R12 R13 R23 R_cover
theorem s_join (c : Dev nD) (f0 f1 f2 f3 : Buf (Elt F) ((c : Thread nD τ).loc cc0_scratch0)) :
    (iprop(sPt c 0 f0 ∗ sPt c 1 f1 ∗ sPt c 2 f2 ∗ sPt c 3 f3) : sProp 𝕄)
      ⊢ iprop(∃ f : Buf (Elt F) ((c : Thread nD τ).loc cc0_scratch0), ((c : Thread nD τ).loc cc0_scratch0) ↦{fullShare} f) := by
  rw [sPt0_eq, sPt1_eq, sPt2_eq, sPt3_eq]
  exact pt_join4 f0 f1 f2 f3 R01 R02 R03 R12 R13 R23 R_cover
theorem r_join (c : Dev nD) (f0 f1 f2 f3 : Buf (Elt F) ((c : Thread nD τ).loc cc0_scratch1)) :
    (iprop(rPt c 0 f0 ∗ rPt c 1 f1 ∗ rPt c 2 f2 ∗ rPt c 3 f3) : sProp 𝕄)
      ⊢ iprop(∃ f : Buf (Elt F) ((c : Thread nD τ).loc cc0_scratch1), ((c : Thread nD τ).loc cc0_scratch1) ↦{fullShare} f) := by
  rw [rPt0_eq, rPt1_eq, rPt2_eq, rPt3_eq]
  exact pt_join4 f0 f1 f2 f3 R01 R02 R03 R12 R13 R23 R_cover

/-! ## A load and a store through a band's rectangle; the transfer of a band

Band by band (`k = 0, 1, 2, 3`): a load of the staging buffer through the band's rectangle, holding the band (what is
read is not used); a store of a chunk through it, after which the band holds the chunk whatever it held; a load of the
landing buffer once the peer's chunk has landed, which reads the chunk; and transfer `k` — band `k` of the staging
buffer, holding chunk `k`, into band `k` of the peer's landing buffer (held at any contents), addressed to
`n = peer c`: it pays the departure duty of the sender's send cell `k` and the landing duty of the peer's receive
cell `k`, leaves the send cell's credit, and takes the landing off what the sender owes. -/

section Rules

theorem wp_load_sband0 {α : Type} {Q : α → sProp 𝕄} (c : Dev nD) {hl : (sM : Memref sig .tc .vmem S256x256 .bf16).view.LoadsAt R0.toLoadRect}
    {kk : (R0.toLoadRect.shape.Idx → Elt F .bf16) → Prog (TpuEff nD τ sig (Elt F) Λ₀ .tc) α}
    (f : Buf (Elt F) ((c : Thread nD τ).loc cc0_scratch0)) :
    (sPt c 0 f : sProp 𝕄)
      ⊢ iprop((sPt c 0 f -∗ wp frame (wpE (defs₀ (F := F)) 𝒱₀ (c : Thread nD τ) none) Set.univ (kk ((sM : Memref sig .tc .vmem S256x256 .bf16).view.readAt (Elt F) R0.toLoadRect f)) Q)
        -∗ wp frame (wpE (defs₀ (F := F)) 𝒱₀ (c : Thread nD τ) none) Set.univ (.op (.load sM R0.toLoadRect hl) kk) Q) := by
  exact wp_load_rect (defs := defs₀ (F := F)) 𝒱₀ (c : Thread nD τ) none (Γ := .empty) Set.univ (m := (sM : Memref sig .tc .vmem S256x256 .bf16)) (r := R0) (hl := hl) (k := kk)
    (S := (sB0 : Memref sig .tc .vmem S64x256 .bf16).view.set) (q := fullShare) (f := f) (Q := Q) subset_rfl

theorem wp_load_sband1 {α : Type} {Q : α → sProp 𝕄} (c : Dev nD) {hl : (sM : Memref sig .tc .vmem S256x256 .bf16).view.LoadsAt R1.toLoadRect}
    {kk : (R1.toLoadRect.shape.Idx → Elt F .bf16) → Prog (TpuEff nD τ sig (Elt F) Λ₀ .tc) α}
    (f : Buf (Elt F) ((c : Thread nD τ).loc cc0_scratch0)) :
    (sPt c 1 f : sProp 𝕄)
      ⊢ iprop((sPt c 1 f -∗ wp frame (wpE (defs₀ (F := F)) 𝒱₀ (c : Thread nD τ) none) Set.univ (kk ((sM : Memref sig .tc .vmem S256x256 .bf16).view.readAt (Elt F) R1.toLoadRect f)) Q)
        -∗ wp frame (wpE (defs₀ (F := F)) 𝒱₀ (c : Thread nD τ) none) Set.univ (.op (.load sM R1.toLoadRect hl) kk) Q) := by
  exact wp_load_rect (defs := defs₀ (F := F)) 𝒱₀ (c : Thread nD τ) none (Γ := .empty) Set.univ (m := (sM : Memref sig .tc .vmem S256x256 .bf16)) (r := R1) (hl := hl) (k := kk)
    (S := (sB1 : Memref sig .tc .vmem S64x256 .bf16).view.set) (q := fullShare) (f := f) (Q := Q) subset_rfl

theorem wp_load_sband2 {α : Type} {Q : α → sProp 𝕄} (c : Dev nD) {hl : (sM : Memref sig .tc .vmem S256x256 .bf16).view.LoadsAt R2.toLoadRect}
    {kk : (R2.toLoadRect.shape.Idx → Elt F .bf16) → Prog (TpuEff nD τ sig (Elt F) Λ₀ .tc) α}
    (f : Buf (Elt F) ((c : Thread nD τ).loc cc0_scratch0)) :
    (sPt c 2 f : sProp 𝕄)
      ⊢ iprop((sPt c 2 f -∗ wp frame (wpE (defs₀ (F := F)) 𝒱₀ (c : Thread nD τ) none) Set.univ (kk ((sM : Memref sig .tc .vmem S256x256 .bf16).view.readAt (Elt F) R2.toLoadRect f)) Q)
        -∗ wp frame (wpE (defs₀ (F := F)) 𝒱₀ (c : Thread nD τ) none) Set.univ (.op (.load sM R2.toLoadRect hl) kk) Q) := by
  exact wp_load_rect (defs := defs₀ (F := F)) 𝒱₀ (c : Thread nD τ) none (Γ := .empty) Set.univ (m := (sM : Memref sig .tc .vmem S256x256 .bf16)) (r := R2) (hl := hl) (k := kk)
    (S := (sB2 : Memref sig .tc .vmem S64x256 .bf16).view.set) (q := fullShare) (f := f) (Q := Q) subset_rfl

theorem wp_load_sband3 {α : Type} {Q : α → sProp 𝕄} (c : Dev nD) {hl : (sM : Memref sig .tc .vmem S256x256 .bf16).view.LoadsAt R3.toLoadRect}
    {kk : (R3.toLoadRect.shape.Idx → Elt F .bf16) → Prog (TpuEff nD τ sig (Elt F) Λ₀ .tc) α}
    (f : Buf (Elt F) ((c : Thread nD τ).loc cc0_scratch0)) :
    (sPt c 3 f : sProp 𝕄)
      ⊢ iprop((sPt c 3 f -∗ wp frame (wpE (defs₀ (F := F)) 𝒱₀ (c : Thread nD τ) none) Set.univ (kk ((sM : Memref sig .tc .vmem S256x256 .bf16).view.readAt (Elt F) R3.toLoadRect f)) Q)
        -∗ wp frame (wpE (defs₀ (F := F)) 𝒱₀ (c : Thread nD τ) none) Set.univ (.op (.load sM R3.toLoadRect hl) kk) Q) := by
  exact wp_load_rect (defs := defs₀ (F := F)) 𝒱₀ (c : Thread nD τ) none (Γ := .empty) Set.univ (m := (sM : Memref sig .tc .vmem S256x256 .bf16)) (r := R3) (hl := hl) (k := kk)
    (S := (sB3 : Memref sig .tc .vmem S64x256 .bf16).view.set) (q := fullShare) (f := f) (Q := Q) subset_rfl

theorem wp_store_sband0 {α : Type} {Q : α → sProp 𝕄} (c : Dev nD) (w : FVec F S64x256 .bf16) {hx : ((sM : Memref sig .tc .vmem S256x256 .bf16).access R0).Stores Finset.univ}
    {hm : (Finset.univ : Finset R0.shape.Idx) = Finset.univ ∨ ∀ a, R0.stride a = 1}
    {kk : PUnit → Prog (TpuEff nD τ sig (Elt F) Λ₀ .tc) α}
    (f : Buf (Elt F) ((c : Thread nD τ).loc cc0_scratch0)) :
    (sPt c 0 f : sProp 𝕄)
      ⊢ iprop((sPt c 0 (sB0.view.write (Elt F) sB0.view.junk w Finset.univ) -∗ wp frame (wpE (defs₀ (F := F)) 𝒱₀ (c : Thread nD τ) none) Set.univ (kk ⟨⟩) Q)
        -∗ wp frame (wpE (defs₀ (F := F)) 𝒱₀ (c : Thread nD τ) none) Set.univ (.op (.store sM R0 w Finset.univ hx hm) kk) Q) := by
  have h := wp_store (defs := defs₀ (F := F)) 𝒱₀ (c : Thread nD τ) none (Γ := .empty) Set.univ (m := (sM : Memref sig .tc .vmem S256x256 .bf16)) (r := R0) (w := w) (Mk := Finset.univ)
    (hx := hx) (hm := hm) (k := kk) (S := (sB0 : Memref sig .tc .vmem S64x256 .bf16).view.set) (f := f) (Q := Q) subset_rfl
  rw [pointsTo_congr (ℓ := (c : Thread nD τ).loc cc0_scratch0) (I := (sB0 : Memref sig .tc .vmem S64x256 .bf16).view.set) (q := fullShare)
    (f := ((sM : Memref sig .tc .vmem S256x256 .bf16).access R0).write (Elt F) f w Finset.univ)
    (g := (sB0 : Memref sig .tc .vmem S64x256 .bf16).view.write (Elt F) (sB0 : Memref sig .tc .vmem S64x256 .bf16).view.junk w Finset.univ)
    (write_univ_agree (sB0 : Memref sig .tc .vmem S64x256 .bf16).view f (sB0 : Memref sig .tc .vmem S64x256 .bf16).view.junk w)] at h
  exact h

theorem wp_store_sband1 {α : Type} {Q : α → sProp 𝕄} (c : Dev nD) (w : FVec F S64x256 .bf16) {hx : ((sM : Memref sig .tc .vmem S256x256 .bf16).access R1).Stores Finset.univ}
    {hm : (Finset.univ : Finset R1.shape.Idx) = Finset.univ ∨ ∀ a, R1.stride a = 1}
    {kk : PUnit → Prog (TpuEff nD τ sig (Elt F) Λ₀ .tc) α}
    (f : Buf (Elt F) ((c : Thread nD τ).loc cc0_scratch0)) :
    (sPt c 1 f : sProp 𝕄)
      ⊢ iprop((sPt c 1 (sB1.view.write (Elt F) sB1.view.junk w Finset.univ) -∗ wp frame (wpE (defs₀ (F := F)) 𝒱₀ (c : Thread nD τ) none) Set.univ (kk ⟨⟩) Q)
        -∗ wp frame (wpE (defs₀ (F := F)) 𝒱₀ (c : Thread nD τ) none) Set.univ (.op (.store sM R1 w Finset.univ hx hm) kk) Q) := by
  have h := wp_store (defs := defs₀ (F := F)) 𝒱₀ (c : Thread nD τ) none (Γ := .empty) Set.univ (m := (sM : Memref sig .tc .vmem S256x256 .bf16)) (r := R1) (w := w) (Mk := Finset.univ)
    (hx := hx) (hm := hm) (k := kk) (S := (sB1 : Memref sig .tc .vmem S64x256 .bf16).view.set) (f := f) (Q := Q) subset_rfl
  rw [pointsTo_congr (ℓ := (c : Thread nD τ).loc cc0_scratch0) (I := (sB1 : Memref sig .tc .vmem S64x256 .bf16).view.set) (q := fullShare)
    (f := ((sM : Memref sig .tc .vmem S256x256 .bf16).access R1).write (Elt F) f w Finset.univ)
    (g := (sB1 : Memref sig .tc .vmem S64x256 .bf16).view.write (Elt F) (sB1 : Memref sig .tc .vmem S64x256 .bf16).view.junk w Finset.univ)
    (write_univ_agree (sB1 : Memref sig .tc .vmem S64x256 .bf16).view f (sB1 : Memref sig .tc .vmem S64x256 .bf16).view.junk w)] at h
  exact h

theorem wp_store_sband2 {α : Type} {Q : α → sProp 𝕄} (c : Dev nD) (w : FVec F S64x256 .bf16) {hx : ((sM : Memref sig .tc .vmem S256x256 .bf16).access R2).Stores Finset.univ}
    {hm : (Finset.univ : Finset R2.shape.Idx) = Finset.univ ∨ ∀ a, R2.stride a = 1}
    {kk : PUnit → Prog (TpuEff nD τ sig (Elt F) Λ₀ .tc) α}
    (f : Buf (Elt F) ((c : Thread nD τ).loc cc0_scratch0)) :
    (sPt c 2 f : sProp 𝕄)
      ⊢ iprop((sPt c 2 (sB2.view.write (Elt F) sB2.view.junk w Finset.univ) -∗ wp frame (wpE (defs₀ (F := F)) 𝒱₀ (c : Thread nD τ) none) Set.univ (kk ⟨⟩) Q)
        -∗ wp frame (wpE (defs₀ (F := F)) 𝒱₀ (c : Thread nD τ) none) Set.univ (.op (.store sM R2 w Finset.univ hx hm) kk) Q) := by
  have h := wp_store (defs := defs₀ (F := F)) 𝒱₀ (c : Thread nD τ) none (Γ := .empty) Set.univ (m := (sM : Memref sig .tc .vmem S256x256 .bf16)) (r := R2) (w := w) (Mk := Finset.univ)
    (hx := hx) (hm := hm) (k := kk) (S := (sB2 : Memref sig .tc .vmem S64x256 .bf16).view.set) (f := f) (Q := Q) subset_rfl
  rw [pointsTo_congr (ℓ := (c : Thread nD τ).loc cc0_scratch0) (I := (sB2 : Memref sig .tc .vmem S64x256 .bf16).view.set) (q := fullShare)
    (f := ((sM : Memref sig .tc .vmem S256x256 .bf16).access R2).write (Elt F) f w Finset.univ)
    (g := (sB2 : Memref sig .tc .vmem S64x256 .bf16).view.write (Elt F) (sB2 : Memref sig .tc .vmem S64x256 .bf16).view.junk w Finset.univ)
    (write_univ_agree (sB2 : Memref sig .tc .vmem S64x256 .bf16).view f (sB2 : Memref sig .tc .vmem S64x256 .bf16).view.junk w)] at h
  exact h

theorem wp_store_sband3 {α : Type} {Q : α → sProp 𝕄} (c : Dev nD) (w : FVec F S64x256 .bf16) {hx : ((sM : Memref sig .tc .vmem S256x256 .bf16).access R3).Stores Finset.univ}
    {hm : (Finset.univ : Finset R3.shape.Idx) = Finset.univ ∨ ∀ a, R3.stride a = 1}
    {kk : PUnit → Prog (TpuEff nD τ sig (Elt F) Λ₀ .tc) α}
    (f : Buf (Elt F) ((c : Thread nD τ).loc cc0_scratch0)) :
    (sPt c 3 f : sProp 𝕄)
      ⊢ iprop((sPt c 3 (sB3.view.write (Elt F) sB3.view.junk w Finset.univ) -∗ wp frame (wpE (defs₀ (F := F)) 𝒱₀ (c : Thread nD τ) none) Set.univ (kk ⟨⟩) Q)
        -∗ wp frame (wpE (defs₀ (F := F)) 𝒱₀ (c : Thread nD τ) none) Set.univ (.op (.store sM R3 w Finset.univ hx hm) kk) Q) := by
  have h := wp_store (defs := defs₀ (F := F)) 𝒱₀ (c : Thread nD τ) none (Γ := .empty) Set.univ (m := (sM : Memref sig .tc .vmem S256x256 .bf16)) (r := R3) (w := w) (Mk := Finset.univ)
    (hx := hx) (hm := hm) (k := kk) (S := (sB3 : Memref sig .tc .vmem S64x256 .bf16).view.set) (f := f) (Q := Q) subset_rfl
  rw [pointsTo_congr (ℓ := (c : Thread nD τ).loc cc0_scratch0) (I := (sB3 : Memref sig .tc .vmem S64x256 .bf16).view.set) (q := fullShare)
    (f := ((sM : Memref sig .tc .vmem S256x256 .bf16).access R3).write (Elt F) f w Finset.univ)
    (g := (sB3 : Memref sig .tc .vmem S64x256 .bf16).view.write (Elt F) (sB3 : Memref sig .tc .vmem S64x256 .bf16).view.junk w Finset.univ)
    (write_univ_agree (sB3 : Memref sig .tc .vmem S64x256 .bf16).view f (sB3 : Memref sig .tc .vmem S64x256 .bf16).view.junk w)] at h
  exact h

theorem wp_load_rband0 {α : Type} {Q : α → sProp 𝕄} (c : Dev nD) {hl : (rM : Memref sig .tc .vmem S256x256 .bf16).view.LoadsAt R0.toLoadRect}
    {kk : (R0.toLoadRect.shape.Idx → Elt F .bf16) → Prog (TpuEff nD τ sig (Elt F) Λ₀ .tc) α} :
    (rPt c 0 (land m c 0) : sProp 𝕄)
      ⊢ iprop((rPt c 0 (land m c 0) -∗ wp frame (wpE (defs₀ (F := F)) 𝒱₀ (c : Thread nD τ) none) Set.univ (kk (snd0 m (peer c))) Q)
        -∗ wp frame (wpE (defs₀ (F := F)) 𝒱₀ (c : Thread nD τ) none) Set.univ (.op (.load rM R0.toLoadRect hl) kk) Q) := by
  have h := wp_load_rect (defs := defs₀ (F := F)) 𝒱₀ (c : Thread nD τ) none (Γ := .empty) Set.univ (m := (rM : Memref sig .tc .vmem S256x256 .bf16)) (r := R0) (hl := hl) (k := kk)
    (S := (rB0 : Memref sig .tc .vmem S64x256 .bf16).view.set) (q := fullShare) (f := land m c 0) (Q := Q) subset_rfl
  rw [read_land0] at h
  exact h

theorem wp_load_rband1 {α : Type} {Q : α → sProp 𝕄} (c : Dev nD) {hl : (rM : Memref sig .tc .vmem S256x256 .bf16).view.LoadsAt R1.toLoadRect}
    {kk : (R1.toLoadRect.shape.Idx → Elt F .bf16) → Prog (TpuEff nD τ sig (Elt F) Λ₀ .tc) α} :
    (rPt c 1 (land m c 1) : sProp 𝕄)
      ⊢ iprop((rPt c 1 (land m c 1) -∗ wp frame (wpE (defs₀ (F := F)) 𝒱₀ (c : Thread nD τ) none) Set.univ (kk (snd1 m (peer c))) Q)
        -∗ wp frame (wpE (defs₀ (F := F)) 𝒱₀ (c : Thread nD τ) none) Set.univ (.op (.load rM R1.toLoadRect hl) kk) Q) := by
  have h := wp_load_rect (defs := defs₀ (F := F)) 𝒱₀ (c : Thread nD τ) none (Γ := .empty) Set.univ (m := (rM : Memref sig .tc .vmem S256x256 .bf16)) (r := R1) (hl := hl) (k := kk)
    (S := (rB1 : Memref sig .tc .vmem S64x256 .bf16).view.set) (q := fullShare) (f := land m c 1) (Q := Q) subset_rfl
  rw [read_land1] at h
  exact h

theorem wp_load_rband2 {α : Type} {Q : α → sProp 𝕄} (c : Dev nD) {hl : (rM : Memref sig .tc .vmem S256x256 .bf16).view.LoadsAt R2.toLoadRect}
    {kk : (R2.toLoadRect.shape.Idx → Elt F .bf16) → Prog (TpuEff nD τ sig (Elt F) Λ₀ .tc) α} :
    (rPt c 2 (land m c 2) : sProp 𝕄)
      ⊢ iprop((rPt c 2 (land m c 2) -∗ wp frame (wpE (defs₀ (F := F)) 𝒱₀ (c : Thread nD τ) none) Set.univ (kk (snd2 m (peer c))) Q)
        -∗ wp frame (wpE (defs₀ (F := F)) 𝒱₀ (c : Thread nD τ) none) Set.univ (.op (.load rM R2.toLoadRect hl) kk) Q) := by
  have h := wp_load_rect (defs := defs₀ (F := F)) 𝒱₀ (c : Thread nD τ) none (Γ := .empty) Set.univ (m := (rM : Memref sig .tc .vmem S256x256 .bf16)) (r := R2) (hl := hl) (k := kk)
    (S := (rB2 : Memref sig .tc .vmem S64x256 .bf16).view.set) (q := fullShare) (f := land m c 2) (Q := Q) subset_rfl
  rw [read_land2] at h
  exact h

theorem wp_load_rband3 {α : Type} {Q : α → sProp 𝕄} (c : Dev nD) {hl : (rM : Memref sig .tc .vmem S256x256 .bf16).view.LoadsAt R3.toLoadRect}
    {kk : (R3.toLoadRect.shape.Idx → Elt F .bf16) → Prog (TpuEff nD τ sig (Elt F) Λ₀ .tc) α} :
    (rPt c 3 (land m c 3) : sProp 𝕄)
      ⊢ iprop((rPt c 3 (land m c 3) -∗ wp frame (wpE (defs₀ (F := F)) 𝒱₀ (c : Thread nD τ) none) Set.univ (kk (snd3 m (peer c))) Q)
        -∗ wp frame (wpE (defs₀ (F := F)) 𝒱₀ (c : Thread nD τ) none) Set.univ (.op (.load rM R3.toLoadRect hl) kk) Q) := by
  have h := wp_load_rect (defs := defs₀ (F := F)) 𝒱₀ (c : Thread nD τ) none (Γ := .empty) Set.univ (m := (rM : Memref sig .tc .vmem S256x256 .bf16)) (r := R3) (hl := hl) (k := kk)
    (S := (rB3 : Memref sig .tc .vmem S64x256 .bf16).view.set) (q := fullShare) (f := land m c 3) (Q := Q) subset_rfl
  rw [read_land3] at h
  exact h

theorem wp_send_band0 {α : Type} {Q : α → sProp 𝕄} (c : Dev nD) (K : Dev nD × Fin 9 → ℕ) (n : Dev nD) (hn : n = peer c)
    {hsc : (rB0 : Memref sig (Dev.tc n : Thread nD τ).2.kind .vmem S64x256 .bf16).view.ref.isScScratch = false}
    {hsrc : sB0.view.WordExact} {hdst : rB0.view.WordExact}
    {hsem : DmaTarget.Typed .vmem (.dma rS0.sem) (.remote (Dev.tc n : Thread nD τ) rB0 (.dma sS0.sem) hsc)}
    {kk : PUnit → Prog (TpuEff nD τ sig (Elt F) Λ₀ .tc) α}
    (fd : Buf (Elt F) ((peer c : Thread nD τ).loc cc0_scratch1)) (O : CellTallies nD τ sig Unit) (W : Waits sig Unit) :
    iprop(cellInv ER (sched m) (K (c, 1)) (sendCell c 0) ∗ cellInv ER (sched m) (K (peer c, 5)) (recvCell (peer c) 0)
        ∗ sPt c 0 (sent m c 0) ∗ rPt (peer c) 0 fd
        ∗ owes (c : Thread nD τ) (O + tallyAt (recvCell (peer c) 0) () N) W
        ∗ dutyTok ER (sendCell c 0) 0 () ∗ reached ER (sendCell c 0) 0
        ∗ dutyTok ER (recvCell (peer c) 0) 0 () ∗ reached ER (recvCell (peer c) 0) 0)
      ⊢ iprop(((cred (tallyAt (sendCell c 0) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sB0 (.remote (Dev.tc n : Thread nD τ) rB0 (.dma sS0.sem) hsc) (.dma rS0.sem) hsrc hdst hsem) kk) Q) := by
  subst hn
  exact Rounds.wp_send_pointsTo (defs := defs₀ (F := F)) 𝒱₀ ER (sched m) (c : Thread nD τ) none (Γ := .empty)
    (c' := (Dev.tc (peer c) : Thread nD τ)) (src := (sB0 : Memref sig .tc .vmem S64x256 .bf16)) (dst := (rB0 : Memref sig .tc .vmem S64x256 .bf16)) (hsc := hsc)
    (sS := .dma sS0.sem) (sem := .dma rS0.sem) (hsrc := hsrc) (hdst := hdst) (hsem := hsem) (k := kk) (q := fullShare)
    (fs := sent m c 0) (fd := fd) (κ₁ := K (c, 1)) (κ₂ := K (peer c, 5)) (r₁ := 0) (r₂ := 0) (d₁ := ()) (d₂ := ())
    (show () ∈ (sched m).duties (kcell (c, 1)) 0 by rw [duties_cell]; exact Finset.mem_singleton_self _)
    (show () ∈ (sched m).duties (kcell (peer c, 5)) 0 by rw [duties_cell]; exact Finset.mem_singleton_self _)
    () () N rfl (amount_xfer m c 1 (by decide) ()) (amount_xfer m (peer c) 5 (by decide) ()) O rfl (W := W) (Q := Q)
    (Entails.of_eq (payload_send m c 0 ()).symm)
    (Entails.of_eq ((landed0 m c fd).trans (payload_recv m (peer c) 0 ()).symm))

theorem wp_send_band1 {α : Type} {Q : α → sProp 𝕄} (c : Dev nD) (K : Dev nD × Fin 9 → ℕ) (n : Dev nD) (hn : n = peer c)
    {hsc : (rB1 : Memref sig (Dev.tc n : Thread nD τ).2.kind .vmem S64x256 .bf16).view.ref.isScScratch = false}
    {hsrc : sB1.view.WordExact} {hdst : rB1.view.WordExact}
    {hsem : DmaTarget.Typed .vmem (.dma rS1.sem) (.remote (Dev.tc n : Thread nD τ) rB1 (.dma sS1.sem) hsc)}
    {kk : PUnit → Prog (TpuEff nD τ sig (Elt F) Λ₀ .tc) α}
    (fd : Buf (Elt F) ((peer c : Thread nD τ).loc cc0_scratch1)) (O : CellTallies nD τ sig Unit) (W : Waits sig Unit) :
    iprop(cellInv ER (sched m) (K (c, 2)) (sendCell c 1) ∗ cellInv ER (sched m) (K (peer c, 6)) (recvCell (peer c) 1)
        ∗ sPt c 1 (sent m c 1) ∗ rPt (peer c) 1 fd
        ∗ owes (c : Thread nD τ) (O + tallyAt (recvCell (peer c) 1) () N) W
        ∗ dutyTok ER (sendCell c 1) 0 () ∗ reached ER (sendCell c 1) 0
        ∗ dutyTok ER (recvCell (peer c) 1) 0 () ∗ reached ER (recvCell (peer c) 1) 0)
      ⊢ iprop(((cred (tallyAt (sendCell c 1) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sB1 (.remote (Dev.tc n : Thread nD τ) rB1 (.dma sS1.sem) hsc) (.dma rS1.sem) hsrc hdst hsem) kk) Q) := by
  subst hn
  exact Rounds.wp_send_pointsTo (defs := defs₀ (F := F)) 𝒱₀ ER (sched m) (c : Thread nD τ) none (Γ := .empty)
    (c' := (Dev.tc (peer c) : Thread nD τ)) (src := (sB1 : Memref sig .tc .vmem S64x256 .bf16)) (dst := (rB1 : Memref sig .tc .vmem S64x256 .bf16)) (hsc := hsc)
    (sS := .dma sS1.sem) (sem := .dma rS1.sem) (hsrc := hsrc) (hdst := hdst) (hsem := hsem) (k := kk) (q := fullShare)
    (fs := sent m c 1) (fd := fd) (κ₁ := K (c, 2)) (κ₂ := K (peer c, 6)) (r₁ := 0) (r₂ := 0) (d₁ := ()) (d₂ := ())
    (show () ∈ (sched m).duties (kcell (c, 2)) 0 by rw [duties_cell]; exact Finset.mem_singleton_self _)
    (show () ∈ (sched m).duties (kcell (peer c, 6)) 0 by rw [duties_cell]; exact Finset.mem_singleton_self _)
    () () N rfl (amount_xfer m c 2 (by decide) ()) (amount_xfer m (peer c) 6 (by decide) ()) O rfl (W := W) (Q := Q)
    (Entails.of_eq (payload_send m c 1 ()).symm)
    (Entails.of_eq ((landed1 m c fd).trans (payload_recv m (peer c) 1 ()).symm))

theorem wp_send_band2 {α : Type} {Q : α → sProp 𝕄} (c : Dev nD) (K : Dev nD × Fin 9 → ℕ) (n : Dev nD) (hn : n = peer c)
    {hsc : (rB2 : Memref sig (Dev.tc n : Thread nD τ).2.kind .vmem S64x256 .bf16).view.ref.isScScratch = false}
    {hsrc : sB2.view.WordExact} {hdst : rB2.view.WordExact}
    {hsem : DmaTarget.Typed .vmem (.dma rS2.sem) (.remote (Dev.tc n : Thread nD τ) rB2 (.dma sS2.sem) hsc)}
    {kk : PUnit → Prog (TpuEff nD τ sig (Elt F) Λ₀ .tc) α}
    (fd : Buf (Elt F) ((peer c : Thread nD τ).loc cc0_scratch1)) (O : CellTallies nD τ sig Unit) (W : Waits sig Unit) :
    iprop(cellInv ER (sched m) (K (c, 3)) (sendCell c 2) ∗ cellInv ER (sched m) (K (peer c, 7)) (recvCell (peer c) 2)
        ∗ sPt c 2 (sent m c 2) ∗ rPt (peer c) 2 fd
        ∗ owes (c : Thread nD τ) (O + tallyAt (recvCell (peer c) 2) () N) W
        ∗ dutyTok ER (sendCell c 2) 0 () ∗ reached ER (sendCell c 2) 0
        ∗ dutyTok ER (recvCell (peer c) 2) 0 () ∗ reached ER (recvCell (peer c) 2) 0)
      ⊢ iprop(((cred (tallyAt (sendCell c 2) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sB2 (.remote (Dev.tc n : Thread nD τ) rB2 (.dma sS2.sem) hsc) (.dma rS2.sem) hsrc hdst hsem) kk) Q) := by
  subst hn
  exact Rounds.wp_send_pointsTo (defs := defs₀ (F := F)) 𝒱₀ ER (sched m) (c : Thread nD τ) none (Γ := .empty)
    (c' := (Dev.tc (peer c) : Thread nD τ)) (src := (sB2 : Memref sig .tc .vmem S64x256 .bf16)) (dst := (rB2 : Memref sig .tc .vmem S64x256 .bf16)) (hsc := hsc)
    (sS := .dma sS2.sem) (sem := .dma rS2.sem) (hsrc := hsrc) (hdst := hdst) (hsem := hsem) (k := kk) (q := fullShare)
    (fs := sent m c 2) (fd := fd) (κ₁ := K (c, 3)) (κ₂ := K (peer c, 7)) (r₁ := 0) (r₂ := 0) (d₁ := ()) (d₂ := ())
    (show () ∈ (sched m).duties (kcell (c, 3)) 0 by rw [duties_cell]; exact Finset.mem_singleton_self _)
    (show () ∈ (sched m).duties (kcell (peer c, 7)) 0 by rw [duties_cell]; exact Finset.mem_singleton_self _)
    () () N rfl (amount_xfer m c 3 (by decide) ()) (amount_xfer m (peer c) 7 (by decide) ()) O rfl (W := W) (Q := Q)
    (Entails.of_eq (payload_send m c 2 ()).symm)
    (Entails.of_eq ((landed2 m c fd).trans (payload_recv m (peer c) 2 ()).symm))

theorem wp_send_band3 {α : Type} {Q : α → sProp 𝕄} (c : Dev nD) (K : Dev nD × Fin 9 → ℕ) (n : Dev nD) (hn : n = peer c)
    {hsc : (rB3 : Memref sig (Dev.tc n : Thread nD τ).2.kind .vmem S64x256 .bf16).view.ref.isScScratch = false}
    {hsrc : sB3.view.WordExact} {hdst : rB3.view.WordExact}
    {hsem : DmaTarget.Typed .vmem (.dma rS3.sem) (.remote (Dev.tc n : Thread nD τ) rB3 (.dma sS3.sem) hsc)}
    {kk : PUnit → Prog (TpuEff nD τ sig (Elt F) Λ₀ .tc) α}
    (fd : Buf (Elt F) ((peer c : Thread nD τ).loc cc0_scratch1)) (O : CellTallies nD τ sig Unit) (W : Waits sig Unit) :
    iprop(cellInv ER (sched m) (K (c, 4)) (sendCell c 3) ∗ cellInv ER (sched m) (K (peer c, 8)) (recvCell (peer c) 3)
        ∗ sPt c 3 (sent m c 3) ∗ rPt (peer c) 3 fd
        ∗ owes (c : Thread nD τ) (O + tallyAt (recvCell (peer c) 3) () N) W
        ∗ dutyTok ER (sendCell c 3) 0 () ∗ reached ER (sendCell c 3) 0
        ∗ dutyTok ER (recvCell (peer c) 3) 0 () ∗ reached ER (recvCell (peer c) 3) 0)
      ⊢ iprop(((cred (tallyAt (sendCell c 3) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sB3 (.remote (Dev.tc n : Thread nD τ) rB3 (.dma sS3.sem) hsc) (.dma rS3.sem) hsrc hdst hsem) kk) Q) := by
  subst hn
  exact Rounds.wp_send_pointsTo (defs := defs₀ (F := F)) 𝒱₀ ER (sched m) (c : Thread nD τ) none (Γ := .empty)
    (c' := (Dev.tc (peer c) : Thread nD τ)) (src := (sB3 : Memref sig .tc .vmem S64x256 .bf16)) (dst := (rB3 : Memref sig .tc .vmem S64x256 .bf16)) (hsc := hsc)
    (sS := .dma sS3.sem) (sem := .dma rS3.sem) (hsrc := hsrc) (hdst := hdst) (hsem := hsem) (k := kk) (q := fullShare)
    (fs := sent m c 3) (fd := fd) (κ₁ := K (c, 4)) (κ₂ := K (peer c, 8)) (r₁ := 0) (r₂ := 0) (d₁ := ()) (d₂ := ())
    (show () ∈ (sched m).duties (kcell (c, 4)) 0 by rw [duties_cell]; exact Finset.mem_singleton_self _)
    (show () ∈ (sched m).duties (kcell (peer c, 8)) 0 by rw [duties_cell]; exact Finset.mem_singleton_self _)
    () () N rfl (amount_xfer m c 4 (by decide) ()) (amount_xfer m (peer c) 8 (by decide) ()) O rfl (W := W) (Q := Q)
    (Entails.of_eq (payload_send m c 3 ()).symm)
    (Entails.of_eq ((landed3 m c fd).trans (payload_recv m (peer c) 3 ()).symm))

end Rules

/-! ## None of the rules rests on anything but the three standard axioms -/

/-- info: 'Cert.KernelIdeal.RS.s_split' depends on axioms: [propext, Classical.choice, Quot.sound] -/
#guard_msgs in #print axioms s_split

/-- info: 'Cert.KernelIdeal.RS.r_split' depends on axioms: [propext, Classical.choice, Quot.sound] -/
#guard_msgs in #print axioms r_split

/-- info: 'Cert.KernelIdeal.RS.s_join' depends on axioms: [propext, Classical.choice, Quot.sound] -/
#guard_msgs in #print axioms s_join

/-- info: 'Cert.KernelIdeal.RS.r_join' depends on axioms: [propext, Classical.choice, Quot.sound] -/
#guard_msgs in #print axioms r_join

/-- info: 'Cert.KernelIdeal.RS.wp_load_sband0' depends on axioms: [propext, Classical.choice, Quot.sound] -/
#guard_msgs in #print axioms wp_load_sband0

/-- info: 'Cert.KernelIdeal.RS.wp_load_sband1' depends on axioms: [propext, Classical.choice, Quot.sound] -/
#guard_msgs in #print axioms wp_load_sband1

/-- info: 'Cert.KernelIdeal.RS.wp_load_sband2' depends on axioms: [propext, Classical.choice, Quot.sound] -/
#guard_msgs in #print axioms wp_load_sband2

/-- info: 'Cert.KernelIdeal.RS.wp_load_sband3' depends on axioms: [propext, Classical.choice, Quot.sound] -/
#guard_msgs in #print axioms wp_load_sband3

/-- info: 'Cert.KernelIdeal.RS.wp_store_sband0' depends on axioms: [propext, Classical.choice, Quot.sound] -/
#guard_msgs in #print axioms wp_store_sband0

/-- info: 'Cert.KernelIdeal.RS.wp_store_sband1' depends on axioms: [propext, Classical.choice, Quot.sound] -/
#guard_msgs in #print axioms wp_store_sband1

/-- info: 'Cert.KernelIdeal.RS.wp_store_sband2' depends on axioms: [propext, Classical.choice, Quot.sound] -/
#guard_msgs in #print axioms wp_store_sband2

/-- info: 'Cert.KernelIdeal.RS.wp_store_sband3' depends on axioms: [propext, Classical.choice, Quot.sound] -/
#guard_msgs in #print axioms wp_store_sband3

/-- info: 'Cert.KernelIdeal.RS.wp_load_rband0' depends on axioms: [propext, Classical.choice, Quot.sound] -/
#guard_msgs in #print axioms wp_load_rband0

/-- info: 'Cert.KernelIdeal.RS.wp_load_rband1' depends on axioms: [propext, Classical.choice, Quot.sound] -/
#guard_msgs in #print axioms wp_load_rband1

/-- info: 'Cert.KernelIdeal.RS.wp_load_rband2' depends on axioms: [propext, Classical.choice, Quot.sound] -/
#guard_msgs in #print axioms wp_load_rband2

/-- info: 'Cert.KernelIdeal.RS.wp_load_rband3' depends on axioms: [propext, Classical.choice, Quot.sound] -/
#guard_msgs in #print axioms wp_load_rband3

/-- info: 'Cert.KernelIdeal.RS.wp_send_band0' depends on axioms: [propext, Classical.choice, Quot.sound] -/
#guard_msgs in #print axioms wp_send_band0

/-- info: 'Cert.KernelIdeal.RS.wp_send_band1' depends on axioms: [propext, Classical.choice, Quot.sound] -/
#guard_msgs in #print axioms wp_send_band1

/-- info: 'Cert.KernelIdeal.RS.wp_send_band2' depends on axioms: [propext, Classical.choice, Quot.sound] -/
#guard_msgs in #print axioms wp_send_band2

/-- info: 'Cert.KernelIdeal.RS.wp_send_band3' depends on axioms: [propext, Classical.choice, Quot.sound] -/
#guard_msgs in #print axioms wp_send_band3

end Cert.KernelIdeal.RS

end
-- ==== Proof.KernelIdealRS.Body.lean ====
/-
  One device's body, run from what the launch hands it to what it gives back.

  In program order: the entry signal to the peer, with which the device hands over its landing buffer cut into its four
  row bands; chunk 0 rounded into band 0 of the staging buffer; the wait for the peer's entry signal, which brings the
  peer's landing buffer band by band; then, chunk by chunk, the transfer of band `k` into the peer's band `k` and the
  rounding of the next chunk; then, band by band, the wait for the peer's chunk to land, its sum with the device's own
  half of the slab, and the store of the rounded sum into the result; last the four waits that bring the staging
  buffer's bands back. The eight own cells are closed, the two buffers put together again from their bands, and the
  four stores of the result read as the result block.
-/
import proofs.«901034_g7700000000001035_dist_rs_v7x_xyz2x2x4_x_m256_n256_bf16_1_alg».proof.Proof.KernelIdealRS.Bands
import Idealize.ShloMosaic.Lib.Tactic

noncomputable section

namespace Cert.KernelIdeal.RS

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- What device `c` reads off the common records: the invariants of its own nine cells and of the five of its peer's
    it pays into, and their first rounds reached. -/
theorem records_at (K : Dev nD × Fin 9 → ℕ) (c : Dev nD) :
    records m K ⊢ (iprop(cellInv ER (sched m) (K (c, 0)) (kcell (c, 0))
      ∗ cellInv ER (sched m) (K (c, 1)) (kcell (c, 1))
      ∗ cellInv ER (sched m) (K (c, 2)) (kcell (c, 2))
      ∗ cellInv ER (sched m) (K (c, 3)) (kcell (c, 3))
      ∗ cellInv ER (sched m) (K (c, 4)) (kcell (c, 4))
      ∗ cellInv ER (sched m) (K (c, 5)) (kcell (c, 5))
      ∗ cellInv ER (sched m) (K (c, 6)) (kcell (c, 6))
      ∗ cellInv ER (sched m) (K (c, 7)) (kcell (c, 7))
      ∗ cellInv ER (sched m) (K (c, 8)) (kcell (c, 8))
      ∗ cellInv ER (sched m) (K (peer c, 0)) (kcell (peer c, 0))
      ∗ cellInv ER (sched m) (K (peer c, 5)) (kcell (peer c, 5))
      ∗ cellInv ER (sched m) (K (peer c, 6)) (kcell (peer c, 6))
      ∗ cellInv ER (sched m) (K (peer c, 7)) (kcell (peer c, 7))
      ∗ cellInv ER (sched m) (K (peer c, 8)) (kcell (peer c, 8))
      ∗ reached ER (kcell (c, 0)) 0
      ∗ reached ER (kcell (c, 1)) 0
      ∗ reached ER (kcell (c, 2)) 0
      ∗ reached ER (kcell (c, 3)) 0
      ∗ reached ER (kcell (c, 4)) 0
      ∗ reached ER (kcell (c, 5)) 0
      ∗ reached ER (kcell (c, 6)) 0
      ∗ reached ER (kcell (c, 7)) 0
      ∗ reached ER (kcell (c, 8)) 0
      ∗ reached ER (kcell (peer c, 0)) 0
      ∗ reached ER (kcell (peer c, 5)) 0
      ∗ reached ER (kcell (peer c, 6)) 0
      ∗ reached ER (kcell (peer c, 7)) 0
      ∗ reached ER (kcell (peer c, 8)) 0) : sProp 𝕄) := by
  unfold records
  iintro ⟨#HI, #HR⟩
  isplitr; · iapply (inv_at m K (c, 0)); iexact HI
  isplitr; · iapply (inv_at m K (c, 1)); iexact HI
  isplitr; · iapply (inv_at m K (c, 2)); iexact HI
  isplitr; · iapply (inv_at m K (c, 3)); iexact HI
  isplitr; · iapply (inv_at m K (c, 4)); iexact HI
  isplitr; · iapply (inv_at m K (c, 5)); iexact HI
  isplitr; · iapply (inv_at m K (c, 6)); iexact HI
  isplitr; · iapply (inv_at m K (c, 7)); iexact HI
  isplitr; · iapply (inv_at m K (c, 8)); iexact HI
  isplitr; · iapply (inv_at m K (peer c, 0)); iexact HI
  isplitr; · iapply (inv_at m K (peer c, 5)); iexact HI
  isplitr; · iapply (inv_at m K (peer c, 6)); iexact HI
  isplitr; · iapply (inv_at m K (peer c, 7)); iexact HI
  isplitr; · iapply (inv_at m K (peer c, 8)); iexact HI
  isplitr; · iapply (reached_at (F := F) (c, 0)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitr; · iapply (reached_at (F := F) (c, 5)); iexact HR
  isplitr; · iapply (reached_at (F := F) (c, 6)); iexact HR
  isplitr; · iapply (reached_at (F := F) (c, 7)); iexact HR
  isplitr; · iapply (reached_at (F := F) (c, 8)); iexact HR
  isplitr; · iapply (reached_at (F := F) (peer c, 0)); iexact HR
  isplitr; · iapply (reached_at (F := F) (peer c, 5)); iexact HR
  isplitr; · iapply (reached_at (F := F) (peer c, 6)); iexact HR
  isplitr; · iapply (reached_at (F := F) (peer c, 7)); iexact HR
  iapply (reached_at (F := F) (peer c, 8)); iexact HR

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The rest of a cell's one round, nothing of it taken, is its one duty's payload. -/
theorem rest_bar (c : Dev nD) : bigSep ((sched (F := F) m).duties (barCell c) 0 \ ∅) (fun d => (sched (F := F) m).payload (barCell c) 0 d) = barPay c := by
  rw [Finset.sdiff_empty, duties_cell, bigSep_singleton, payload_bar]
theorem rest_send (c : Dev nD) (k : Fin 4) :
    bigSep ((sched (F := F) m).duties (sendCell c k) 0 \ ∅) (fun d => (sched (F := F) m).payload (sendCell c k) 0 d) = sPt c k (sent m c k) := by
  rw [Finset.sdiff_empty, duties_cell, bigSep_singleton, payload_send]
theorem rest_recv (c : Dev nD) (k : Fin 4) :
    bigSep ((sched (F := F) m).duties (recvCell c k) 0 \ ∅) (fun d => (sched (F := F) m).payload (recvCell c k) 0 d) = rPt c k (land m c k) := by
  rw [Finset.sdiff_empty, duties_cell, bigSep_singleton, payload_recv]

theorem mayWait_bar' (c : Dev nD) :
    (levAts L lv : sProp 𝕄) ⊢ MayWait (c : Thread nD τ) (.reg barS) () (tallyAt (recvCell (peer c) 3) () N + tallyAt (recvCell (peer c) 2) () N + tallyAt (recvCell (peer c) 1) () N + tallyAt (recvCell (peer c) 0) () N) := by
  have h := mayWait_bar (F := F) c; unfold O₁ at h; exact h

/-- The four stores of the result, over whatever the staging buffer held, leave the four chunks one under the other. -/
theorem out_final (c : Dev nD) (g : (cc0_stg1_0 : Ref sig .tc).ty.Contents (Elt F)) :
    ((oM : Memref sig .tc .vmem S256x256 .bf16).access R3).write (Elt F)
      (((oM : Memref sig .tc .vmem S256x256 .bf16).access R2).write (Elt F)
        (((oM : Memref sig .tc .vmem S256x256 .bf16).access R1).write (Elt F)
          (((oM : Memref sig .tc .vmem S256x256 .bf16).access R0).write (Elt F) g (out0 m c) Finset.univ)
          (out1 m c) Finset.univ)
        (out2 m c) Finset.univ)
      (out3 m c) Finset.univ = outAt m c :=
  View.read_writes_eq_canon (oM : Memref sig .tc .vmem S256x256 .bf16).view g (outPieces m c) (out_cover m c)

/-- Owing nothing, whatever has been waited on, is what the pipeline asks after the point. -/
theorem owesAt_intro (c : Dev nD) (W' : Waits sig Unit) :
    (owes (c : Thread nD τ) 0 W' : sProp 𝕄) ⊢ (dats m 0 c).owesAt () t₀.succ := by
  unfold Dat.owesAt Pipeline.owesWithin
  rw [show (dats m 0 c).owed t₀.succ = 0 from rfl]
  iintro HO
  iexists W'
  isplitr; · ipureintro; exact fun _ _ => Or.inl trivial
  iexact HO

theorem owes_zero_add (t : Thread nD τ) (T : CellTallies nD τ sig Unit) (W : Waits sig Unit) :
    (owes t T W : sProp 𝕄) = owes t (0 + T) W := by rw [zero_add]

set_option maxHeartbeats 4000000 in
theorem sound_body (c : Dev nD) :
    bodyPre m c ⊢ wp frame (wpE (defs₀ (F := F)) 𝒱₀ c none) Set.univ (theBody (F := F)) (fun _ => bodyPost m c) := by
  unfold theBody
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold bodyPre Φ₀ start ghost positions payToks creds scratch
  rw [bigSep_fin9]
  iintro ⟨⟨⟨⟨%K, Hrec, ⟨HaB, HaS0, HaS1, HaS2, HaS3, HaR0, HaR1, HaR2, HaR3⟩, HtB, HtR0, HtR1, HtR2, HtR3, HtS0, HtS1, HtS2, HtS3⟩, ⟨HcB, HcR0, HcR1, HcR2, HcR3⟩, #Hlev⟩, ⟨%fs, Hs⟩, ⟨%fr, Hr⟩⟩,
    Ho, ⟨%d0, %g0, %hg0, Hx⟩, ⟨%d1, %g1, %hg1, Hout⟩⟩
  ihave Hall := (records_at m K c) $$ Hrec
  icases Hall with ⟨#HIB, #HIS0, #HIS1, #HIS2, #HIS3, #HIR0, #HIR1, #HIR2, #HIR3, #HIpB, #HIpR0, #HIpR1, #HIpR2, #HIpR3, #HrB, #HrS0, #HrS1, #HrS2, #HrS3, #HrR0, #HrR1, #HrR2, #HrR3, #HrpB, #HrpR0, #HrpR1, #HrpR2, #HrpR3⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀ O₁
  ihave Hs4 := (s_split c fs) $$ Hs
  icases Hs4 with ⟨Hs0, Hs1, Hs2, Hs3⟩
  ihave Hr4 := (r_split c fr) $$ Hr
  icases Hr4 with ⟨Hr0, Hr1, Hr2, Hr3⟩
  simp only [dev1_eq c]
  -- the entry signal to the peer: with it go the four bands of the landing buffer
  iapply (Rounds.wp_signal 𝒱₀ ER (sched m) (c : Thread nD τ) none (dst := (peer c : Thread nD τ)) (κ := K (peer c, 0)) (d := ())
      (show () ∈ (sched m).duties (barCell (peer c)) 0 from by rw [duties_cell]; exact Finset.mem_singleton_self _)
      ((amount_bar m (peer c) ()).trans (by decide)) () (tallyAt (recvCell (peer c) 3) () N + tallyAt (recvCell (peer c) 2) () N + tallyAt (recvCell (peer c) 1) () N + tallyAt (recvCell (peer c) 0) () N) rfl)
    $$ [HO HtB Hr0 Hr1 Hr2 Hr3]
  · isplitr; · iexact HIpB
    isplitl [HO]; · iexact HO
    isplitl [HtB]; · iexact HtB
    isplitl [Hr0 Hr1 Hr2 Hr3]
    · iapply (Entails.of_eq (payload_bar m (peer c) ()).symm)
      unfold barPay; rw [peer_peer]
      isplitl [Hr0]; · iexists fr; iexact Hr0
      isplitl [Hr1]; · iexists fr; iexact Hr1
      isplitl [Hr2]; · iexists fr; iexact Hr2
      iexists fr; iexact Hr3
    · iexact HrpB
  iintro HO
  iapply (wp_load 𝒱₀ (c : Thread nD τ) none Set.univ (m := xM) (Finset.subset_univ _)) $$ Hx; iintro Hx
  iapply (wp_load_sband0 c fs) $$ Hs0; iintro Hs0
  iapply (wp_store_sband0 c _ fs) $$ Hs0; iintro Hs0
  -- the wait for the peer's entry signal, while the four transfers are still owed: the peer's landing buffer comes with it
  iapply (Rounds.wp_wait_rest_token 𝒱₀ ER (sched m) (c : Thread nD τ) none (κ := K (c, 0))
      (wpE_semWait_eq 𝒱₀ (c : Thread nD τ) none Set.univ) (Set.mem_univ _) () (O := tallyAt (recvCell (peer c) 3) () N + tallyAt (recvCell (peer c) 2) () N + tallyAt (recvCell (peer c) 1) () N + tallyAt (recvCell (peer c) 0) () N) (W := W) (R := 0) (m := 0) (T := ∅)
      (show 0 + (1#32).toNat = (sched m).expect (barCell c) 0 from by rw [expect_bar]; decide)) $$ [HcB HO HaB]
  · isplitr; · iexact HIB
    isplitl [HcB]; · iexact HcB
    isplitl [HO]; · iexact HO
    isplitr; · iapply (mayWait_bar' c); iexact Hlev
    iexact HaB
  iintro ⟨HO, HaB, -, Hpay⟩
  ihave Hp := (Entails.of_eq (rest_bar m c)) $$ Hpay
  unfold barPay
  icases Hp with ⟨⟨%fp0, Hp0⟩, ⟨%fp1, Hp1⟩, ⟨%fp2, Hp2⟩, ⟨%fp3, Hp3⟩⟩
  -- transfer 0: band 0 of the staging buffer into band 0 of the peer's landing buffer
  iapply (wp_send_band0 m c K _ (dev2_eq c) fp0 (tallyAt (recvCell (peer c) 3) () N + tallyAt (recvCell (peer c) 2) () N + tallyAt (recvCell (peer c) 1) () N) _) $$ [HO Hs0 Hp0 HtS0 HtR0]
  · isplitr; · iexact HIS0
    isplitr; · iexact HIpR0
    isplitl [Hs0]; · iexact Hs0
    isplitl [Hp0]; · iexact Hp0
    isplitl [HO]; · iexact HO
    isplitl [HtS0]; · iexact HtS0
    isplitr; · iexact HrS0
    isplitl [HtR0]; · iexact HtR0
    iexact HrpR0
  iintro ⟨HcS0, HO⟩
  iapply (wp_load 𝒱₀ (c : Thread nD τ) none Set.univ (m := xM) (Finset.subset_univ _)) $$ Hx; iintro Hx
  iapply (wp_load_sband1 c fs) $$ Hs1; iintro Hs1
  iapply (wp_store_sband1 c _ fs) $$ Hs1; iintro Hs1
  -- transfer 1: band 1 of the staging buffer into band 1 of the peer's landing buffer
  iapply (wp_send_band1 m c K _ (dev3_eq c) fp1 (tallyAt (recvCell (peer c) 3) () N + tallyAt (recvCell (peer c) 2) () N) _) $$ [HO Hs1 Hp1 HtS1 HtR1]
  · isplitr; · iexact HIS1
    isplitr; · iexact HIpR1
    isplitl [Hs1]; · iexact Hs1
    isplitl [Hp1]; · iexact Hp1
    isplitl [HO]; · iexact HO
    isplitl [HtS1]; · iexact HtS1
    isplitr; · iexact HrS1
    isplitl [HtR1]; · iexact HtR1
    iexact HrpR1
  iintro ⟨HcS1, HO⟩
  iapply (wp_load 𝒱₀ (c : Thread nD τ) none Set.univ (m := xM) (Finset.subset_univ _)) $$ Hx; iintro Hx
  iapply (wp_load_sband2 c fs) $$ Hs2; iintro Hs2
  iapply (wp_store_sband2 c _ fs) $$ Hs2; iintro Hs2
  -- transfer 2: band 2 of the staging buffer into band 2 of the peer's landing buffer
  iapply (wp_send_band2 m c K _ (dev4_eq c) fp2 (tallyAt (recvCell (peer c) 3) () N) _) $$ [HO Hs2 Hp2 HtS2 HtR2]
  · isplitr; · iexact HIS2
    isplitr; · iexact HIpR2
    isplitl [Hs2]; · iexact Hs2
    isplitl [Hp2]; · iexact Hp2
    isplitl [HO]; · iexact HO
    isplitl [HtS2]; · iexact HtS2
    isplitr; · iexact HrS2
    isplitl [HtR2]; · iexact HtR2
    iexact HrpR2
  iintro ⟨HcS2, HO⟩
  iapply (wp_load 𝒱₀ (c : Thread nD τ) none Set.univ (m := xM) (Finset.subset_univ _)) $$ Hx; iintro Hx
  iapply (wp_load_sband3 c fs) $$ Hs3; iintro Hs3
  iapply (wp_store_sband3 c _ fs) $$ Hs3; iintro Hs3
  ihave HO := (Entails.of_eq (owes_zero_add _ _ _)) $$ HO
  -- transfer 3: band 3 of the staging buffer into band 3 of the peer's landing buffer
  iapply (wp_send_band3 m c K _ (dev5_eq c) fp3 (0) _) $$ [HO Hs3 Hp3 HtS3 HtR3]
  · isplitr; · iexact HIS3
    isplitr; · iexact HIpR3
    isplitl [Hs3]; · iexact Hs3
    isplitl [Hp3]; · iexact Hp3
    isplitl [HO]; · iexact HO
    isplitl [HtS3]; · iexact HtS3
    isplitr; · iexact HrS3
    isplitl [HtR3]; · iexact HtR3
    iexact HrpR3
  iintro ⟨HcS3, HO⟩
  -- the wait on receive cell 0: its band of the landing buffer, holding the peer's chunk
  iapply (Rounds.wp_wait_rest_token 𝒱₀ ER (sched m) (c : Thread nD τ) none (κ := K (c, 5))
      (wpE_waitDma2_eq 𝒱₀ (c : Thread nD τ) none Set.univ) (Set.mem_univ _) () (O := 0) (W := _) (R := 0) (m := 0) (T := ∅)
      (by rw [Nat.zero_add, expect_xfer m c 5 (by decide)])) $$ [HcR0 HO HaR0]
  · isplitr; · iexact HIR0
    isplitl [HcR0]; · iexact HcR0
    isplitl [HO]; · iexact HO
    isplitr; · rw [MayWait_zero]; iempintro
    iexact HaR0
  iintro ⟨HO, HaR0, -, Hpay⟩
  ihave Hr0 := (Entails.of_eq (rest_recv m c 0)) $$ Hpay
  iapply (wp_load 𝒱₀ (c : Thread nD τ) none Set.univ (m := xM) (Finset.subset_univ _)) $$ Hx; iintro Hx
  iapply (wp_load_rband0 m c) $$ Hr0; iintro Hr0
  iapply (wp_load 𝒱₀ (c : Thread nD τ) none Set.univ (m := oM) (Finset.subset_univ _)) $$ Hout; iintro Hout
  iapply (wp_store 𝒱₀ (c : Thread nD τ) none Set.univ (m := oM) (r := R0) (Mk := Finset.univ) (Finset.subset_univ _)) $$ Hout; iintro Hout
  -- the wait on receive cell 1: its band of the landing buffer, holding the peer's chunk
  iapply (Rounds.wp_wait_rest_token 𝒱₀ ER (sched m) (c : Thread nD τ) none (κ := K (c, 6))
      (wpE_waitDma2_eq 𝒱₀ (c : Thread nD τ) none Set.univ) (Set.mem_univ _) () (O := 0) (W := _) (R := 0) (m := 0) (T := ∅)
      (by rw [Nat.zero_add, expect_xfer m c 6 (by decide)])) $$ [HcR1 HO HaR1]
  · isplitr; · iexact HIR1
    isplitl [HcR1]; · iexact HcR1
    isplitl [HO]; · iexact HO
    isplitr; · rw [MayWait_zero]; iempintro
    iexact HaR1
  iintro ⟨HO, HaR1, -, Hpay⟩
  ihave Hr1 := (Entails.of_eq (rest_recv m c 1)) $$ Hpay
  iapply (wp_load 𝒱₀ (c : Thread nD τ) none Set.univ (m := xM) (Finset.subset_univ _)) $$ Hx; iintro Hx
  iapply (wp_load_rband1 m c) $$ Hr1; iintro Hr1
  iapply (wp_load 𝒱₀ (c : Thread nD τ) none Set.univ (m := oM) (Finset.subset_univ _)) $$ Hout; iintro Hout
  iapply (wp_store 𝒱₀ (c : Thread nD τ) none Set.univ (m := oM) (r := R1) (Mk := Finset.univ) (Finset.subset_univ _)) $$ Hout; iintro Hout
  -- the wait on receive cell 2: its band of the landing buffer, holding the peer's chunk
  iapply (Rounds.wp_wait_rest_token 𝒱₀ ER (sched m) (c : Thread nD τ) none (κ := K (c, 7))
      (wpE_waitDma2_eq 𝒱₀ (c : Thread nD τ) none Set.univ) (Set.mem_univ _) () (O := 0) (W := _) (R := 0) (m := 0) (T := ∅)
      (by rw [Nat.zero_add, expect_xfer m c 7 (by decide)])) $$ [HcR2 HO HaR2]
  · isplitr; · iexact HIR2
    isplitl [HcR2]; · iexact HcR2
    isplitl [HO]; · iexact HO
    isplitr; · rw [MayWait_zero]; iempintro
    iexact HaR2
  iintro ⟨HO, HaR2, -, Hpay⟩
  ihave Hr2 := (Entails.of_eq (rest_recv m c 2)) $$ Hpay
  iapply (wp_load 𝒱₀ (c : Thread nD τ) none Set.univ (m := xM) (Finset.subset_univ _)) $$ Hx; iintro Hx
  iapply (wp_load_rband2 m c) $$ Hr2; iintro Hr2
  iapply (wp_load 𝒱₀ (c : Thread nD τ) none Set.univ (m := oM) (Finset.subset_univ _)) $$ Hout; iintro Hout
  iapply (wp_store 𝒱₀ (c : Thread nD τ) none Set.univ (m := oM) (r := R2) (Mk := Finset.univ) (Finset.subset_univ _)) $$ Hout; iintro Hout
  -- the wait on receive cell 3: its band of the landing buffer, holding the peer's chunk
  iapply (Rounds.wp_wait_rest_token 𝒱₀ ER (sched m) (c : Thread nD τ) none (κ := K (c, 8))
      (wpE_waitDma2_eq 𝒱₀ (c : Thread nD τ) none Set.univ) (Set.mem_univ _) () (O := 0) (W := _) (R := 0) (m := 0) (T := ∅)
      (by rw [Nat.zero_add, expect_xfer m c 8 (by decide)])) $$ [HcR3 HO HaR3]
  · isplitr; · iexact HIR3
    isplitl [HcR3]; · iexact HcR3
    isplitl [HO]; · iexact HO
    isplitr; · rw [MayWait_zero]; iempintro
    iexact HaR3
  iintro ⟨HO, HaR3, -, Hpay⟩
  ihave Hr3 := (Entails.of_eq (rest_recv m c 3)) $$ Hpay
  iapply (wp_load 𝒱₀ (c : Thread nD τ) none Set.univ (m := xM) (Finset.subset_univ _)) $$ Hx; iintro Hx
  iapply (wp_load_rband3 m c) $$ Hr3; iintro Hr3
  iapply (wp_load 𝒱₀ (c : Thread nD τ) none Set.univ (m := oM) (Finset.subset_univ _)) $$ Hout; iintro Hout
  iapply (wp_store 𝒱₀ (c : Thread nD τ) none Set.univ (m := oM) (r := R3) (Mk := Finset.univ) (Finset.subset_univ _)) $$ Hout; iintro Hout
  -- the wait on send cell 0: its band of the staging buffer back
  iapply (Rounds.wp_wait_rest_token 𝒱₀ ER (sched m) (c : Thread nD τ) none (κ := K (c, 1))
      (wpE_waitDma2_eq 𝒱₀ (c : Thread nD τ) none Set.univ) (Set.mem_univ _) () (O := 0) (W := _) (R := 0) (m := 0) (T := ∅)
      (by rw [Nat.zero_add, expect_xfer m c 1 (by decide)])) $$ [HcS0 HO HaS0]
  · isplitr; · iexact HIS0
    isplitl [HcS0]; · iexact HcS0
    isplitl [HO]; · iexact HO
    isplitr; · rw [MayWait_zero]; iempintro
    iexact HaS0
  iintro ⟨HO, HaS0, -, Hpay⟩
  ihave Hs0 := (Entails.of_eq (rest_send m c 0)) $$ Hpay
  -- the wait on send cell 1: its band of the staging buffer back
  iapply (Rounds.wp_wait_rest_token 𝒱₀ ER (sched m) (c : Thread nD τ) none (κ := K (c, 2))
      (wpE_waitDma2_eq 𝒱₀ (c : Thread nD τ) none Set.univ) (Set.mem_univ _) () (O := 0) (W := _) (R := 0) (m := 0) (T := ∅)
      (by rw [Nat.zero_add, expect_xfer m c 2 (by decide)])) $$ [HcS1 HO HaS1]
  · isplitr; · iexact HIS1
    isplitl [HcS1]; · iexact HcS1
    isplitl [HO]; · iexact HO
    isplitr; · rw [MayWait_zero]; iempintro
    iexact HaS1
  iintro ⟨HO, HaS1, -, Hpay⟩
  ihave Hs1 := (Entails.of_eq (rest_send m c 1)) $$ Hpay
  -- the wait on send cell 2: its band of the staging buffer back
  iapply (Rounds.wp_wait_rest_token 𝒱₀ ER (sched m) (c : Thread nD τ) none (κ := K (c, 3))
      (wpE_waitDma2_eq 𝒱₀ (c : Thread nD τ) none Set.univ) (Set.mem_univ _) () (O := 0) (W := _) (R := 0) (m := 0) (T := ∅)
      (by rw [Nat.zero_add, expect_xfer m c 3 (by decide)])) $$ [HcS2 HO HaS2]
  · isplitr; · iexact HIS2
    isplitl [HcS2]; · iexact HcS2
    isplitl [HO]; · iexact HO
    isplitr; · rw [MayWait_zero]; iempintro
    iexact HaS2
  iintro ⟨HO, HaS2, -, Hpay⟩
  ihave Hs2 := (Entails.of_eq (rest_send m c 2)) $$ Hpay
  -- the wait on send cell 3: its band of the staging buffer back
  iapply (Rounds.wp_wait_rest_token 𝒱₀ ER (sched m) (c : Thread nD τ) none (κ := K (c, 4))
      (wpE_waitDma2_eq 𝒱₀ (c : Thread nD τ) none Set.univ) (Set.mem_univ _) () (O := 0) (W := _) (R := 0) (m := 0) (T := ∅)
      (by rw [Nat.zero_add, expect_xfer m c 4 (by decide)])) $$ [HcS3 HO HaS3]
  · isplitr; · iexact HIS3
    isplitl [HcS3]; · iexact HcS3
    isplitl [HO]; · iexact HO
    isplitr; · rw [MayWait_zero]; iempintro
    iexact HaS3
  iintro ⟨HO, HaS3, -, Hpay⟩
  ihave Hs3 := (Entails.of_eq (rest_send m c 3)) $$ Hpay
  -- the eight own cells close: their counters at zero are the core's again
  imod (Rounds.cell_close ER (sched m) (Set.mem_univ (K (c, 1))) (fun h => h) (R := 0 + 1) (duties_later m (kcell (c, 1)))) $$ [HaS0] with HzS0
  · isplitr; · iexact HIS0
    iexact HaS0
  imod (Rounds.cell_close ER (sched m) (Set.mem_univ (K (c, 2))) (fun h => h) (R := 0 + 1) (duties_later m (kcell (c, 2)))) $$ [HaS1] with HzS1
  · isplitr; · iexact HIS1
    iexact HaS1
  imod (Rounds.cell_close ER (sched m) (Set.mem_univ (K (c, 3))) (fun h => h) (R := 0 + 1) (duties_later m (kcell (c, 3)))) $$ [HaS2] with HzS2
  · isplitr; · iexact HIS2
    iexact HaS2
  imod (Rounds.cell_close ER (sched m) (Set.mem_univ (K (c, 4))) (fun h => h) (R := 0 + 1) (duties_later m (kcell (c, 4)))) $$ [HaS3] with HzS3
  · isplitr; · iexact HIS3
    iexact HaS3
  imod (Rounds.cell_close ER (sched m) (Set.mem_univ (K (c, 5))) (fun h => h) (R := 0 + 1) (duties_later m (kcell (c, 5)))) $$ [HaR0] with HzR0
  · isplitr; · iexact HIR0
    iexact HaR0
  imod (Rounds.cell_close ER (sched m) (Set.mem_univ (K (c, 6))) (fun h => h) (R := 0 + 1) (duties_later m (kcell (c, 6)))) $$ [HaR1] with HzR1
  · isplitr; · iexact HIR1
    iexact HaR1
  imod (Rounds.cell_close ER (sched m) (Set.mem_univ (K (c, 7))) (fun h => h) (R := 0 + 1) (duties_later m (kcell (c, 7)))) $$ [HaR2] with HzR2
  · isplitr; · iexact HIR2
    iexact HaR2
  imod (Rounds.cell_close ER (sched m) (Set.mem_univ (K (c, 8))) (fun h => h) (R := 0 + 1) (duties_later m (kcell (c, 8)))) $$ [HaR3] with HzR3
  · isplitr; · iexact HIR3
    iexact HaR3
  rw [wp_ret]; imodintro
  unfold bodyPost Φ₁ scratch
  rw [bigSep_fin8]
  isplitl [Hs0 Hs1 Hs2 Hs3 Hr0 Hr1 Hr2 Hr3 HzS0 HzS1 HzS2 HzS3 HzR0 HzR1 HzR2 HzR3]
  · isplitl [Hs0 Hs1 Hs2 Hs3 Hr0 Hr1 Hr2 Hr3]
    · isplitl [Hs0 Hs1 Hs2 Hs3]
      · iapply (s_join c _ _ _ _)
        isplitl [Hs0]; · iexact Hs0
        isplitl [Hs1]; · iexact Hs1
        isplitl [Hs2]; · iexact Hs2
        iexact Hs3
      · iapply (r_join c _ _ _ _)
        isplitl [Hr0]; · iexact Hr0
        isplitl [Hr1]; · iexact Hr1
        isplitl [Hr2]; · iexact Hr2
        iexact Hr3
    · isplitl [HzS0]; · iexact HzS0
      isplitl [HzS1]; · iexact HzS1
      isplitl [HzS2]; · iexact HzS2
      isplitl [HzS3]; · iexact HzS3
      isplitl [HzR0]; · iexact HzR0
      isplitl [HzR1]; · iexact HzR1
      isplitl [HzR2]; · iexact HzR2
      iexact HzR3
  isplitl [HO]
  · iapply (owesAt_intro m c _)
    iexact HO
  isplitl [Hx]
  · iexists _; isplitr; · (ipureintro; rfl)
    iexact Hx
  iexists _; isplitr; · (ipureintro; exact out_final m c g1)
  iexact Hout

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  exact sound_body m c

/-- info: 'Cert.KernelIdeal.RS.body_obligation' depends on axioms: [propext, Classical.choice, Quot.sound] -/
#guard_msgs in #print axioms body_obligation

end Cert.KernelIdeal.RS

end
-- ==== Proof.KernelIdealRS.Run.lean ====
/-
  The run of the idealized program's sixteen devices: the launch, from every device's body.
-/
import proofs.«901034_g7700000000001035_dist_rs_v7x_xyz2x2x4_x_m256_n256_bf16_1_alg».proof.Proof.KernelIdealRS.Launch
import proofs.«901034_g7700000000001035_dist_rs_v7x_xyz2x2x4_x_m256_n256_bf16_1_alg».proof.Proof.KernelIdealRS.Body

noncomputable section

namespace Cert.KernelIdeal.RS

open Cert.KernelIdeal Cert.KernelIdeal.Gen
open Idealize.ShloMosaic Idealize.ShloMosaic.TcCoe Idealize.SL.Sem

variable {F : FTy → Type} [FloatOps F]

/-- From any memory with zero counters, every weakly fair execution of @main on the sixteen devices terminates, nothing
    faulting; every final state has each device's result array at `outAt` and its argument array unchanged. -/
theorem run_main (m : (ℓ : Loc nD τ sig) → Buf (Elt F) ℓ) (ρ : Dev nD → PrngReg) :
    θ_run (defs (F := F)) (onTc (τ := τ) (main (F := F))) ⟨m, fun _ => 0, ρ⟩
      (fun r => ∀ c : Dev nD, r.2.mem ((c : Thread nD τ).loc main_v1) = outAt m c
        ∧ r.2.mem ((c : Thread nD τ).loc main_arg0) = m ((c : Thread nD τ).loc main_arg0)) :=
  run_main_of m ρ (body_obligation m)

/-- info: 'Cert.KernelIdeal.RS.run_main' depends on axioms: [propext, Classical.choice, Quot.sound] -/
#guard_msgs in #print axioms run_main

end Cert.KernelIdeal.RS

end
-- ==== Proof.Value.lean ====
/-
  The value of the exchange at the ideal instance.

  Sixteen devices pair up along the first mesh axis; device `c` holds slab `c / 8` of `x : [2, 256, 512]`. Its result
  block `[256, 256]` is, row band by row band, its own half of its slab (columns `256 · (c / 8) …`) plus the same half of
  the peer's slab, which the peer rounded and sent; at the ideal instance rounding and widening are the identity, so each
  element is `x[c / 8, i, 256 · (c / 8) + j] + x[1 - c / 8, i, 256 · (c / 8) + j]`. The reference sums the two slabs and
  rounds: element `(i, J)` of its result is `0 + (x[0, i, J] + x[1, i, J])`. Device `c`'s block of that result (the array
  cut along its columns by the first mesh axis) at `(i, j)` is the element at `J = 256 · (c / 8) + j`: the same two
  extended reals, added in one order or the other. Addition of extended reals commutes, so no finiteness is needed.
-/
import proofs.«901034_g7700000000001035_dist_rs_v7x_xyz2x2x4_x_m256_n256_bf16_1_alg».proof.Proof.KernelIdealRS.Contents
import proofs.«901034_g7700000000001035_dist_rs_v7x_xyz2x2x4_x_m256_n256_bf16_1_alg».proof.Proof.Gen.ReferenceIdeal.Run
import proofs.«901034_g7700000000001035_dist_rs_v7x_xyz2x2x4_x_m256_n256_bf16_1_alg».proof.Proof.Gen.ReferenceIdeal.Read
import Idealize.ShloMosaic.Lib.Layout
import Idealize.ShloMosaic.Lib.ValueIdx
import Idealize.ShloMosaic.Lib.Pipeline.Value
import Idealize.ShloMosaic.PureOps.Ideal.Laws

noncomputable section

namespace Cert.RSValue

open Cert.KernelIdeal Cert.KernelIdeal.Gen Cert.KernelIdeal.RS
open Idealize.ShloMosaic Idealize.ShloMosaic.TcCoe Idealize.ShloMosaic.ValueIdx Idealize.SL.Sem

/-- The whole array the reference sums, as extended reals. -/
abbrev Whole : Type := (⟨Cert.ReferenceIdeal.S2x256x512, .f32⟩ : BufTy).Contents (Elt Ideal)

/-- An index of the whole array from its three coordinates. -/
abbrev wix (s : Fin 2) (i : Fin 256) (j : Fin 512) : Cert.ReferenceIdeal.S2x256x512.Idx := ix3 s i j

/-- The reference's result at an index: the two slabs' elements there, added. -/
theorem ref_apply (X : Whole) (i : Cert.ReferenceIdeal.S256x512.Idx) :
    Cert.ReferenceIdeal.Read.val_main_v1 (F := Ideal) X i
      = (show EReal from X (wix 0 ⟨(i 0).val, (i 0).isLt⟩ ⟨(i 1).val, (i 1).isLt⟩))
        + (show EReal from X (wix 1 ⟨(i 0).val, (i 0).isLt⟩ ⟨(i 1).val, (i 1).isLt⟩)) := by
  rw [Cert.ReferenceIdeal.Read.val_main_v1_apply, Cert.ReferenceIdeal.Read.val_main_v0_apply,
    Cert.ReferenceIdeal.Read.val_main_cst_apply]
  simp only [Ideal.truncf_def, Fin.sum_univ_two]
  rw [show (FloatOps.ofBits (F := Ideal) .f32 0x00000000#32) = (0 : EReal) from Ideal.ofBits_zero_f32, zero_add]
  congr 1
  · exact congrArg X (funext fun a => by match a with | ⟨0, _⟩ => rfl | ⟨1, _⟩ => rfl | ⟨2, _⟩ => rfl)
  · exact congrArg X (funext fun a => by match a with | ⟨0, _⟩ => rfl | ⟨1, _⟩ => rfl | ⟨2, _⟩ => rfl)

variable (m : (ℓ : Loc nD τ sig) → Buf (Elt Ideal) ℓ)

/-- The staged slab is the device's argument array. -/
theorem xstg_apply (c : Dev nD) (x : S1x256x512.Idx) :
    xstg m c x = m ((c : Thread nD τ).loc main_arg0) x := by
  unfold xstg
  exact congrFun (Memref.read_access_unit_zero (Elt Ideal) main_arg0 (by funext a; exact Nat.zero_mul _) _ _) x

/-- A load of a 64-row, 256-column chunk of the slab, at an index. -/
theorem chunk_apply (f : (cc0_stg0_0 : Ref sig .tc).ty.Contents (Elt Ideal)) (off : Fin 3 → Nat)
    (inb : ∀ a, off a + S1x64x256.size a ≤ S1x256x512.size a) (x : S1x64x256.Idx) (k : S1x256x512.Idx)
    (hk : ∀ a, (k a).val = off a + (x a).val) :
    (xM : Memref sig .tc .vmem S1x256x512 .f32).view.readAt (Elt Ideal) (Rect.unit (s := S1x256x512) off S1x64x256.size inb).toLoadRect f x = f k := by
  show f _ = f k
  refine congrArg f (funext fun a => Fin.ext ?_)
  rw [hk a]
  show off a + 1 * (x a).val = _
  omega

/-- Dropping the unit axis of a chunk and rounding it is, at the ideal instance, the chunk itself. -/
theorem drop_apply (v : Vec Ideal S1x64x256 .f32) (x : S64x256.Idx) :
    shapeCast S64x256 v shapeCasts_S1x64x256_S64x256 x = v (ix3 (0 : Fin 1) (x 0) (x 1)) := by
  refine shapeCast_apply v _ x _ ?_
  rw [Shape.rowMajor_val_three, Shape.rowMajor_val_two]
  show ((0 : Nat) * 64 + (x 0).val) * 256 + (x 1).val = (x 0).val * 256 + (x 1).val
  omega

/-- A chunk as it is sent: dropped to two axes and rounded, which at the ideal instance changes no element. -/
theorem pay1_apply (v : Vec Ideal S1x64x256 .f32) (x : S64x256.Idx) : k0_pay1 v x = v (ix3 (0 : Fin 1) (x 0) (x 1)) := by
  unfold k0_pay1
  rw [shapeCast_self, truncf_apply, drop_apply]
theorem pay2_apply (v : Vec Ideal S1x64x256 .f32) (x : S64x256.Idx) : k0_pay2 v x = v (ix3 (0 : Fin 1) (x 0) (x 1)) := by
  unfold k0_pay2
  rw [shapeCast_self, truncf_apply, drop_apply]
theorem pay34_apply (v : Vec Ideal S1x64x256 .f32) (x : S64x256.Idx) : k0_pay4 (k0_pay3 v) x = v (ix3 (0 : Fin 1) (x 0) (x 1)) := by
  unfold k0_pay4 k0_pay3
  rw [shapeCast_self, truncf_apply, drop_apply]
theorem pay5_apply (v : Vec Ideal S1x64x256 .f32) (x : S64x256.Idx) : k0_pay5 v x = v (ix3 (0 : Fin 1) (x 0) (x 1)) := by
  unfold k0_pay5
  rw [shapeCast_self, truncf_apply, drop_apply]

/-- A chunk of the result: the own chunk plus the landed one, the format changes being the identity. -/
theorem pay6_apply (v : Vec Ideal S1x64x256 .f32) (w : Vec Ideal S64x256 .bf16) (x : S64x256.Idx) :
    k0_pay6 v w x = (show EReal from v (ix3 (0 : Fin 1) (x 0) (x 1))) + (show EReal from w x) := by
  unfold k0_pay6
  rw [truncf_apply, addf_apply, extf_apply, drop_apply]
theorem pay7_apply (v : Vec Ideal S1x64x256 .f32) (w : Vec Ideal S64x256 .bf16) (x : S64x256.Idx) :
    k0_pay7 v w x = (show EReal from v (ix3 (0 : Fin 1) (x 0) (x 1))) + (show EReal from w x) := by
  unfold k0_pay7
  rw [truncf_apply, addf_apply, extf_apply, drop_apply]
theorem pay8_apply (v : Vec Ideal S1x64x256 .f32) (w : Vec Ideal S64x256 .bf16) (x : S64x256.Idx) :
    k0_pay8 v w x = (show EReal from v (ix3 (0 : Fin 1) (x 0) (x 1))) + (show EReal from w x) := by
  unfold k0_pay8
  rw [truncf_apply, addf_apply, extf_apply, drop_apply]
theorem pay9_apply (v : Vec Ideal S1x64x256 .f32) (w : Vec Ideal S64x256 .bf16) (x : S64x256.Idx) :
    k0_pay9 v w x = (show EReal from v (ix3 (0 : Fin 1) (x 0) (x 1))) + (show EReal from w x) := by
  unfold k0_pay9
  rw [truncf_apply, addf_apply, extf_apply, drop_apply]

/-! ## The devices' first mesh coordinate -/

theorem dev_cases (c : Dev nD) : c.val / 8 = 0 ∨ c.val / 8 = 1 := by revert c; decide
theorem peer_half (c : Dev nD) : (peer c).val / 8 = 1 - c.val / 8 := by revert c; decide
theorem meshLin_first (c : Dev nD) : Layout.meshLin [2, 2, 4] c.val [0] = c.val / 8 := by revert c; decide

/-- Equal coordinates name the same element of the whole array. -/
theorem wix_congr (X : Whole) {s s' i i' j j' : Nat} (hs : s < 2) (hs' : s' < 2) (hi : i < 256) (hi' : i' < 256)
    (hj : j < 512) (hj' : j' < 512) (es : s = s') (ei : i = i') (ej : j = j') :
    X (wix ⟨s, hs⟩ ⟨i, hi⟩ ⟨j, hj⟩) = X (wix ⟨s', hs'⟩ ⟨i', hi'⟩ ⟨j', hj'⟩) := by
  subst es ei ej; rfl

/-- The same, the slab numbers written as literals. -/
theorem ref_apply' (X : Whole) (i : Cert.ReferenceIdeal.S256x512.Idx) :
    Cert.ReferenceIdeal.Read.val_main_v1 (F := Ideal) X i
      = (show EReal from X (wix ⟨0, by decide⟩ ⟨(i 0).val, (i 0).isLt⟩ ⟨(i 1).val, (i 1).isLt⟩))
        + (show EReal from X (wix ⟨1, by decide⟩ ⟨(i 0).val, (i 0).isLt⟩ ⟨(i 1).val, (i 1).isLt⟩)) :=
  ref_apply X i

section Agree

variable (m' : (ℓ : Loc Cert.ReferenceIdeal.nD Cert.ReferenceIdeal.τ Cert.ReferenceIdeal.sig) → Buf (Elt Ideal) ℓ)

/-- The reference's argument array. -/
abbrev Xof : Whole :=
  m' (((0 : Dev Cert.ReferenceIdeal.nD).tc : Thread Cert.ReferenceIdeal.nD Cert.ReferenceIdeal.τ).loc Cert.ReferenceIdeal.main_arg0)

/-- Each device's argument array is its slab of the reference's. -/
abbrev Agrees : Prop :=
  ∀ c : Dev nD, m ((c.tc : Thread nD τ).loc main_arg0)
    = Layout.blockN ⟨3, ![1, 256, 512]⟩ ⟨3, ![2, 256, 512]⟩ (Layout.meshBlock [2, 2, 4] ![[0], [], []] c) (Xof m')

variable (hm : Agrees m m')
include hm

/-- Device `c`'s slab is slab `c / 8` of the whole array. -/
theorem slab_apply (c : Dev nD) (i : Fin 256) (j : Fin 512) (hs : c.val / 8 < 2) :
    m ((c : Thread nD τ).loc main_arg0) (ix3 (0 : Fin 1) i j) = Xof m' (wix ⟨c.val / 8, hs⟩ i j) := by
  rw [hm c]
  show Xof m' _ = Xof m' _
  refine congrArg (Xof m') (funext fun a => Fin.ext ?_)
  match a with
  | ⟨0, _⟩ =>
    show Layout.meshLin [2, 2, 4] c.val [0] * 1 + 0 = c.val / 8
    rw [meshLin_first]; omega
  | ⟨1, _⟩ =>
    show 0 * 256 + i.val = i.val
    omega
  | ⟨2, _⟩ =>
    show 0 * 512 + j.val = j.val
    omega

/-- Device `c`'s block of the reference's result, at an index. -/
theorem blk_apply (c : Dev nD) (y : S256x256.Idx) (h0 : (y 0).val < 256) (h1 : 256 * (c.val / 8) + (y 1).val < 512) :
    (Layout.blockN ⟨2, ![256, 256]⟩ ⟨2, ![256, 512]⟩ (Layout.meshBlock [2, 2, 4] ![[], [0]] c)
        (Cert.ReferenceIdeal.Read.val_main_v1 (F := Ideal) (Xof m'))) y
      = (show EReal from Xof m' (wix ⟨0, by decide⟩ ⟨(y 0).val, h0⟩ ⟨256 * (c.val / 8) + (y 1).val, h1⟩))
        + (show EReal from Xof m' (wix ⟨1, by decide⟩ ⟨(y 0).val, h0⟩ ⟨256 * (c.val / 8) + (y 1).val, h1⟩)) := by
  rw [Layout.blockN_apply, ref_apply']
  refine congrArg₂ (· + ·) (wix_congr _ _ _ _ _ _ _ rfl ?_ ?_) (wix_congr _ _ _ _ _ _ _ rfl ?_ ?_)
  · show 0 * 256 + (y 0).val = (y 0).val
    omega
  · show Layout.meshLin [2, 2, 4] c.val [0] * 256 + (y 1).val = 256 * (c.val / 8) + (y 1).val
    rw [meshLin_first]; omega
  · show 0 * 256 + (y 0).val = (y 0).val
    omega
  · show Layout.meshLin [2, 2, 4] c.val [0] * 256 + (y 1).val = 256 * (c.val / 8) + (y 1).val
    rw [meshLin_first]; omega

/-- One row band: the device's own half of its slab plus the half its peer rounded and sent is the band of the device's
    block of the two slabs' sum. -/
theorem band_apply (c : Dev nD) (r0 : Nat) (hr0 : r0 + 64 ≤ 256) (offA offB : Fin 3 → Nat)
    (inbA : ∀ a, offA a + S1x64x256.size a ≤ S1x256x512.size a) (inbB : ∀ a, offB a + S1x64x256.size a ≤ S1x256x512.size a)
    (hA : offA = ![0, r0, 256 * (c.val / 8)]) (hB : offB = ![0, r0, 256 - 256 * ((peer c).val / 8)])
    (x : S64x256.Idx) (y : S256x256.Idx) (hy0 : (y 0).val = r0 + 1 * (x 0).val) (hy1 : (y 1).val = 0 + 1 * (x 1).val) :
    (show EReal from (xM : Memref sig .tc .vmem S1x256x512 .f32).view.readAt (Elt Ideal)
        (Rect.unit (s := S1x256x512) offA S1x64x256.size inbA).toLoadRect (xstg m c) (ix3 (0 : Fin 1) (x 0) (x 1)))
      + (show EReal from (xM : Memref sig .tc .vmem S1x256x512 .f32).view.readAt (Elt Ideal)
        (Rect.unit (s := S1x256x512) offB S1x64x256.size inbB).toLoadRect (xstg m (peer c)) (ix3 (0 : Fin 1) (x 0) (x 1)))
      = (Layout.blockN ⟨2, ![256, 256]⟩ ⟨2, ![256, 512]⟩ (Layout.meshBlock [2, 2, 4] ![[], [0]] c)
          (Cert.ReferenceIdeal.Read.val_main_v1 (F := Ideal) (Xof m'))) y := by
  subst hA hB
  have hx0 : (x 0).val < 64 := idx2_lt0 x
  have hx1 : (x 1).val < 256 := idx2_lt1 x
  have hc := dev_cases c
  have hp := peer_half c
  have hpc := dev_cases (peer c)
  rw [chunk_apply (xstg m c) _ _ _ (ix3 (0 : Fin 1) (⟨r0 + (x 0).val, by omega⟩ : Fin 256) (⟨256 * (c.val / 8) + (x 1).val, by omega⟩ : Fin 512))
      (fun a => by match a with | ⟨0, _⟩ => rfl | ⟨1, _⟩ => rfl | ⟨2, _⟩ => rfl),
    chunk_apply (xstg m (peer c)) _ _ _ (ix3 (0 : Fin 1) (⟨r0 + (x 0).val, by omega⟩ : Fin 256) (⟨256 - 256 * ((peer c).val / 8) + (x 1).val, by omega⟩ : Fin 512))
      (fun a => by match a with | ⟨0, _⟩ => rfl | ⟨1, _⟩ => rfl | ⟨2, _⟩ => rfl),
    xstg_apply, xstg_apply, slab_apply m m' hm c _ _ (by omega), slab_apply m m' hm (peer c) _ _ (by omega),
    blk_apply m m' hm c y (by omega) (by omega)]
  rcases hc with hc | hc
  · exact congrArg₂ (· + ·) (wix_congr _ _ _ _ _ _ _ (by omega) (by omega) (by omega))
      (wix_congr _ _ _ _ _ _ _ (by omega) (by omega) (by omega))
  · rw [add_comm (G := EReal)]
    exact congrArg₂ (· + ·) (wix_congr _ _ _ _ _ _ _ (by omega) (by omega) (by omega))
      (wix_congr _ _ _ _ _ _ _ (by omega) (by omega) (by omega))

/-! ## The four stores of the result -/

theorem piece0 (c : Dev nD) (x : S64x256.Idx) :
    out0 m c x = (Layout.blockN ⟨2, ![256, 256]⟩ ⟨2, ![256, 512]⟩ (Layout.meshBlock [2, 2, 4] ![[], [0]] c)
      (Cert.ReferenceIdeal.Read.val_main_v1 (F := Ideal) (Xof m'))) ((R0 : Rect S256x256).emb x) := by
  unfold out0 snd0 xm0 xs0
  rw [pay6_apply, pay1_apply]
  exact band_apply m m' hm c 0 (by omega) _ _ _ _ (k0_off5_eq c) (k0_off1_eq (peer c)) x _ rfl rfl

theorem piece1 (c : Dev nD) (x : S64x256.Idx) :
    out1 m c x = (Layout.blockN ⟨2, ![256, 256]⟩ ⟨2, ![256, 512]⟩ (Layout.meshBlock [2, 2, 4] ![[], [0]] c)
      (Cert.ReferenceIdeal.Read.val_main_v1 (F := Ideal) (Xof m'))) ((R1 : Rect S256x256).emb x) := by
  unfold out1 snd1 xm1 xs1
  rw [pay7_apply, pay2_apply]
  exact band_apply m m' hm c 64 (by omega) _ _ _ _ (k0_off6_eq c) (k0_off2_eq (peer c)) x _ rfl rfl

theorem piece2 (c : Dev nD) (x : S64x256.Idx) :
    out2 m c x = (Layout.blockN ⟨2, ![256, 256]⟩ ⟨2, ![256, 512]⟩ (Layout.meshBlock [2, 2, 4] ![[], [0]] c)
      (Cert.ReferenceIdeal.Read.val_main_v1 (F := Ideal) (Xof m'))) ((R2 : Rect S256x256).emb x) := by
  unfold out2 snd2 xm2 xs2
  rw [pay8_apply, pay34_apply]
  exact band_apply m m' hm c 128 (by omega) _ _ _ _ (k0_off7_eq c) (k0_off3_eq (peer c)) x _ rfl rfl

theorem piece3 (c : Dev nD) (x : S64x256.Idx) :
    out3 m c x = (Layout.blockN ⟨2, ![256, 256]⟩ ⟨2, ![256, 512]⟩ (Layout.meshBlock [2, 2, 4] ![[], [0]] c)
      (Cert.ReferenceIdeal.Read.val_main_v1 (F := Ideal) (Xof m'))) ((R3 : Rect S256x256).emb x) := by
  unfold out3 snd3 xm3 xs3
  rw [pay9_apply, pay5_apply]
  exact band_apply m m' hm c 192 (by omega) _ _ _ _ (k0_off8_eq c) (k0_off4_eq (peer c)) x _ rfl rfl

/-- Device `c`'s result block is its block of the reference's result. -/
theorem outAt_eq (c : Dev nD) :
    outAt (F := Ideal) m c = Layout.blockN ⟨2, ![256, 256]⟩ ⟨2, ![256, 512]⟩ (Layout.meshBlock [2, 2, 4] ![[], [0]] c)
      (Cert.ReferenceIdeal.Read.val_main_v1 (F := Ideal) (Xof m')) := by
  funext y
  refine View.canon_apply_of_pieces (Layout.blockN ⟨2, ![256, 256]⟩ ⟨2, ![256, 512]⟩ (Layout.meshBlock [2, 2, 4] ![[], [0]] c)
      (Cert.ReferenceIdeal.Read.val_main_v1 (F := Ideal) (Xof m'))) (outPieces m c) ?_ y (out_cover m c y)
  intro p hp x
  unfold outPieces at hp
  simp only [List.mem_cons, List.not_mem_nil, or_false] at hp
  rcases hp with rfl | rfl | rfl | rfl
  · exact piece3 m m' hm c x
  · exact piece2 m m' hm c x
  · exact piece1 m m' hm c x
  · exact piece0 m m' hm c x

end Agree

/-- info: 'Cert.RSValue.outAt_eq' depends on axioms: [propext, Classical.choice, Quot.sound] -/
#guard_msgs in #print axioms outAt_eq

end Cert.RSValue

end
-- ==== Proof.lean ====
/-
  The five claims of this certificate, for the pairwise exchange on sixteen devices (mesh 2 × 2 × 4; a device and its peer
  differ in the first mesh coordinate only).

  Both printed programs run from any memory with zero counters: every weakly fair execution of all sixteen devices
  terminates, nothing faults, each device's result block ends as the four row bands "own half plus the peer's rounded
  half, rounded", and its argument array is unchanged. The two frames are that run with the values dropped. The
  reference's frame is its run, read back, with the result dropped. The idealization rewrote no operation, so
  `preserves` is `True`. For `algebraic` the reference's result is the rounded sum of the two slabs; the kernel's run at
  the ideal instance leaves on device `c` the block of that sum the first mesh coordinate of `c` names (the value
  module), and the reference's run leaves the sum itself.
-/
import proofs.«901034_g7700000000001035_dist_rs_v7x_xyz2x2x4_x_m256_n256_bf16_1_alg».proof.Defs
import proofs.«901034_g7700000000001035_dist_rs_v7x_xyz2x2x4_x_m256_n256_bf16_1_alg».proof.Proof.Gen.Kernel
import proofs.«901034_g7700000000001035_dist_rs_v7x_xyz2x2x4_x_m256_n256_bf16_1_alg».proof.Proof.Gen.Kernel.Skeleton
import proofs.«901034_g7700000000001035_dist_rs_v7x_xyz2x2x4_x_m256_n256_bf16_1_alg».proof.Proof.Gen.Kernel.Launch
import proofs.«901034_g7700000000001035_dist_rs_v7x_xyz2x2x4_x_m256_n256_bf16_1_alg».proof.Proof.Gen.Kernel.Points
import proofs.«901034_g7700000000001035_dist_rs_v7x_xyz2x2x4_x_m256_n256_bf16_1_alg».proof.Proof.Gen.Kernel.Frame
import proofs.«901034_g7700000000001035_dist_rs_v7x_xyz2x2x4_x_m256_n256_bf16_1_alg».proof.Proof.Gen.KernelIdeal
import proofs.«901034_g7700000000001035_dist_rs_v7x_xyz2x2x4_x_m256_n256_bf16_1_alg».proof.Proof.Gen.KernelIdeal.Skeleton
import proofs.«901034_g7700000000001035_dist_rs_v7x_xyz2x2x4_x_m256_n256_bf16_1_alg».proof.Proof.Gen.KernelIdeal.Launch
import proofs.«901034_g7700000000001035_dist_rs_v7x_xyz2x2x4_x_m256_n256_bf16_1_alg».proof.Proof.Gen.KernelIdeal.Points
import proofs.«901034_g7700000000001035_dist_rs_v7x_xyz2x2x4_x_m256_n256_bf16_1_alg».proof.Proof.Gen.KernelIdeal.Frame
import proofs.«901034_g7700000000001035_dist_rs_v7x_xyz2x2x4_x_m256_n256_bf16_1_alg».proof.Proof.Gen.ReferenceIdeal
import proofs.«901034_g7700000000001035_dist_rs_v7x_xyz2x2x4_x_m256_n256_bf16_1_alg».proof.Proof.Gen.Pre_finite_inputs_Kernel
import proofs.«901034_g7700000000001035_dist_rs_v7x_xyz2x2x4_x_m256_n256_bf16_1_alg».proof.Proof.Gen.Pre_finite_inputs_ReferenceIdeal
import proofs.«901034_g7700000000001035_dist_rs_v7x_xyz2x2x4_x_m256_n256_bf16_1_alg».proof.Proof.Gen.ReferenceIdeal.Run
import proofs.«901034_g7700000000001035_dist_rs_v7x_xyz2x2x4_x_m256_n256_bf16_1_alg».proof.Proof.Gen.ReferenceIdeal.Read
import proofs.«901034_g7700000000001035_dist_rs_v7x_xyz2x2x4_x_m256_n256_bf16_1_alg».proof.Proof.KernelRS.Run
import proofs.«901034_g7700000000001035_dist_rs_v7x_xyz2x2x4_x_m256_n256_bf16_1_alg».proof.Proof.KernelIdealRS.Run
import proofs.«901034_g7700000000001035_dist_rs_v7x_xyz2x2x4_x_m256_n256_bf16_1_alg».proof.Proof.Value
import Idealize.ShloMosaic.Adequacy
import Idealize.ShloMosaic.Init

noncomputable section

namespace Cert.Proof

open Idealize.ShloMosaic Idealize.SL.Sem

/-- The word-level program runs and leaves its argument arrays unchanged. -/
theorem frame_Kernel : Cert.frame_Kernel (hKernel := Cert.Kernel.Gen.facts) (hPre_finite_inputs_Kernel := Cert.Pre_finite_inputs_Kernel.Gen.facts) :=
  fun m g _ => (θ_run _ _ _).mono (fun _ h c => (h c).2) (Cert.Kernel.RS.run_main (F := Bits) m g)

/-- So does its idealization. -/
theorem frame_KernelIdeal : Cert.frame_KernelIdeal (hKernelIdeal := Cert.KernelIdeal.Gen.facts) (hPre_finite_inputs_Kernel := Cert.Pre_finite_inputs_Kernel.Gen.facts) :=
  fun m g _ => (θ_run _ _ _).mono (fun _ h c => (h c).2) (Cert.KernelIdeal.RS.run_main (F := Ideal) m g)

/-- The reference runs and leaves its argument array unchanged. -/
theorem frame_ReferenceIdeal : Cert.frame_ReferenceIdeal (hReferenceIdeal := Cert.ReferenceIdeal.Gen.facts) (hPre_finite_inputs_ReferenceIdeal := Cert.Pre_finite_inputs_ReferenceIdeal.Gen.facts) :=
  fun m g _ => (θ_run Cert.ReferenceIdeal.defs _ _).mono (fun _ h c => (h c).2) (Cert.ReferenceIdeal.Value.run (F := Ideal) m g)

/-- From memories where each device holds its slab of the reference's array, each device's result block ends as its
    block of the reference's result: the rounded sum of the two slabs. -/
theorem algebraic : Cert.algebraic_KernelIdeal_ReferenceIdeal (hKernelIdeal := Cert.KernelIdeal.Gen.facts) (hReferenceIdeal := Cert.ReferenceIdeal.Gen.facts) (hPre_finite_inputs_Kernel := Cert.Pre_finite_inputs_Kernel.Gen.facts) :=
  fun m g m' g' _ hm =>
    ⟨Cert.ReferenceIdeal.Read.val_main_v1 (F := Ideal) (Cert.RSValue.Xof m'),
      (θ_run _ _ _).mono (fun _ h c => ⟨(h c).1.trans (Cert.RSValue.outAt_eq m m' hm c), (h c).2⟩)
        (Cert.KernelIdeal.RS.run_main (F := Ideal) m g),
      (θ_run Cert.ReferenceIdeal.defs _ _).mono (fun _ h => ⟨(h 0).1, (h 0).2⟩)
        (Cert.ReferenceIdeal.Value.run (F := Ideal) m' g')⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_Kernel, frame_KernelIdeal, frame_ReferenceIdeal, trivial, algebraic⟩

end Cert.Proof

end
